-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S256x10112 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : IVec S1x640000 32 := (extractStridedSlice S1x640000 ![0, 0] · slices_S2x640000_S1x640000_0_0) main_arg1
  let main_v25 : IVec S640000 32 := shapeCast S640000 main_v24 shapeCasts_S1x640000_S640000
  let main_c_8 : IVec S_ 32 := constantI S_ 32 4294957296#32
  let main_v26 : IVec S640000 32 := broadcastInDim S640000 ![] bcast_S_S640000 main_c_8
  let main_v27 : IVec S640000 1 := cmpi .sge main_v25 main_v26
  let main_v28 : IVec S1x640000 32 := (extractStridedSlice S1x640000 ![0, 0] · slices_S2x640000_S1x640000_0_0) main_arg1
  let main_v29 : IVec S640000 32 := shapeCast S640000 main_v28 shapeCasts_S1x640000_S640000
  let main_c_9 : IVec S_ 32 := constantI S_ 32 10000#32
  let main_v30 : IVec S640000 32 := broadcastInDim S640000 ![] bcast_S_S640000 main_c_9
  let main_v31 : IVec S640000 1 := cmpi .slt main_v29 main_v30
  let main_v32 : IVec S640000 1 := andi main_v27 main_v31
  let main_c_10 : IVec S_ 1 := constantI S_ 1 1#1
  let main_v33 : IVec S_ 1 := (fun x v => Host.reduce IntOp.andi x v reducesTo_S640000_S_d0 h_S_) main_v32 main_c_10
  let main_v34 : IVec S_ 1 := andi main_v23 main_v33
  main_v34

def fn {F : FTy → Type} [FloatOps F] (main_arg0 : FVec F S10000x128 .f32) (main_arg1 : IVec S2x640000 32) (main_arg2 : FVec F S128x64 .f32) (main_arg3 : FVec F S64 .f32) (main_arg4 : FVec F S64x1 .f32) (main_arg5 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S64x128 : Shape := ⟨2, ![64, 128]⟩
abbrev S1x64 : Shape := ⟨2, ![1, 64]⟩
abbrev S2x128x10112 : Shape := ⟨3, ![2, 128, 10112]⟩
abbrev S2x1x10112 : Shape := ⟨3, ![2, 1, 10112]⟩
abbrev S256x128 : Shape := ⟨2, ![256, 128]⟩
abbrev S1x256 : Shape := ⟨2, ![1, 256]⟩
abbrev S1x128x10112 : Shape := ⟨3, ![1, 128, 10112]⟩
abbrev S1x1x10112 : Shape := ⟨3, ![1, 1, 10112]⟩
abbrev S256x1 : Shape := ⟨2, ![256, 1]⟩
abbrev S256x10112 : Shape := ⟨2, ![256, 10112]⟩
abbrev S128x256 : Shape := ⟨2, ![128, 256]⟩
abbrev S128x10112 : Shape := ⟨2, ![128, 10112]⟩
abbrev S10112 : Shape := ⟨1, ![10112]⟩
abbrev S1x10112 : Shape := ⟨2, ![1, 10112]⟩
abbrev S1x10000 : Shape := ⟨2, ![1, 10000]⟩
abbrev S64x10112 : Shape := ⟨2, ![64, 10112]⟩
abbrev S10000 : Shape := ⟨1, ![10000]⟩

abbrev nBuf : Space → Nat
  | .hbm => 45
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S1, .i32⟩
  | .hbm, ⟨19, _⟩ => ⟨S_, .i32⟩
  | .hbm, ⟨20, _⟩ => ⟨S640000x1, .i32⟩
  | .hbm, ⟨21, _⟩ => ⟨S640000x1, .i1⟩
  | .hbm, ⟨22, _⟩ => ⟨S1x1, .i32⟩
  | .hbm, ⟨23, _⟩ => ⟨S640000x1, .i32⟩
  | .hbm, ⟨24, _⟩ => ⟨S640000x1, .i1⟩
  | .hbm, ⟨25, _⟩ => ⟨S640000x1, .i1⟩
  | .hbm, ⟨26, _⟩ => ⟨S_, .i1⟩
  | .hbm, ⟨27, _⟩ => ⟨S640000, .i1⟩
  | .hbm, ⟨28, _⟩ => ⟨S640000x128, .f32⟩
  | .hbm, ⟨29, _⟩ => ⟨S640000x128, .i1⟩
  | .hbm, ⟨30, _⟩ => ⟨S_, .f32⟩
  | .hbm, ⟨31, _⟩ => ⟨S640000x128, .f32⟩
  | .hbm, ⟨32, _⟩ => ⟨S640000x128, .f32⟩
  | .hbm, ⟨33, _⟩ => ⟨S640000x128, .bf16⟩
  | .hbm, ⟨34, _⟩ => ⟨S1x640000, .i32⟩
  | .hbm, ⟨35, _⟩ => ⟨S64x128, .f32⟩
  | .hbm, ⟨36, _⟩ => ⟨S64x128, .bf16⟩
  | .hbm, ⟨37, _⟩ => ⟨S1x64, .f32⟩
  | .hbm, ⟨38, _⟩ => ⟨S1x64, .bf16⟩
  | .hbm, ⟨39, _⟩ => ⟨S64x1, .f32⟩
  | .hbm, ⟨40, _⟩ => ⟨S1x1, .f32⟩
  | .hbm, ⟨41, _⟩ => ⟨S2x128x10112, .f32⟩
  | .hbm, ⟨42, _⟩ => ⟨S2x1x10112, .f32⟩
  | .hbm, ⟨43, _⟩ => ⟨S1x10000, .f32⟩
  | .hbm, ⟨44, _⟩ => ⟨S10000, .f32⟩
  | .local _ .vmem, ⟨0, _⟩ => ⟨S256x128, .bf16⟩
  | .local _ .vmem, ⟨1, _⟩ => ⟨S256x128, .bf16⟩
  | .local _ .vmem, ⟨2, _⟩ => ⟨S1x256, .i32⟩
  | .local _ .vmem, ⟨3, _⟩ => ⟨S1x256, .i32⟩
  | .local _ .vmem, ⟨4, _⟩ => ⟨S1x128x10112, .f32⟩
  | .local _ .vmem, ⟨5, _⟩ => ⟨S1x128x10112, .f32⟩
  | .local _ .vmem, ⟨6, _⟩ => ⟨S1x1x10112, .f32⟩
  | .local _ .vmem, ⟨7, _⟩ => ⟨S1x1x10112, .f32⟩
  | .local _ .vmem, ⟨8, _⟩ => ⟨S1x128x10112, .f32⟩
  | .local _ .vmem, ⟨9, _⟩ => ⟨S1x1x10112, .f32⟩
  | .local _ .vmem, ⟨10, _⟩ => ⟨S2x128x10112, .f32⟩
  | .local _ .vmem, ⟨11, _⟩ => ⟨S2x1x10112, .f32⟩
  | .local _ .vmem, ⟨12, _⟩ => ⟨S64x128, .bf16⟩
  | .local _ .vmem, ⟨13, _⟩ => ⟨S64x1, .f32⟩
  | .local _ .vmem, ⟨14, _⟩ => ⟨S1x64, .bf16⟩
  | .local _ .vmem, ⟨15, _⟩ => ⟨S1x1, .f32⟩
  | .local _ .vmem, ⟨16, _⟩ => ⟨S1x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13_0 : Ref sig .tc := ⟨.hbm, 41, rfl⟩
abbrev main_v13_1 : Ref sig .tc := ⟨.hbm, 42, rfl⟩
abbrev main_v14 : Ref sig .tc := ⟨.hbm, 43, rfl⟩
abbrev main_v15 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v31 : BitVec 1 := Scalar.cmpi .eq arg1 c1249_i32
  let v32 : BitVec 32 := Scalar.extui v31
  let c0_i32_17 : BitVec 32 := 0#32
  let v33 : BitVec 1 := Scalar.cmpi .ne v32 c0_i32_17
  v33

def cc0_transform_0 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x10112 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x10112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x128x10112 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x1x10112 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bitsLt_bf16_f32 : FTy.bits .bf16 < FTy.bits .f32
  shapeCasts_S640000_S1x640000 : S640000.ShapeCasts S1x640000
  transposes_S128x64_S64x128_1_0 : S128x64.Transposes [1, 0] S64x128
  transposes_S64x1_S1x64_1_0 : S64x1.Transposes [1, 0] S1x64
  shapeCasts_S64_S64x1 : S64.ShapeCasts S64x1
  shapeCasts_S1_S1x1 : S1.ShapeCasts S1x1
  inb_S1x128x10112_S1x128x10112_0_0_0 : ∀ a, (![0, 0, 0] : Fin 3 → Nat) a + S1x128x10112.size a ≤ S1x128x10112.size a
  h_S1x128x10112 : 0 < S1x128x10112.numel
  shapeCasts_S1x128x10112_S1x128x10112 : S1x128x10112.ShapeCasts S1x128x10112
  inb_S1x1x10112_S1x1x10112_0_0_0 : ∀ a, (![0, 0, 0] : Fin 3 → Nat) a + S1x1x10112.size a ≤ S1x1x10112.size a
  h_S1x1x10112 : 0 < S1x1x10112.numel
  shapeCasts_S1x1x10112_S1x1x10112 : S1x1x10112.ShapeCasts S1x1x10112
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S1x256_p1_0_S256x1 : S1x256.Transposes [1, 0] S256x1
  iota_S256x10112_d1_w32 : S256x10112.Iotas .tc 32 [1]
  broadcasts_S256x1_S256x10112 : S256x1.Broadcasts S256x10112
  natLt_1_32 : 1 < 32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  shapeCasts_S128x10112_S1x128x10112 : S128x10112.ShapeCasts S1x128x10112
  reduces_S256x10112_S10112 : S256x10112.Reduces [0] S10112
  shapeCasts_S10112_S1x10112 : S10112.ShapeCasts S1x10112
  shapeCasts_S1x10112_S1x1x10112 : S1x10112.ShapeCasts S1x1x10112
  inb_S2x128x10112_S1x128x10112_0_0_0 : ∀ a, (![0, 0, 0] : Fin 3 → Nat) a + S1x128x10112.size a ≤ S2x128x10112.size a
  shapeCasts_S1x128x10112_S128x10112 : S1x128x10112.ShapeCasts S128x10112
  inb_S2x128x10112_S1x128x10112_1_0_0 : ∀ a, (![1, 0, 0] : Fin 3 → Nat) a + S1x128x10112.size a ≤ S2x128x10112.size a
  inb_S2x1x10112_S1x1x10112_0_0_0 : ∀ a, (![0, 0, 0] : Fin 3 → Nat) a + S1x1x10112.size a ≤ S2x1x10112.size a
  shapeCasts_S1x1x10112_S1x10112 : S1x1x10112.ShapeCasts S1x10112
  inb_S2x1x10112_S1x1x10112_1_0_0 : ∀ a, (![1, 0, 0] : Fin 3 → Nat) a + S1x1x10112.size a ≤ S2x1x10112.size a
  broadcasts_S1x10112_S128x10112 : S1x10112.Broadcasts S128x10112
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x10112 : S64x1.Broadcasts S64x10112
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x10112 : S1x1.Broadcasts S1x10112
  slices_S1x10112_o0_0_S1x10000 : S1x10112.Slices ![0, 0] S1x10000
  inb_S1x10000_S1x10000_0_0 : ∀ a, (![0, 0] : Fin 2 → Nat) a + S1x10000.size a ≤ S1x10000.size a
  h_S1x10000 : 0 < S1x10000.numel
  shapeCasts_S1x10000_S10000 : S1x10000.ShapeCasts S10000
  gather_S10000x128_S640000x1_S640000x128_1_0_n_n_0_1_1128_wf : GatherDims.WF S10000x128 S640000x1 S640000x128 [1] [0] [] [0] [] 1 ![1, 128]
  dot_S128x256_S256x10112_S128x10112_1_0_0_1_n_n_wf : DotDims.WF S128x256 S256x10112 S128x10112 [1] [0] [0] [1] [] []
  dot_S64x128_S128x10112_S64x10112_1_0_0_1_n_n_wf : DotDims.WF S64x128 S128x10112 S64x10112 [1] [0] [0] [1] [] []
  dot_S1x64_S64x10112_S1x10112_1_0_0_1_n_n_wf : DotDims.WF S1x64 S64x10112 S1x10112 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S640000x128.size a
  hwx0_0 : ∀ i : grid0.Coords, EltTy.bits .bf16 = 32 ∨ (Rect.block (s := S640000x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x640000.size a
  hwx0_1 : ∀ i : grid0.Coords, EltTy.bits .i32 = 32 ∨ (Rect.block (s := S1x640000) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x10112.size a ≤ S2x128x10112.size a
  hwx0_2 : ∀ i : grid0.Coords, EltTy.bits .f32 = 32 ∨ (Rect.block (s := S2x128x10112) S1x128x10112.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10112.size a ≤ S2x1x10112.size a
  hwx0_3 : ∀ i : grid0.Coords, EltTy.bits .f32 = 32 ∨ (Rect.block (s := S2x1x10112) S1x1x10112.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x128x10112.size a ≤ S2x128x10112.size a
  hwx1_0 : ∀ i : grid1.Coords, EltTy.bits .f32 = 32 ∨ (Rect.block (s := S2x128x10112) S2x128x10112.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x1x10112.size a ≤ S2x1x10112.size a
  hwx1_1 : ∀ i : grid1.Coords, EltTy.bits .f32 = 32 ∨ (Rect.block (s := S2x1x10112) S2x1x10112.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .f32 = 32 ∨ (Rect.block (s := S64x1) S64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .bf16 = 32 ∨ (Rect.block (s := S1x64) S1x64.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10000.size a ≤ S1x10000.size a
  hwx1_6 : ∀ i : grid1.Coords, EltTy.bits .f32 = 32 ∨ (Rect.block (s := S1x10000) S1x10000.size (cc1_transform_6 i) (hinb1_6 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S128x256_S256x10112_S128x10112_1_0_0_1_n_n : DotDims S128x256 S256x10112 S128x10112 where
  lhsContracting := [1]
  rhsContracting := [0]
  lhsNonContracting := [0]
  rhsNonContracting := [1]
  lhsBatch := []
  rhsBatch := []
  wf := dot_S128x256_S256x10112_S128x10112_1_0_0_1_n_n_wf
def dot_S64x128_S128x10112_S64x10112_1_0_0_1_n_n : DotDims S64x128 S128x10112 S64x10112 where
  lhsContracting := [1]
  rhsContracting := [0]
  lhsNonContracting := [0]
  rhsNonContracting := [1]
  lhsBatch := []
  rhsBatch := []
  wf := dot_S64x128_S128x10112_S64x10112_1_0_0_1_n_n_wf
def dot_S1x64_S64x10112_S1x10112_1_0_0_1_n_n : DotDims S1x64 S64x10112 S1x10112 where
  lhsContracting := [1]
  rhsContracting := [0]
  lhsNonContracting := [0]
  rhsNonContracting := [1]
  lhsBatch := []
  rhsBatch := []
  wf := dot_S1x64_S64x10112_S1x10112_1_0_0_1_n_n_wf

abbrev win0_0 : Pipeline.Window sig grid0 :=
  Pipeline.Window.ofSpec (Memref.whole main_v5) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x128x10112.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x1x10112.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v13_0) S2x128x10112.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S2x1x10112.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x10000.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S10000x64 : Shape := ⟨2, ![10000, 64]⟩
abbrev S1x64 : Shape := ⟨2, ![1, 64]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S_, .f32⟩
  | .hbm, ⟨20, _⟩ => ⟨S10000x128, .f32⟩
  | .hbm, ⟨21, _⟩ => ⟨S640000x1, .i32⟩
  | .hbm, ⟨22, _⟩ => ⟨S10000x128, .f32⟩
  | .hbm, ⟨23, _⟩ => ⟨S_, .f32⟩
  | .hbm, ⟨24, _⟩ => ⟨S640000, .f32⟩
  | .hbm, ⟨25, _⟩ => ⟨S_, .f32⟩
  | .hbm, ⟨26, _⟩ => ⟨S10000, .f32⟩
  | .hbm, ⟨27, _⟩ => ⟨S640000x1, .i32⟩
  | .hbm, ⟨28, _⟩ => ⟨S10000, .f32⟩
  | .hbm, ⟨29, _⟩ => ⟨S_, .f32⟩
  | .hbm, ⟨30, _⟩ => ⟨S10000, .f32⟩
  | .hbm, ⟨31, _⟩ => ⟨S10000, .f32⟩
  | .hbm, ⟨32, _⟩ => ⟨S10000x1, .f32⟩
  | .hbm, ⟨33, _⟩ => ⟨S10000x128, .f32⟩
  | .hbm, ⟨34, _⟩ => ⟨S10000x128, .f32⟩
  | .hbm, ⟨35, _⟩ => ⟨S10000x64, .f32⟩
  | .hbm, ⟨36, _⟩ => ⟨S1x64, .f32⟩
  | .hbm, ⟨37, _⟩ => ⟨S10000x64, .f32⟩
  | .hbm, ⟨38, _⟩ => ⟨S10000x64, .f32⟩
  | .hbm, ⟨39, _⟩ => ⟨S_, .f32⟩
  | .hbm, ⟨40, _⟩ => ⟨S10000x64, .f32⟩
  | .hbm, ⟨41, _⟩ => ⟨S10000x64, .f32⟩
  | .hbm, ⟨42, _⟩ => ⟨S10000x1, .f32⟩
  | .hbm, ⟨43, _⟩ => ⟨S1x1, .f32⟩
  | .hbm, ⟨44, _⟩ => ⟨S10000x1, .f32⟩
  | .hbm, ⟨45, _⟩ => ⟨S10000x1, .f32⟩
  | .hbm, ⟨46, _⟩ => ⟨S10000x1, .f32⟩
  | .hbm, ⟨47, _⟩ => ⟨S10000x1, .f32⟩
  | .hbm, ⟨48, _⟩ => ⟨S_, .f32⟩
  | .hbm, ⟨49, _⟩ => ⟨S10000x1, .f32⟩
  | .hbm, ⟨50, _⟩ => ⟨S10000x1, .f32⟩
  | .hbm, ⟨51, _⟩ => ⟨S_, .f32⟩
  | .hbm, ⟨52, _⟩ => ⟨S10000x1, .f32⟩
  | .hbm, ⟨53, _⟩ => ⟨S10000x1, .f32⟩
  | .hbm, ⟨54, _⟩ => ⟨S10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_cst : Ref sig .tc := ⟨.hbm, 39, rfl⟩
abbrev main_call0_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  shapeCasts_S10000x1_S10000 : S10000x1.ShapeCasts S10000
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x64_S10000x64_1_0_0_1_n_n_wf : DotDims.WF S10000x128 S128x64 S10000x64 [1] [0] [0] [1] [] []
  dot_S10000x64_S64x1_S10000x1_1_0_0_1_n_n_wf : DotDims.WF S10000x64 S64x1 S10000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.Bits.R0Data.lean ====
/-
  The first kernel region, its proof data.

  The region walks 2500 grid points, 1250 for each of two halves of the incidences.  At a point it reads a block
  of 256 gathered rows and the block of their 256 segment words; it keeps two running arrays in scratch memory,
  the partial sums (one row of 10112 columns per feature) and the partial counts; both are reset at the first
  point of a half and handed to the half's output block at its last point.  Written here: a window's block at a
  point, the two running arrays after every point by recursion on the point, what holds between two points,
  and the record of all this the launch takes.
-/
import proofs.«404063_j72000831750623_3_alg».proof.Proof.Gen.Kernel.Launch
import proofs.«404063_j72000831750623_3_alg».proof.Proof.Gen.Kernel.Skeleton
import proofs.«404063_j72000831750623_3_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 gathered rows of point t. -/
abbrev gblk (c : Dev nD) (t : Fin cfg0.N) : Vec F S256x128 .bf16 := iblk0 V c 0 t
/-- Their 256 segment words. -/
abbrev cblk (c : Dev nD) (t : Fin cfg0.N) : Vec F S1x256 .i32 := iblk0 V c 1 t

/-! ## The running arrays -/

/-- The partial sums after point n: the point's contribution added to what the point before left, or to the
    zero array at the first point of a half. -/
def accS (c : Dev nD) : (n : ℕ) → n < cfg0.N → Vec F S1x128x10112 .f32
  | 0, h => k0_pay4 (cblk V c ⟨0, h⟩) (gblk V c ⟨0, h⟩) k0_pay1
  | n + 1, h => k0_pay4 (cblk V c ⟨n + 1, h⟩) (gblk V c ⟨n + 1, h⟩)
      (if (n + 1) % 1250 = 0 then k0_pay1 else accS c n (Nat.lt_of_succ_lt h))

/-- The partial counts after point n, likewise. -/
def accC (c : Dev nD) : (n : ℕ) → n < cfg0.N → Vec F S1x1x10112 .f32
  | 0, h => k0_pay5 (cblk V c ⟨0, h⟩) k0_pay2
  | n + 1, h => k0_pay5 (cblk V c ⟨n + 1, h⟩)
      (if (n + 1) % 1250 = 0 then k0_pay2 else accC c n (Nat.lt_of_succ_lt h))

/-- At the first point of a half the sums start from the zero array. -/
theorem accS_first (c : Dev nD) (t : Fin cfg0.N) (h : t.val % 1250 = 0) :
    accS V c t.val t.isLt = k0_pay4 (cblk V c t) (gblk V c t) k0_pay1 := by
  obtain ⟨n, hn⟩ := t
  cases n with
  | zero => rfl
  | succ n => exact congrArg (k0_pay4 _ _) (if_pos h)

/-- At any other point they continue what the point before left. -/
theorem accS_next (c : Dev nD) (t : Fin cfg0.N) (h : ¬ t.val % 1250 = 0) :
    accS V c t.val t.isLt = k0_pay4 (cblk V c t) (gblk V c t) (accS V c (t.val - 1) (Nat.lt_of_le_of_lt (Nat.sub_le _ _) t.isLt)) := by
  obtain ⟨n, hn⟩ := t
  cases n with
  | zero => exact absurd (Nat.zero_mod _) h
  | succ n => exact congrArg (k0_pay4 _ _) (if_neg h)

theorem accC_first (c : Dev nD) (t : Fin cfg0.N) (h : t.val % 1250 = 0) :
    accC V c t.val t.isLt = k0_pay5 (cblk V c t) k0_pay2 := by
  obtain ⟨n, hn⟩ := t
  cases n with
  | zero => rfl
  | succ n => exact congrArg (k0_pay5 _) (if_pos h)

theorem accC_next (c : Dev nD) (t : Fin cfg0.N) (h : ¬ t.val % 1250 = 0) :
    accC V c t.val t.isLt = k0_pay5 (cblk V c t) (accC V c (t.val - 1) (Nat.lt_of_le_of_lt (Nat.sub_le _ _) t.isLt)) := by
  obtain ⟨n, hn⟩ := t
  cases n with
  | zero => exact absurd (Nat.zero_mod _) h
  | succ n => exact congrArg (k0_pay5 _) (if_neg h)

/-! ## What holds between two points -/

/-- The two scratch arrays, whole buffers of the kernel's own. -/
abbrev scS : Memref sig .tc .vmem S1x128x10112 .f32 := Memref.whole cc0_scratch0
abbrev scC : Memref sig .tc .vmem S1x1x10112 .f32 := Memref.whole cc0_scratch1

/-- The scoped buffers the region never touches (the other region's staging buffers), each whole at anything. -/
def idleRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- Before the first point: every scoped buffer outside the windows at anything and the generator register at
    some state.  After point n: the two scratch arrays at the running arrays after n, the rest as before. -/
def PhiS0 (c : Dev nD) : (n : ℕ) → n ≤ cfg0.N → sProp 𝕄
  | 0, _ => Pipeline.ΦA spec0 c
  | n + 1, hn => iprop(owns (c : Thread nD τ) scS fullShare (accS V c n hn) ∗ owns (c : Thread nD τ) scC fullShare (accC V c n hn)
      ∗ idleRest c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scS fullShare (accS V c n hn) ∗ owns (c : Thread nD τ) scC fullShare (accC V c n hn)
      ∗ idleRest c ∗ (∃ r, prngReg c r)) := rfl

theorem PhiS0_pos (c : Dev nD) (n : ℕ) (h : n ≤ cfg0.N) (hz : n ≠ 0) :
    PhiS0 V c n h = iprop(owns (c : Thread nD τ) scS fullShare (accS V c (n - 1) (by omega)) ∗ owns (c : Thread nD τ) scC fullShare (accC V c (n - 1) (by omega))
      ∗ idleRest c ∗ (∃ r, prngReg c r)) := by
  cases n with
  | zero => exact absurd rfl hz
  | succ n => rfl

/-- The state before the first point, with the two scratch arrays named. -/
theorem PhiA0_eq (c : Dev nD) :
    (Pipeline.ΦA spec0 c : sProp 𝕄)
      = iprop(iprop((∃ d, owns (c : Thread nD τ) scS fullShare d) ∗ (∃ d, owns (c : Thread nD τ) scC fullShare d) ∗ idleRest c) ∗ (∃ r, prngReg c r)) := by
  unfold Pipeline.ΦA idleRest; rw [scopedRest0_eq]; simp only [scS, scC, owns_whole]; try rfl

/-! ## The record the launch takes -/

/-- The arrays as the region finds them; after the body at point t each input's buffer at its block, each
    output's at the running array after t (read only at the last point of a half, where the body stores it);
    between points the state above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS V c t.val t.isLt
    | ⟨3, _⟩ => accC V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accS V c t.val t.isLt := by dsimp only [dat0]
theorem after0_3 (c : Dev nD) (t : Fin cfg0.N) : (dat0 V c).after 3 t = accC V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.Bits.R1Data.lean ====
/- REGION 1 (the finalizing kernel: one grid point, seven one-block windows): the proof data.
   Definitions and their projections only. Generic in the float model. -/
import proofs.«404063_j72000831750623_3_alg».proof.Proof.Gen.Kernel.Launch
import proofs.«404063_j72000831750623_3_alg».proof.Proof.Gen.Kernel.Skeleton
import proofs.«404063_j72000831750623_3_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The first partial sum: the unit rectangle at plane 0 of the two stacked planes. -/
abbrev r1_0a : Rect S2x128x10112 := Rect.unit (s := S2x128x10112) ![0, 0, 0] S1x128x10112.size inb_S2x128x10112_S1x128x10112_0_0_0
/-- The second partial sum: plane 1. -/
abbrev r1_0b : Rect S2x128x10112 := Rect.unit (s := S2x128x10112) ![1, 0, 0] S1x128x10112.size inb_S2x128x10112_S1x128x10112_1_0_0
/-- The first partial count: plane 0. -/
abbrev r1_1a : Rect S2x1x10112 := Rect.unit (s := S2x1x10112) ![0, 0, 0] S1x1x10112.size inb_S2x1x10112_S1x1x10112_0_0_0
/-- The second partial count: plane 1. -/
abbrev r1_1b : Rect S2x1x10112 := Rect.unit (s := S2x1x10112) ![1, 0, 0] S1x1x10112.size inb_S2x1x10112_S1x1x10112_1_0_0
/-- The first layer's weights, whole. -/
abbrev r1_2 : Rect S64x128 := Rect.unit (s := S64x128) ![0, 0] S64x128.size inb_S64x128_S64x128_0_0
/-- The first layer's bias, whole. -/
abbrev r1_3 : Rect S64x1 := Rect.unit (s := S64x1) ![0, 0] S64x1.size inb_S64x1_S64x1_0_0
/-- The second layer's weights, whole. -/
abbrev r1_4 : Rect S1x64 := Rect.unit (s := S1x64) ![0, 0] S1x64.size inb_S1x64_S1x64_0_0
/-- The second layer's bias, whole. -/
abbrev r1_5 : Rect S1x1 := Rect.unit (s := S1x1) ![0, 0] S1x1.size inb_S1x1_S1x1_0_0
/-- The one store: the whole output block. -/
abbrev r1_6 : Rect S1x10000 := Rect.unit (s := S1x10000) ![0, 0] S1x10000.size inb_S1x10000_S1x10000_0_0

/-! ## What the body leaves in the output window's buffer -/

/-- The output window's staging buffer after the body, from the input windows' blocks: its one store as one
    piece, the payload computed from the eight loaded values. -/
def out1_6 (x0 : Vec F S2x128x10112 .f32) (x1 : Vec F S2x1x10112 .f32) (x2 : Vec F S64x128 .bf16) (x3 : Vec F S64x1 .f32)
    (x4 : Vec F S1x64 .bf16) (x5 : Vec F S1x1 .f32) : Vec F S1x10000 .f32 :=
  View.canon [⟨r1_6, k1_pay1 (View.ld x0 r1_0a) (View.ld x0 r1_0b) (View.ld x1 r1_1a) (View.ld x1 r1_1b)
    (View.ld x2 r1_2) (View.ld x3 r1_3) (View.ld x4 r1_4) (View.ld x5 r1_5)⟩]

/-! ## The pipeline's proof data -/

/-- The proof data of the region on core `c`: the arrays as the region finds them; after the body at point `t`
    each input's buffer at its block and the output's at `out1_6` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

end Cert.Kernel.Hand

end
-- ==== Proof.Bits.SegData.lean ====
/-
  The run's data: what each kernel region is entered from and what it leaves, named.

  The first region is entered from the buffers after the third host stretch and leaves its two output arrays
  (the per-core partial sums and counts) at what its proof data folds to after the last grid point; the second
  is entered from that and leaves its output array likewise.  Written here: the two entry contents, the
  regions' leavings as the unknowns the boundary valuations are written over, the readings of those valuations
  at the output arrays, the proof data per pipeline, and what rides beside the buffers.
-/
import proofs.«404063_j72000831750623_3_alg».proof.Proof.Gen.Kernel.Regions
import proofs.«404063_j72000831750623_3_alg».proof.Proof.Bits.R0Data
import proofs.«404063_j72000831750623_3_alg».proof.Proof.Bits.R1Data

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The regions' entry contents and what they leave -/

/-- The first region's entry contents: the buffers after the third host stretch, read at the TensorCore's references. -/
abbrev Vat3 (c : Dev nD) (b : Ref sig .tc) : Buf (Elt F) ((c : Thread nD τ).loc b) := V3 m c b

/-- What the first region leaves: its two output arrays at what the proof data folds to after the last point
    (every other reference, never read, at its entry contents). -/
def outsA : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (fun r c => V3 m c r) main_v13_0 (fun c => (dat0 (Vat3 m) c).arrAt 2 cfg0.N))
    main_v13_1 (fun c => (dat0 (Vat3 m) c).arrAt 3 cfg0.N)

/-- The second region's entry contents: the first region's exit. -/
abbrev Vat4 (c : Dev nD) (b : Ref sig .tc) : Buf (Elt F) ((c : Thread nD τ).loc b) := V4 m (outsA m) c b

/-- What both regions leave: the above, and the second region's output array at what its proof data folds to. -/
def outsK : Outs (F := F) := fun J =>
  Function.update (β := fun r : Ref sig .tc => (c : Dev nD) → Buf (Elt F) ((c : Thread nD τ).loc r))
    (outsA m J) main_v14 (fun c => (dat1 (Vat4 m) c).arrAt 6 cfg1.N)

/-! ## The boundary valuations read at the output arrays -/

/-- The second region's output array is neither of the first's, so the valuation after the first region does not
    see the last unknown. -/
theorem V4_outsK (c : Dev nD) : V4 m (outsK m) c = V4 m (outsA m) c := by
  have h0 : outsK m 4 main_v13_0 = outsA m 4 main_v13_0 := by
    unfold outsK; exact Function.update_of_ne (by decide) _ _
  have h1 : outsK m 4 main_v13_1 = outsA m 4 main_v13_1 := by
    unfold outsK; exact Function.update_of_ne (by decide) _ _
  unfold V4; rw [h0, h1]

theorem outsA_v13_0 (J : ℕ) (c : Dev nD) : outsA m J main_v13_0 c = (dat0 (Vat3 m) c).arrAt 2 cfg0.N := by
  unfold outsA
  rw [Function.update_of_ne (by decide), Function.update_self]

theorem outsA_v13_1 (J : ℕ) (c : Dev nD) : outsA m J main_v13_1 c = (dat0 (Vat3 m) c).arrAt 3 cfg0.N := by
  unfold outsA
  rw [Function.update_self]

theorem outsK_v14 (J : ℕ) (c : Dev nD) : outsK m J main_v14 c = (dat1 (Vat4 m) c).arrAt 6 cfg1.N := by
  unfold outsK
  rw [Function.update_self]

/-- After the first region the partial sums' array holds what the proof data folds to. -/
theorem V4_v13_0 (c : Dev nD) : V4 m (outsA m) c main_v13_0 = (dat0 (Vat3 m) c).arrAt 2 cfg0.N := by
  unfold V4
  rw [Function.update_of_ne (by decide), Function.update_self]
  exact outsA_v13_0 m 4 c

/-- After the first region the partial counts' array holds what the proof data folds to. -/
theorem V4_v13_1 (c : Dev nD) : V4 m (outsA m) c main_v13_1 = (dat0 (Vat3 m) c).arrAt 3 cfg0.N := by
  unfold V4
  rw [Function.update_self]
  exact outsA_v13_1 m 4 c

/-- After the second region its output array holds what the proof data folds to. -/
theorem V5_v14 (c : Dev nD) : V5 m (outsK m) c main_v14 = (dat1 (Vat4 m) c).arrAt 6 cfg1.N := by
  unfold V5
  rw [Function.update_self]
  exact outsK_v14 m 5 c

/-! ## The proof data per pipeline, and what rides beside the buffers -/

/-- Every pipeline's proof data, each at its region's entry contents: a literal match on the pipeline's index. -/
def pdats : (p : Fin 2) → (c : Dev nD) → Dat τ (Elt F) Unit ℕ (UR sig nD τ) ℕ (cfgs p) c
  | ⟨0, _⟩ => fun c => dat0 (Vat3 m) c
  | ⟨1, _⟩ => fun c => dat1 (Vat4 m) c

/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)

end Cert.Kernel.Hand

end
-- ==== Proof.Bits.R0Conds.lean ====
/-
  The first kernel region: where its two branches are taken, and where its output windows rest.

  The body resets its running arrays where the second grid coordinate is 0 and hands them to the output blocks
  where it is 1249.  Over the 2500 points these are the points congruent to 0 and to 1249 modulo 1250.  An
  output window is idle wherever the second branch is not taken, and is written back exactly where it is.
-/
import proofs.«404063_j72000831750623_3_alg».proof.Proof.Bits.R0Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the second grid coordinate is 0 (the body's own chain of comparisons). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 1250 = 0 :=
  (by decide +kernel : ∀ t : Fin grid0.N, cond0_0 (grid0.coords t) ↔ t.val % 1250 = 0)

/-- The hand-over branch is taken: the second grid coordinate is 1249. -/
abbrev cond0_1 (i : grid0.Coords) : Prop := k0_cond2 i = 1#1
theorem hcond0_1 : ∀ t : Fin cfg0.N, cond0_1 (grid0.coords t) ↔ t.val % 1250 = 1249 :=
  (by decide +kernel : ∀ t : Fin grid0.N, cond0_1 (grid0.coords t) ↔ t.val % 1250 = 1249)

/-- The input windows never rest. -/
theorem liveAt0_0 (t : Fin cfg0.N) : cfg0.idle 0 (grid0.coords t) = false := rfl
theorem liveAt0_1 (t : Fin cfg0.N) : cfg0.idle 1 (grid0.coords t) = false := rfl

/-- An output window rests exactly where the hand-over branch is not taken. -/
theorem idleAt0_2 (t : Fin cfg0.N) (h : ¬cond0_1 (grid0.coords t)) : cfg0.idle 2 (grid0.coords t) = true := by
  show (!(k0_cond2 (grid0.coords t) == 1#1)) = true
  simp only [Bool.not_eq_true', beq_eq_false_iff_ne, ne_eq]; exact h
theorem idleAt0_3 (t : Fin cfg0.N) (h : ¬cond0_1 (grid0.coords t)) : cfg0.idle 3 (grid0.coords t) = true := by
  show (!(k0_cond2 (grid0.coords t) == 1#1)) = true
  simp only [Bool.not_eq_true', beq_eq_false_iff_ne, ne_eq]; exact h
theorem liveAt0_2 (t : Fin cfg0.N) (h : cond0_1 (grid0.coords t)) : cfg0.idle 2 (grid0.coords t) = false := by
  show (!(k0_cond2 (grid0.coords t) == 1#1)) = false
  simp only [Bool.not_eq_false', beq_iff_eq]; exact h
theorem liveAt0_3 (t : Fin cfg0.N) (h : cond0_1 (grid0.coords t)) : cfg0.idle 3 (grid0.coords t) = false := by
  show (!(k0_cond2 (grid0.coords t) == 1#1)) = false
  simp only [Bool.not_eq_false', beq_iff_eq]; exact h

/-- And it is not written back there. -/
theorem noFlush0_2 (t : Fin cfg0.N) (h : ¬cond0_1 (grid0.coords t)) : (cfg0.win 2).flush t = false := by
  cases hf : (cfg0.win 2).flush t with
  | false => rfl
  | true => exact absurd ((hcond0_1 t).mpr ((flush0_2 t).mp hf)) h
theorem noFlush0_3 (t : Fin cfg0.N) (h : ¬cond0_1 (grid0.coords t)) : (cfg0.win 3).flush t = false := by
  cases hf : (cfg0.win 3).flush t with
  | false => rfl
  | true => exact absurd ((hcond0_1 t).mpr ((flush0_3 t).mp hf)) h

/-- Each window's staging memref at a point, as the pipeline passes it to the body, and its wholeness. -/
abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x10112 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x10112 .f32 := win0_3.stage (cfg0.slots t 3)
abbrev hs0_3 (t : Fin cfg0.N) : (ms0_3 t).IsWhole := hstage0_3 ((cfg0.slots t 3).cast nbuf0_3)

/-- The views through which the scratch arrays' and the output buffers' contents are stated. -/
abbrev VS0 : View sig .tc .vmem S1x128x10112 .f32 := (scS).view
abbrev VS1 : View sig .tc .vmem S1x1x10112 .f32 := (scC).view
abbrev VO2 : View sig .tc .vmem S1x128x10112 .f32 := (Memref.whole cc0_stg2_0 : Memref sig .tc .vmem S1x128x10112 .f32).view
abbrev VO3 : View sig .tc .vmem S1x1x10112 .f32 := (Memref.whole cc0_stg3_0 : Memref sig .tc .vmem S1x1x10112 .f32).view

end Cert.Kernel.Hand

end
-- ==== Proof.Bits.R0RunA.lean ====
/-
  The first kernel region, its body at the first point of a half: the reset branch is taken, the hand-over is not.

  The body stores the zero arrays into the two scratch arrays, whatever they held, then adds the point's contribution
  and stores both back whole; the output windows' buffers are not touched.
-/
import proofs.«404063_j72000831750623_3_alg».proof.Proof.Bits.R0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at any contents and the scratch arrays at anything:
    the body runs to the continuation holding the inputs and the output buffers as they were and each scratch array
    with its stores written (the pieces, last first, are what the run finds). -/
noncomputable def run0_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : cond0_0 i) (hc1 : ¬cond0_1 i)
    (x0 : Vec F S256x128 .bf16) (x1 : Vec F S1x256 .i32) :
    Σ' (LS0 : List (View.Piece (Elt F) S1x128x10112 .f32)), { LS1 : List (View.Piece (Elt F) S1x1x10112 .f32) //
      ∀ (y4 : Vec F S1x128x10112 .f32) (y5 : Vec F S1x1x10112 .f32) (E : Set ℕ) (K : PUnit → sProp 𝕄),
        iprop(owns (c : Thread nD τ) arg2 fullShare x0 ∗ owns (c : Thread nD τ) arg3 fullShare x1
            ∗ owns (c : Thread nD τ) arg4 fullShare y4 ∗ owns (c : Thread nD τ) arg5 fullShare y5
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare y4 ∗ owns (c : Thread nD τ) arg5 fullShare y5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, fun y4 y5 E K => ?run⟩
  case run =>
    simp only [cc0__accum_kernel_eq_skeleton]; unfold cc0__accum_kernel_skel
    unfold owns
    iintro ⟨⟨%f0, %hf0, H0⟩, ⟨%f1, %hf1, H1⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists f4; isplitr
      · ipureintro; exact hf4
      iexact H4
    isplitl [H5]
    · iexists f5; isplitr
      · ipureintro; exact hf5
      iexact H5
    isplitl [HS0]; · iexists _; iexact HS0
    iexists _; iexact HS1

end Cert.Kernel.Hand

end
-- ==== Proof.Bits.R0RunB.lean ====
/-
  The first kernel region, its body at a point in the middle of a half: neither branch is taken.

  The body reads the point's rows and segment words, adds their contribution to the running sums and counts held in
  the two scratch arrays, and stores both back whole; the output windows' buffers are not touched.
-/
import proofs.«404063_j72000831750623_3_alg».proof.Proof.Bits.R0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at any contents, the scratch arrays at
    what the point before left: the body runs to the continuation holding the inputs and the output buffers as they
    were and each scratch array with its stores written (the pieces, last first, are what the run finds). -/
noncomputable def run0_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : ¬cond0_0 i) (hc1 : ¬cond0_1 i)
    (x0 : Vec F S256x128 .bf16) (x1 : Vec F S1x256 .i32) (xs0 : Vec F S1x128x10112 .f32) (xs1 : Vec F S1x1x10112 .f32) :
    Σ' (LS0 : List (View.Piece (Elt F) S1x128x10112 .f32)), { LS1 : List (View.Piece (Elt F) S1x1x10112 .f32) //
      ∀ (y4 : Vec F S1x128x10112 .f32) (y5 : Vec F S1x1x10112 .f32) (E : Set ℕ) (K : PUnit → sProp 𝕄),
        iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare y4 ∗ owns (c : Thread nD τ) arg5 fullShare y5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, fun y4 y5 E K => ?run⟩
  case run =>
    simp only [cc0__accum_kernel_eq_skeleton]; unfold cc0__accum_kernel_skel
    unfold owns
    iintro ⟨⟨%f0, %hf0, H0⟩, ⟨%f1, %hf1, H1⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists f4; isplitr
      · ipureintro; exact hf4
      iexact H4
    isplitl [H5]
    · iexists f5; isplitr
      · ipureintro; exact hf5
      iexact H5
    isplitl [HS0]; · iexists _; iexact HS0
    iexists _; iexact HS1

end Cert.Kernel.Hand

end
-- ==== Proof.Bits.R0RunC.lean ====
/-
  The first kernel region, its body at the last point of a half: the hand-over branch is taken, the reset is not.

  The body adds the point's contribution to the running sums and counts, stores both back whole into the scratch
  arrays, then reads them back and stores them whole into the two output windows' buffers.
-/
import proofs.«404063_j72000831750623_3_alg».proof.Proof.Bits.R0Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at anything, the scratch arrays at
    what the point before left: the body runs to the continuation holding the inputs as they were and each scratch
    array and each output buffer with its stores written (the pieces, last first, are what the run finds). -/
noncomputable def run0_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : ¬cond0_0 i) (hc1 : cond0_1 i)
    (x0 : Vec F S256x128 .bf16) (x1 : Vec F S1x256 .i32) (xs0 : Vec F S1x128x10112 .f32) (xs1 : Vec F S1x1x10112 .f32) :
    Σ' (L2 : List (View.Piece (Elt F) S1x128x10112 .f32)) (L3 : List (View.Piece (Elt F) S1x1x10112 .f32))
       (LS0 : List (View.Piece (Elt F) S1x128x10112 .f32)), { LS1 : List (View.Piece (Elt F) S1x1x10112 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, ?_, ?_, fun E K => ?run⟩
  case run =>
    simp only [cc0__accum_kernel_eq_skeleton]; unfold cc0__accum_kernel_skel
    unfold owns
    iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [HS0]; · iexists _; iexact HS0
    iexists _; iexact HS1

end Cert.Kernel.Hand

end
-- ==== Proof.Bits.R0Pieces.lean ====
/-
  The first kernel region: what the body's stores leave, case by case.

  In every case each scratch array receives one whole store last, so it ends at that store's value: the point's
  contribution added to what the body read from the array before — the zero array where the reset branch ran first,
  otherwise what the point before left.  Where the hand-over branch runs, each output buffer receives one whole store
  of what the scratch array then holds.
-/
import proofs.«404063_j72000831750623_3_alg».proof.Proof.Bits.R0RunA
import proofs.«404063_j72000831750623_3_alg».proof.Proof.Bits.R0RunB
import proofs.«404063_j72000831750623_3_alg».proof.Proof.Bits.R0RunC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl
theorem hz2 : (![0, 0] : Fin 2 → ℕ) = fun _ => 0 := by funext a; fin_cases a <;> rfl

/-- At the first point of a half the sums end at the contribution added to the zero array. -/
theorem canS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) :
    View.canon (run0_A c i arg2 harg2 arg3 harg3 arg4 harg4 arg5 harg5 arg6 harg6 arg7 harg7 hc0 hc1 x0 x1).1 = k0_pay4 x1 x0 k0_pay1 := by
  unfold run0_A; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) (y : S1x128x10112.Idx) :
    ∃ pc ∈ (run0_A c i arg2 harg2 arg3 harg3 arg4 harg4 arg5 harg5 arg6 harg6 arg7 harg7 hc0 hc1 x0 x1).1, y ∈ pc.1.set :=
  View.cover_of_tiledL _ S1x128x10112.size (by sl_kernel_rfl) y

theorem evS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32)
    (v : View sig .tc .vmem S1x128x10112 .f32) (f : v.ty.Contents (Elt F)) :
    v.read (Elt F) (v.writes (Elt F) f (run0_A c i arg2 harg2 arg3 harg3 arg4 harg4 arg5 harg5 arg6 harg6 arg7 harg7 hc0 hc1 x0 x1).1) = k0_pay4 x1 x0 k0_pay1 :=
  (View.read_writes_eq_canon v f _ (covS_A c i arg2 harg2 arg3 harg3 arg4 harg4 arg5 harg5 arg6 harg6 arg7 harg7 hc0 hc1 x0 x1)).trans (canS_A c i arg2 harg2 arg3 harg3 arg4 harg4 arg5 harg5 arg6 harg6 arg7 harg7 hc0 hc1 x0 x1)

/-- And the counts likewise. -/
theorem canC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) :
    View.canon (run0_A c i arg2 harg2 arg3 harg3 arg4 harg4 arg5 harg5 arg6 harg6 arg7 harg7 hc0 hc1 x0 x1).2.1 = k0_pay5 x1 k0_pay2 := by
  unfold run0_A; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) (y : S1x1x10112.Idx) :
    ∃ pc ∈ (run0_A c i arg2 harg2 arg3 harg3 arg4 harg4 arg5 harg5 arg6 harg6 arg7 harg7 hc0 hc1 x0 x1).2.1, y ∈ pc.1.set :=
  View.cover_of_tiledL _ S1x1x10112.size (by sl_kernel_rfl) y

theorem evC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32)
    (v : View sig .tc .vmem S1x1x10112 .f32) (f : v.ty.Contents (Elt F)) :
    v.read (Elt F) (v.writes (Elt F) f (run0_A c i arg2 harg2 arg3 harg3 arg4 harg4 arg5 harg5 arg6 harg6 arg7 harg7 hc0 hc1 x0 x1).2.1) = k0_pay5 x1 k0_pay2 :=
  (View.read_writes_eq_canon v f _ (covC_A c i arg2 harg2 arg3 harg3 arg4 harg4 arg5 harg5 arg6 harg6 arg7 harg7 hc0 hc1 x0 x1)).trans (canC_A c i arg2 harg2 arg3 harg3 arg4 harg4 arg5 harg5 arg6 harg6 arg7 harg7 hc0 hc1 x0 x1)

/-- In the middle of a half the sums end at the contribution added to what the point before left. -/
theorem canS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) :
    View.canon (run0_B c i arg2 harg2 arg3 harg3 arg4 harg4 arg5 harg5 arg6 harg6 arg7 harg7 hc0 hc1 x0 x1 xs0 xs1).1 = k0_pay4 x1 x0 xs0 := by
  unfold run0_B; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) (y : S1x128x10112.Idx) :
    ∃ pc ∈ (run0_B c i arg2 harg2 arg3 harg3 arg4 harg4 arg5 harg5 arg6 harg6 arg7 harg7 hc0 hc1 x0 x1 xs0 xs1).1, y ∈ pc.1.set :=
  View.cover_of_tiledL _ S1x128x10112.size (by sl_kernel_rfl) y

theorem evS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_B c i arg2 harg2 arg3 harg3 arg4 harg4 arg5 harg5 arg6 harg6 arg7 harg7 hc0 hc1 x0 x1 xs0 xs1).1) = k0_pay4 x1 x0 xs0 :=
  (View.read_writes_eq_canon v f _ (covS_B c i arg2 harg2 arg3 harg3 arg4 harg4 arg5 harg5 arg6 harg6 arg7 harg7 hc0 hc1 x0 x1 xs0 xs1)).trans (canS_B c i arg2 harg2 arg3 harg3 arg4 harg4 arg5 harg5 arg6 harg6 arg7 harg7 hc0 hc1 x0 x1 xs0 xs1)

/-- And the counts likewise. -/
theorem canC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) :
    View.canon (run0_B c i arg2 harg2 arg3 harg3 arg4 harg4 arg5 harg5 arg6 harg6 arg7 harg7 hc0 hc1 x0 x1 xs0 xs1).2.1 = k0_pay5 x1 xs1 := by
  unfold run0_B; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) (y : S1x1x10112.Idx) :
    ∃ pc ∈ (run0_B c i arg2 harg2 arg3 harg3 arg4 harg4 arg5 harg5 arg6 harg6 arg7 harg7 hc0 hc1 x0 x1 xs0 xs1).2.1, y ∈ pc.1.set :=
  View.cover_of_tiledL _ S1x1x10112.size (by sl_kernel_rfl) y

theorem evC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_B c i arg2 harg2 arg3 harg3 arg4 harg4 arg5 harg5 arg6 harg6 arg7 harg7 hc0 hc1 x0 x1 xs0 xs1).2.1) = k0_pay5 x1 xs1 :=
  (View.read_writes_eq_canon v f _ (covC_B c i arg2 harg2 arg3 harg3 arg4 harg4 arg5 harg5 arg6 harg6 arg7 harg7 hc0 hc1 x0 x1 xs0 xs1)).trans (canC_B c i arg2 harg2 arg3 harg3 arg4 harg4 arg5 harg5 arg6 harg6 arg7 harg7 hc0 hc1 x0 x1 xs0 xs1)

/-- At the last point of a half the sums' output buffer receives the new running sums. -/
theorem canO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).1 = k0_pay4 x1 x0 xs0 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x128x10112.Idx) :
    ∃ pc ∈ (run0_C c i arg2 harg2 arg3 harg3 arg4 harg4 arg5 harg5 arg6 harg6 arg7 harg7 hc0 hc1 x0 x1 xs0 xs1).1, y ∈ pc.1.set :=
  View.cover_of_tiledL _ S1x128x10112.size (by sl_kernel_rfl) y

theorem evO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).1) = k0_pay4 x1 x0 xs0 :=
  (View.read_writes_eq_canon v f _ (covO2_C c i arg2 harg2 arg3 harg3 arg4 harg4 arg5 harg5 arg6 harg6 arg7 harg7 hc0 hc1 x0 x1 xs0 xs1)).trans (canO2_C c i arg2 harg2 arg3 harg3 arg4 harg4 arg5 harg5 arg6 harg6 arg7 harg7 hc0 hc1 x0 x1 xs0 xs1)

/-- The counts' output buffer receives the new running counts. -/
theorem canO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.1 = k0_pay5 x1 xs1 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x1x10112.Idx) :
    ∃ pc ∈ (run0_C c i arg2 harg2 arg3 harg3 arg4 harg4 arg5 harg5 arg6 harg6 arg7 harg7 hc0 hc1 x0 x1 xs0 xs1).2.1, y ∈ pc.1.set :=
  View.cover_of_tiledL _ S1x1x10112.size (by sl_kernel_rfl) y

theorem evO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.1) = k0_pay5 x1 xs1 :=
  (View.read_writes_eq_canon v f _ (covO3_C c i arg2 harg2 arg3 harg3 arg4 harg4 arg5 harg5 arg6 harg6 arg7 harg7 hc0 hc1 x0 x1 xs0 xs1)).trans (canO3_C c i arg2 harg2 arg3 harg3 arg4 harg4 arg5 harg5 arg6 harg6 arg7 harg7 hc0 hc1 x0 x1 xs0 xs1)

/-- The scratch sums end at the same value. -/
theorem canS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.2.1 = k0_pay4 x1 x0 xs0 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x128x10112.Idx) :
    ∃ pc ∈ (run0_C c i arg2 harg2 arg3 harg3 arg4 harg4 arg5 harg5 arg6 harg6 arg7 harg7 hc0 hc1 x0 x1 xs0 xs1).2.2.1, y ∈ pc.1.set :=
  View.cover_of_tiledL _ S1x128x10112.size (by sl_kernel_rfl) y

theorem evS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.2.1) = k0_pay4 x1 x0 xs0 :=
  (View.read_writes_eq_canon v f _ (covS_C c i arg2 harg2 arg3 harg3 arg4 harg4 arg5 harg5 arg6 harg6 arg7 harg7 hc0 hc1 x0 x1 xs0 xs1)).trans (canS_C c i arg2 harg2 arg3 harg3 arg4 harg4 arg5 harg5 arg6 harg6 arg7 harg7 hc0 hc1 x0 x1 xs0 xs1)

/-- The scratch counts likewise. -/
theorem canC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.2.2.1 = k0_pay5 x1 xs1 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x1x10112.Idx) :
    ∃ pc ∈ (run0_C c i arg2 harg2 arg3 harg3 arg4 harg4 arg5 harg5 arg6 harg6 arg7 harg7 hc0 hc1 x0 x1 xs0 xs1).2.2.2.1, y ∈ pc.1.set :=
  View.cover_of_tiledL _ S1x1x10112.size (by sl_kernel_rfl) y

theorem evC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.2.2.1) = k0_pay5 x1 xs1 :=
  (View.read_writes_eq_canon v f _ (covC_C c i arg2 harg2 arg3 harg3 arg4 harg4 arg5 harg5 arg6 harg6 arg7 harg7 hc0 hc1 x0 x1 xs0 xs1)).trans (canC_C c i arg2 harg2 arg3 harg3 arg4 harg4 arg5 harg5 arg6 harg6 arg7 harg7 hc0 hc1 x0 x1 xs0 xs1)

end Cert.Kernel.Hand

end
-- ==== Proof.Bits.R0Oblig.lean ====
/-
  The first kernel region, its body obligation: at every point the body, called on the windows' staging buffers
  and the state between points, runs and leaves what the proof data says.

  A point is the first of its half, the last, or neither (a half has 1250 points, so never both).  In each case the
  body's run for that case applies: the input buffers hold the point's blocks, the scratch arrays what the point
  before left (anything at all before a reset), and afterwards they hold the running arrays after this point; the
  output buffers are handed back untouched except at the last point, where they receive the running arrays.
-/
import proofs.«404063_j72000831750623_3_alg».proof.Proof.Bits.R0Pieces

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block, fetched at this point or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare ((dat0 V c).after 0 t) from by
        unfold Dat.leavesExact; rw [liveAt0_0 t], after0_0,
    show (dat0 V c).leavesExact 1 t = owns (c : Thread nD τ) (ms0_1 t) fullShare ((dat0 V c).after 1 t) from by
        unfold Dat.leavesExact; rw [liveAt0_1 t], after0_1]
  have hN : t.val < 2500 := lt_of_lt_of_eq t.isLt (show cfg0.N = 2500 from N_0)
  by_cases h1 : t.val % 1250 = 1249
  · -- the last point of a half
    have h0 : ¬ t.val % 1250 = 0 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 2 t = owns (c : Thread nD τ) (ms0_2 t) fullShare ((dat0 V c).after 2 t) from by
          unfold Dat.leavesExact; rw [liveAt0_2 t hc1], after0_2,
      show (dat0 V c).leavesExact 3 t = owns (c : Thread nD τ) (ms0_3 t) fullShare ((dat0 V c).after 3 t) from by
          unfold Dat.leavesExact; rw [liveAt0_3 t hc1], after0_3]
    rw [accS_next V c t h0, accC_next V c t h0, PhiS0_pos V c _ _ hz]
    iintro ⟨⟨HS0, HS1, Hr, Hg⟩, Ho, ⟨%d0, H0⟩, ⟨%d1, H1⟩, ⟨%d2, H2⟩, ⟨%d3, H3⟩⟩
    iapply ((run0_C c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hr Hg]
    · isplitl [HS0]
      · unfold owns; iexists _; isplitr
        swap; · iexact HS0
        ipureintro; exact evS_C _ _ _ _ _ _ _ _ _ _ _ _ _ _ _ _ _ _ _ _ _ _
      isplitl [HS1]
      · unfold owns; iexists _; isplitr
        swap; · iexact HS1
        ipureintro; exact evC_C _ _ _ _ _ _ _ _ _ _ _ _ _ _ _ _ _ _ _ _ _ _
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact evO2_C _ _ _ _ _ _ _ _ _ _ _ _ _ _ _ _ _ _ _ _ _ _
    unfold owns; iexists _; isplitr
    swap; · iexact H3
    ipureintro; exact evO3_C _ _ _ _ _ _ _ _ _ _ _ _ _ _ _ _ _ _ _ _ _ _
  · have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    by_cases h0 : t.val % 1250 = 0
    · -- the first point of a half: whatever the scratch arrays held is overwritten
      have hc0 : cond0_0 (grid0.coords t) := (hcond0_0 t).mpr h0
      rw [accS_first V c t h0, accC_first V c t h0]
      by_cases hz : t.val = 0
      · rw [PhiS0_zero V c _ _ hz, PhiA0_eq]
        iintro ⟨⟨⟨HS0, HS1, Hr⟩, Hg⟩, Ho, ⟨%d0, H0⟩, ⟨%d1, H1⟩, ⟨%d2, H2⟩, ⟨%d3, H3⟩⟩
        iapply ((run0_A c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0]
          · unfold owns; iexists _; isplitr
            swap; · iexact HS0
            ipureintro; exact evS_A _ _ _ _ _ _ _ _ _ _ _ _ _ _ _ _ _ _ _ _
          isplitl [HS1]
          · unfold owns; iexists _; isplitr
            swap; · iexact HS1
            ipureintro; exact evC_A _ _ _ _ _ _ _ _ _ _ _ _ _ _ _ _ _ _ _ _
          isplitl [Hr]; · iexact Hr
          iexact Hg
        isplitl [Ho]; · iexact Ho
        isplitl [H0]; · iexact H0
        isplitl [H1]; · iexact H1
        isplitl [H2]; · iexists _; iexact H2
        iexists _; iexact H3
      · rw [PhiS0_pos V c _ _ hz]
        iintro ⟨⟨HS0, HS1, Hr, Hg⟩, Ho, ⟨%d0, H0⟩, ⟨%d1, H1⟩, ⟨%d2, H2⟩, ⟨%d3, H3⟩⟩
        iapply ((run0_A c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0]
          · unfold owns; iexists _; isplitr
            swap; · iexact HS0
            ipureintro; exact evS_A _ _ _ _ _ _ _ _ _ _ _ _ _ _ _ _ _ _ _ _
          isplitl [HS1]
          · unfold owns; iexists _; isplitr
            swap; · iexact HS1
            ipureintro; exact evC_A _ _ _ _ _ _ _ _ _ _ _ _ _ _ _ _ _ _ _ _
          isplitl [Hr]; · iexact Hr
          iexact Hg
        isplitl [Ho]; · iexact Ho
        isplitl [H0]; · iexact H0
        isplitl [H1]; · iexact H1
        isplitl [H2]; · iexists _; iexact H2
        iexists _; iexact H3
    · -- a point in the middle of a half
      have hc0 : ¬cond0_0 (grid0.coords t) := fun h => h0 ((hcond0_0 t).mp h)
      have hz : t.val ≠ 0 := fun h => h0 (by rw [h])
      rw [accS_next V c t h0, accC_next V c t h0, PhiS0_pos V c _ _ hz]
      iintro ⟨⟨HS0, HS1, Hr, Hg⟩, Ho, ⟨%d0, H0⟩, ⟨%d1, H1⟩, ⟨%d2, H2⟩, ⟨%d3, H3⟩⟩
      iapply ((run0_B c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact evS_B _ _ _ _ _ _ _ _ _ _ _ _ _ _ _ _ _ _ _ _ _ _
        isplitl [HS1]
        · unfold owns; iexists _; isplitr
          swap; · iexact HS1
          ipureintro; exact evC_B _ _ _ _ _ _ _ _ _ _ _ _ _ _ _ _ _ _ _ _ _ _
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the state before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the state gives the launch's back: the running arrays' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 2500 := N_0; omega), PhiA0_eq]
  iintro ⟨HS0, HS1, Hr, Hg⟩
  isplitl [HS0 HS1 Hr]
  · isplitl [HS0]; · iexists _; iexact HS0
    isplitl [HS1]; · iexists _; iexact HS1
    iexact Hr
  iexact Hg

end Cert.Kernel.Hand

end
-- ==== Proof.Bits.R1Body.lean ====
/- REGION 1 (the finalizing kernel: one grid point, seven one-block windows): the body's triple and the body
   obligation of the proof data. Generic in the float model. -/
import proofs.«404063_j72000831750623_3_alg».proof.Proof.Bits.R1Data
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

-- membership in a rectangle of these extents: the structural look recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## What the output's one store covers -/

/-- The one store is through the whole-block rectangle, so it covers the block. -/
theorem cover1_6 (p0 : Vec F S1x10000 .f32) (y : S1x10000.Idx) :
    ∃ pc ∈ ([⟨r1_6, p0⟩] : List (View.Piece (Elt F) S1x10000 .f32)), y ∈ pc.1.set :=
  View.cover_of_tiled [⟨r1_6, p0⟩] S1x10000.size (by rfl) y

/-! ## The body's triple -/

set_option maxHeartbeats 1000000 in
/-- The kernel body on whole staging memrefs, the six inputs' at read contents `x0 … x5` and the output's at
    anything, runs to the continuation holding the inputs' as they were and the output's at `out1_6` of the
    inputs': eight loads (two planes of each stacked input, the four small inputs whole), a load of the output
    that is not used, and one whole store of the payload. -/
theorem sound_kernel1 (c : Dev nD) (E : Set ℕ) (i : grid1.Coords)
    (arg1 : Memref sig .tc .vmem S2x128x10112 .f32) (harg1 : arg1.IsWhole)
    (arg2 : Memref sig .tc .vmem S2x1x10112 .f32) (harg2 : arg2.IsWhole)
    (arg3 : Memref sig .tc .vmem S64x128 .bf16) (harg3 : arg3.IsWhole)
    (arg4 : Memref sig .tc .vmem S64x1 .f32) (harg4 : arg4.IsWhole)
    (arg5 : Memref sig .tc .vmem S1x64 .bf16) (harg5 : arg5.IsWhole)
    (arg6 : Memref sig .tc .vmem S1x1 .f32) (harg6 : arg6.IsWhole)
    (arg7 : Memref sig .tc .vmem S1x10000 .f32) (harg7 : arg7.IsWhole)
    (x0 : Vec F S2x128x10112 .f32) (x1 : Vec F S2x1x10112 .f32) (x2 : Vec F S64x128 .bf16) (x3 : Vec F S64x1 .f32)
    (x4 : Vec F S1x64 .bf16) (x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__finalize_kernel i arg1 harg1 arg2 harg2 arg3 harg3 arg4 harg4 arg5 harg5 arg6 harg6 arg7 harg7) K := by
  simp only [cc1__finalize_kernel_eq_skeleton]; unfold cc1__finalize_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## Each input's staging buffer holds its block -/

/-- Input window 0's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`: the invariant, the core's debt, and each window's current staging
    buffer at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Segs.lean ====
/-
  The run: the program's six items from the launch to the return, each kernel region as a segment over the
  thread state "every unscoped buffer at the boundary's contents, the generator register at some state, nothing
  owed".

  A region's arrays are split out of the unscoped buffers at its entry and put back at its exit, at the exit
  contents the boundary valuations name: an input's array as entered (an input is never written back), an
  output's at what the proof data folds to after the last point, every other buffer as entered.  The generator
  register goes into the state between points and comes back; the first region's state between points is the
  launch's at both ends.  Then the conditional run at these regions: the result buffer is read off the last
  valuation and every argument ends as launched.
-/
import proofs.«404063_j72000831750623_3_alg».proof.Proof.Bits.SegData
import proofs.«404063_j72000831750623_3_alg».proof.Proof.Bits.RunAll
import proofs.«404063_j72000831750623_3_alg».proof.Proof.Bits.R0Oblig
import proofs.«404063_j72000831750623_3_alg».proof.Proof.Bits.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exit contents at the regions' arrays, and off them -/

/-- After the first region each of its arrays holds what the proof data folds to: an input's as entered, the two
    outputs' by the valuation's reading at them. -/
theorem hF0 (c : Dev nD) (w : Fin cfg0.W) :
    (pdats m 0 c).arrAt w cfg0.N = V4 m (outsK m) c (Pipeline.arrRef spec0 w) := by
  rw [V4_outsK]
  match w with
  | ⟨0, _⟩ => exact (((dat0 (Vat3 m) c).arrAt_in 0 rfl _).trans (A_eq0 (Vat3 m) c 0)).trans (V4_of m (outsA m) c main_v5 (by decide)).symm
  | ⟨1, _⟩ => exact (((dat0 (Vat3 m) c).arrAt_in 1 rfl _).trans (A_eq0 (Vat3 m) c 1)).trans (V4_of m (outsA m) c main_v6 (by decide)).symm
  | ⟨2, _⟩ => exact (V4_v13_0 m c).symm
  | ⟨3, _⟩ => exact (V4_v13_1 m c).symm

/-- Every buffer that is none of the first region's arrays holds what it held at entry. -/
theorem hrest0 (c : Dev nD) (b : Ref sig .tc) (hb : b ∉ Finset.univ.image (Pipeline.arrRef spec0)) :
    V4 m (outsK m) c b = V3 m c b :=
  V4_of m (outsK m) c b fun h => by
    rcases List.mem_cons.mp h with h | h
    · exact hb (Finset.mem_image.mpr ⟨2, Finset.mem_univ _, h.symm⟩)
    · exact hb (Finset.mem_image.mpr ⟨3, Finset.mem_univ _, (List.mem_singleton.mp h).symm⟩)

/-- The second region's proof data read the arrays off the first region's exit. -/
theorem hA1 (c : Dev nD) (w : Fin cfg1.W) :
    (pdats m 1 c).A w = V4 m (outsK m) c (Pipeline.arrRef spec1 w) := by
  rw [V4_outsK]; exact A_eq1 (Vat4 m) c w

/-- After the second region each of its arrays holds what the proof data folds to: the six inputs' as entered,
    the output's by the valuation's reading at it. -/
theorem hF1 (c : Dev nD) (w : Fin cfg1.W) :
    (pdats m 1 c).arrAt w cfg1.N = V5 m (outsK m) c (Pipeline.arrRef spec1 w) := by
  match w with
  | ⟨0, _⟩ => exact (((dat1 (Vat4 m) c).arrAt_in 0 rfl _).trans (hA1 m c 0)).trans (V5_of m (outsK m) c main_v13_0 (by decide)).symm
  | ⟨1, _⟩ => exact (((dat1 (Vat4 m) c).arrAt_in 1 rfl _).trans (hA1 m c 1)).trans (V5_of m (outsK m) c main_v13_1 (by decide)).symm
  | ⟨2, _⟩ => exact (((dat1 (Vat4 m) c).arrAt_in 2 rfl _).trans (hA1 m c 2)).trans (V5_of m (outsK m) c main_v8 (by decide)).symm
  | ⟨3, _⟩ => exact (((dat1 (Vat4 m) c).arrAt_in 3 rfl _).trans (hA1 m c 3)).trans (V5_of m (outsK m) c main_v11 (by decide)).symm
  | ⟨4, _⟩ => exact (((dat1 (Vat4 m) c).arrAt_in 4 rfl _).trans (hA1 m c 4)).trans (V5_of m (outsK m) c main_v10 (by decide)).symm
  | ⟨5, _⟩ => exact (((dat1 (Vat4 m) c).arrAt_in 5 rfl _).trans (hA1 m c 5)).trans (V5_of m (outsK m) c main_v12 (by decide)).symm
  | ⟨6, _⟩ => exact (V5_v14 m c).symm

/-- Every buffer that is none of the second region's arrays holds what it held at entry. -/
theorem hrest1 (c : Dev nD) (b : Ref sig .tc) (hb : b ∉ Finset.univ.image (Pipeline.arrRef spec1)) :
    V5 m (outsK m) c b = V4 m (outsK m) c b :=
  V5_of m (outsK m) c b fun h =>
    hb (Finset.mem_image.mpr ⟨6, Finset.mem_univ _, (List.mem_singleton.mp h).symm⟩)

/-! ## The regions as segments -/

set_option backward.isDefEq.respectTransparency.types false in
/-- The first region over the thread state: entered from every unscoped buffer after the third host stretch, left
    at the valuation after the region. -/
def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Vat3 m) c).loose
  hwaits := Pipeline.hwaits_of_owed_zero _ _ _ _ (fun _ => ∅) (fun _ _ => 0) 0 fun _ _ => rfl
  pre c := iprop(StableHlo.held (c : Thread nD τ) (Pipeline.ucRefs τ sig) (V3 m c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vat3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vat3 m) c)
    unfold Pipeline.ΦA
    iintro ⟨Hp, -, Hr⟩
    isplitl [Hr]; · iexact Hr
    iexact Hp
  hout c := by
    rw [Pipeline.ownSems0_none]
    refine BIBase.Entails.trans (hout0 (Vat3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat3 m c) (fun b => V4 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the valuation after the first region, left at the
    valuation after the second. Its state between points is the launch's throughout. -/
def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Vat4 m) c).loose
  hwaits := Pipeline.hwaits_of_owed_zero _ _ _ _ (fun _ => ∅) (fun _ _ => 0) 1 fun _ _ => rfl
  pre c := iprop(StableHlo.held (c : Thread nD τ) (Pipeline.ucRefs τ sig) (V4 m (outsK m) c) ∗ R c)
  post c := iprop(StableHlo.held (c : Thread nD τ) (Pipeline.ucRefs τ sig) (V5 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (fun b => V4 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V4 m (outsK m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V4 m (outsK m) c b) (fun b => V5 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of the program terminates, every final
    memory holds the result buffer at the last valuation (over the two regions' leavings named above) and every
    argument as launched. The conditional run at the two regions: the launch deals each core its generator register
    and its dues at nothing, which ride beside the buffers to the end. -/
theorem run_all : θ_run defs (onTc (τ := τ) (main (F := F))) ⟨m, fun _ => 0, ρ⟩ (fun r => ∀ c : Dev nD,
      r.2.mem ((c.tc : Thread nD τ).loc main_v15) = V6 m (outsK m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m (emb₁ : Emb (URounds (GSem nD τ sig) Unit) 𝕄) () Variants.none (fun _ => ∅) (fun _ _ => 0) (fun _ _ => rfl)
    ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach (fun _ => ∅) (fun _ _ => 0) fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- THE FRAME: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Hand

end
-- ==== Proof.R0Data.lean ====
/-
  The first kernel region, its proof data.

  The region walks 2500 grid points, 1250 for each of two halves of the incidences.  At a point it reads a block
  of 256 gathered rows and the block of their 256 segment words; it keeps two running arrays in scratch memory,
  the partial sums (one row of 10112 columns per feature) and the partial counts; both are reset at the first
  point of a half and handed to the half's output block at its last point.  Written here: a window's block at a
  point, the two running arrays after every point by recursion on the point, what holds between two points,
  and the record of all this the launch takes.
-/
import proofs.«404063_j72000831750623_3_alg».proof.Proof.Gen.KernelIdeal.Launch
import proofs.«404063_j72000831750623_3_alg».proof.Proof.Gen.KernelIdeal.Skeleton
import proofs.«404063_j72000831750623_3_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 256 gathered rows of point t. -/
abbrev gblk (c : Dev nD) (t : Fin cfg0.N) : Vec F S256x128 .bf16 := iblk0 V c 0 t
/-- Their 256 segment words. -/
abbrev cblk (c : Dev nD) (t : Fin cfg0.N) : Vec F S1x256 .i32 := iblk0 V c 1 t

/-! ## The running arrays -/

/-- The partial sums after point n: the point's contribution added to what the point before left, or to the
    zero array at the first point of a half. -/
def accS (c : Dev nD) : (n : ℕ) → n < cfg0.N → Vec F S1x128x10112 .f32
  | 0, h => k0_pay4 (cblk V c ⟨0, h⟩) (gblk V c ⟨0, h⟩) k0_pay1
  | n + 1, h => k0_pay4 (cblk V c ⟨n + 1, h⟩) (gblk V c ⟨n + 1, h⟩)
      (if (n + 1) % 1250 = 0 then k0_pay1 else accS c n (Nat.lt_of_succ_lt h))

/-- The partial counts after point n, likewise. -/
def accC (c : Dev nD) : (n : ℕ) → n < cfg0.N → Vec F S1x1x10112 .f32
  | 0, h => k0_pay5 (cblk V c ⟨0, h⟩) k0_pay2
  | n + 1, h => k0_pay5 (cblk V c ⟨n + 1, h⟩)
      (if (n + 1) % 1250 = 0 then k0_pay2 else accC c n (Nat.lt_of_succ_lt h))

/-- At the first point of a half the sums start from the zero array. -/
theorem accS_first (c : Dev nD) (t : Fin cfg0.N) (h : t.val % 1250 = 0) :
    accS V c t.val t.isLt = k0_pay4 (cblk V c t) (gblk V c t) k0_pay1 := by
  obtain ⟨n, hn⟩ := t
  cases n with
  | zero => rfl
  | succ n => exact congrArg (k0_pay4 _ _) (if_pos h)

/-- At any other point they continue what the point before left. -/
theorem accS_next (c : Dev nD) (t : Fin cfg0.N) (h : ¬ t.val % 1250 = 0) :
    accS V c t.val t.isLt = k0_pay4 (cblk V c t) (gblk V c t) (accS V c (t.val - 1) (Nat.lt_of_le_of_lt (Nat.sub_le _ _) t.isLt)) := by
  obtain ⟨n, hn⟩ := t
  cases n with
  | zero => exact absurd (Nat.zero_mod _) h
  | succ n => exact congrArg (k0_pay4 _ _) (if_neg h)

theorem accC_first (c : Dev nD) (t : Fin cfg0.N) (h : t.val % 1250 = 0) :
    accC V c t.val t.isLt = k0_pay5 (cblk V c t) k0_pay2 := by
  obtain ⟨n, hn⟩ := t
  cases n with
  | zero => rfl
  | succ n => exact congrArg (k0_pay5 _) (if_pos h)

theorem accC_next (c : Dev nD) (t : Fin cfg0.N) (h : ¬ t.val % 1250 = 0) :
    accC V c t.val t.isLt = k0_pay5 (cblk V c t) (accC V c (t.val - 1) (Nat.lt_of_le_of_lt (Nat.sub_le _ _) t.isLt)) := by
  obtain ⟨n, hn⟩ := t
  cases n with
  | zero => exact absurd (Nat.zero_mod _) h
  | succ n => exact congrArg (k0_pay5 _) (if_neg h)

/-! ## What holds between two points -/

/-- The two scratch arrays, whole buffers of the kernel's own. -/
abbrev scS : Memref sig .tc .vmem S1x128x10112 .f32 := Memref.whole cc0_scratch0
abbrev scC : Memref sig .tc .vmem S1x1x10112 .f32 := Memref.whole cc0_scratch1

/-- The scoped buffers the region never touches (the other region's staging buffers), each whole at anything. -/
def idleRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f))

/-- Before the first point: every scoped buffer outside the windows at anything and the generator register at
    some state.  After point n: the two scratch arrays at the running arrays after n, the rest as before. -/
def PhiS0 (c : Dev nD) : (n : ℕ) → n ≤ cfg0.N → sProp 𝕄
  | 0, _ => Pipeline.ΦA spec0 c
  | n + 1, hn => iprop(owns (c : Thread nD τ) scS fullShare (accS V c n hn) ∗ owns (c : Thread nD τ) scC fullShare (accC V c n hn)
      ∗ idleRest c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scS fullShare (accS V c n hn) ∗ owns (c : Thread nD τ) scC fullShare (accC V c n hn)
      ∗ idleRest c ∗ (∃ r, prngReg c r)) := rfl

theorem PhiS0_pos (c : Dev nD) (n : ℕ) (h : n ≤ cfg0.N) (hz : n ≠ 0) :
    PhiS0 V c n h = iprop(owns (c : Thread nD τ) scS fullShare (accS V c (n - 1) (by omega)) ∗ owns (c : Thread nD τ) scC fullShare (accC V c (n - 1) (by omega))
      ∗ idleRest c ∗ (∃ r, prngReg c r)) := by
  cases n with
  | zero => exact absurd rfl hz
  | succ n => rfl

/-- The state before the first point, with the two scratch arrays named. -/
theorem PhiA0_eq (c : Dev nD) :
    (Pipeline.ΦA spec0 c : sProp 𝕄)
      = iprop(iprop((∃ d, owns (c : Thread nD τ) scS fullShare d) ∗ (∃ d, owns (c : Thread nD τ) scC fullShare d) ∗ idleRest c) ∗ (∃ r, prngReg c r)) := by
  unfold Pipeline.ΦA idleRest; rw [scopedRest0_eq]; simp only [scS, scC, owns_whole]; try rfl

/-! ## The record the launch takes -/

/-- The arrays as the region finds them; after the body at point t each input's buffer at its block, each
    output's at the running array after t (read only at the last point of a half, where the body stores it);
    between points the state above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS V c t.val t.isLt
    | ⟨3, _⟩ => accC V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accS V c t.val t.isLt := by dsimp only [dat0]
theorem after0_3 (c : Dev nD) (t : Fin cfg0.N) : (dat0 V c).after 3 t = accC V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.R1Data.lean ====
/- REGION 1 (the finalizing kernel: one grid point, seven one-block windows): the proof data.
   Definitions and their projections only. Generic in the float model. -/
import proofs.«404063_j72000831750623_3_alg».proof.Proof.Gen.KernelIdeal.Launch
import proofs.«404063_j72000831750623_3_alg».proof.Proof.Gen.KernelIdeal.Skeleton
import proofs.«404063_j72000831750623_3_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The first partial sum: the unit rectangle at plane 0 of the two stacked planes. -/
abbrev r1_0a : Rect S2x128x10112 := Rect.unit (s := S2x128x10112) ![0, 0, 0] S1x128x10112.size inb_S2x128x10112_S1x128x10112_0_0_0
/-- The second partial sum: plane 1. -/
abbrev r1_0b : Rect S2x128x10112 := Rect.unit (s := S2x128x10112) ![1, 0, 0] S1x128x10112.size inb_S2x128x10112_S1x128x10112_1_0_0
/-- The first partial count: plane 0. -/
abbrev r1_1a : Rect S2x1x10112 := Rect.unit (s := S2x1x10112) ![0, 0, 0] S1x1x10112.size inb_S2x1x10112_S1x1x10112_0_0_0
/-- The second partial count: plane 1. -/
abbrev r1_1b : Rect S2x1x10112 := Rect.unit (s := S2x1x10112) ![1, 0, 0] S1x1x10112.size inb_S2x1x10112_S1x1x10112_1_0_0
/-- The first layer's weights, whole. -/
abbrev r1_2 : Rect S64x128 := Rect.unit (s := S64x128) ![0, 0] S64x128.size inb_S64x128_S64x128_0_0
/-- The first layer's bias, whole. -/
abbrev r1_3 : Rect S64x1 := Rect.unit (s := S64x1) ![0, 0] S64x1.size inb_S64x1_S64x1_0_0
/-- The second layer's weights, whole. -/
abbrev r1_4 : Rect S1x64 := Rect.unit (s := S1x64) ![0, 0] S1x64.size inb_S1x64_S1x64_0_0
/-- The second layer's bias, whole. -/
abbrev r1_5 : Rect S1x1 := Rect.unit (s := S1x1) ![0, 0] S1x1.size inb_S1x1_S1x1_0_0
/-- The one store: the whole output block. -/
abbrev r1_6 : Rect S1x10000 := Rect.unit (s := S1x10000) ![0, 0] S1x10000.size inb_S1x10000_S1x10000_0_0

/-! ## What the body leaves in the output window's buffer -/

/-- The output window's staging buffer after the body, from the input windows' blocks: its one store as one
    piece, the payload computed from the eight loaded values. -/
def out1_6 (x0 : Vec F S2x128x10112 .f32) (x1 : Vec F S2x1x10112 .f32) (x2 : Vec F S64x128 .bf16) (x3 : Vec F S64x1 .f32)
    (x4 : Vec F S1x64 .bf16) (x5 : Vec F S1x1 .f32) : Vec F S1x10000 .f32 :=
  View.canon [⟨r1_6, k1_pay1 (View.ld x0 r1_0a) (View.ld x0 r1_0b) (View.ld x1 r1_1a) (View.ld x1 r1_1b)
    (View.ld x2 r1_2) (View.ld x3 r1_3) (View.ld x4 r1_4) (View.ld x5 r1_5)⟩]

/-! ## The pipeline's proof data -/

/-- The proof data of the region on core `c`: the arrays as the region finds them; after the body at point `t`
    each input's buffer at its block and the output's at `out1_6` of the input blocks; the invariant leaves the
    scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by
  dsimp only [dat1]

end Cert.KernelIdeal.Hand

end
-- ==== Proof.SegData.lean ====
/-
  The run's data: what each kernel region is entered from and what it leaves, named.

  The first region is entered from the buffers after the third host stretch and leaves its two output arrays
  (the per-core partial sums and counts) at what its proof data folds to after the last grid point; the second
  is entered from that and leaves its output array likewise.  Written here: the two entry contents, the
  regions' leavings as the unknowns the boundary valuations are written over, the readings of those valuations
  at the output arrays, the proof data per pipeline, and what rides beside the buffers.
-/
import proofs.«404063_j72000831750623_3_alg».proof.Proof.Gen.KernelIdeal.Regions
import proofs.«404063_j72000831750623_3_alg».proof.Proof.R0Data
import proofs.«404063_j72000831750623_3_alg».proof.Proof.R1Data

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The regions' entry contents and what they leave -/

/-- The first region's entry contents: the buffers after the third host stretch, read at the TensorCore's references. -/
abbrev Vat3 (c : Dev nD) (b : Ref sig .tc) : Buf (Elt F) ((c : Thread nD τ).loc b) := V3 m c b

/-- What the first region leaves: its two output arrays at what the proof data folds to after the last point
    (every other reference, never read, at its entry contents). -/
def outsA : Outs (F := F) := fun _ =>
  Function.update (β := fun r : Ref sig .tc => (c : Dev nD) → Buf (Elt F) ((c : Thread nD τ).loc r))
    (Function.update (β := fun r : Ref sig .tc => (c : Dev nD) → Buf (Elt F) ((c : Thread nD τ).loc r))
      (fun r c => V3 m c r) main_v13_0 (fun c => (dat0 (Vat3 m) c).arrAt 2 cfg0.N))
    main_v13_1 (fun c => (dat0 (Vat3 m) c).arrAt 3 cfg0.N)

/-- The second region's entry contents: the first region's exit. -/
abbrev Vat4 (c : Dev nD) (b : Ref sig .tc) : Buf (Elt F) ((c : Thread nD τ).loc b) := V4 m (outsA m) c b

/-- What both regions leave: the above, and the second region's output array at what its proof data folds to. -/
def outsK : Outs (F := F) := fun J =>
  Function.update (β := fun r : Ref sig .tc => (c : Dev nD) → Buf (Elt F) ((c : Thread nD τ).loc r))
    (outsA m J) main_v14 (fun c => (dat1 (Vat4 m) c).arrAt 6 cfg1.N)

/-! ## The boundary valuations read at the output arrays -/

/-- The second region's output array is neither of the first's, so the valuation after the first region does not
    see the last unknown. -/
theorem V4_outsK (c : Dev nD) : V4 m (outsK m) c = V4 m (outsA m) c := by
  have h0 : outsK m 4 main_v13_0 = outsA m 4 main_v13_0 := by
    unfold outsK; exact Function.update_of_ne (by decide) _ _
  have h1 : outsK m 4 main_v13_1 = outsA m 4 main_v13_1 := by
    unfold outsK; exact Function.update_of_ne (by decide) _ _
  unfold V4; rw [h0, h1]

theorem outsA_v13_0 (J : ℕ) (c : Dev nD) : outsA m J main_v13_0 c = (dat0 (Vat3 m) c).arrAt 2 cfg0.N := by
  unfold outsA
  rw [Function.update_of_ne (by decide), Function.update_self]

theorem outsA_v13_1 (J : ℕ) (c : Dev nD) : outsA m J main_v13_1 c = (dat0 (Vat3 m) c).arrAt 3 cfg0.N := by
  unfold outsA
  rw [Function.update_self]

theorem outsK_v14 (J : ℕ) (c : Dev nD) : outsK m J main_v14 c = (dat1 (Vat4 m) c).arrAt 6 cfg1.N := by
  unfold outsK
  rw [Function.update_self]

/-- After the first region the partial sums' array holds what the proof data folds to. -/
theorem V4_v13_0 (c : Dev nD) : V4 m (outsA m) c main_v13_0 = (dat0 (Vat3 m) c).arrAt 2 cfg0.N := by
  unfold V4
  rw [Function.update_of_ne (by decide), Function.update_self]
  exact outsA_v13_0 m 4 c

/-- After the first region the partial counts' array holds what the proof data folds to. -/
theorem V4_v13_1 (c : Dev nD) : V4 m (outsA m) c main_v13_1 = (dat0 (Vat3 m) c).arrAt 3 cfg0.N := by
  unfold V4
  rw [Function.update_self]
  exact outsA_v13_1 m 4 c

/-- After the second region its output array holds what the proof data folds to. -/
theorem V5_v14 (c : Dev nD) : V5 m (outsK m) c main_v14 = (dat1 (Vat4 m) c).arrAt 6 cfg1.N := by
  unfold V5
  rw [Function.update_self]
  exact outsK_v14 m 5 c

/-! ## The proof data per pipeline, and what rides beside the buffers -/

/-- Every pipeline's proof data, each at its region's entry contents: a literal match on the pipeline's index. -/
def pdats : (p : Fin 2) → (c : Dev nD) → Dat τ (Elt F) Unit ℕ (UR sig nD τ) ℕ (cfgs p) c
  | ⟨0, _⟩ => fun c => dat0 (Vat3 m) c
  | ⟨1, _⟩ => fun c => dat1 (Vat4 m) c

/-- What rides beside the buffers through every item: the core's generator register at some state and its dues,
    at nothing. -/
abbrev R (c : Dev nD) : sProp 𝕄 := iprop((∃ r, prngReg c r) ∗ ∃ W, owes (c : Thread nD τ) (0 : CellTallies nD τ sig Unit) W)

end Cert.KernelIdeal.Hand

end
-- ==== Proof.R0Conds.lean ====
/-
  The first kernel region: where its two branches are taken, and where its output windows rest.

  The body resets its running arrays where the second grid coordinate is 0 and hands them to the output blocks
  where it is 1249.  Over the 2500 points these are the points congruent to 0 and to 1249 modulo 1250.  An
  output window is idle wherever the second branch is not taken, and is written back exactly where it is.
-/
import proofs.«404063_j72000831750623_3_alg».proof.Proof.R0Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the second grid coordinate is 0 (the body's own chain of comparisons). -/
abbrev cond0_0 (i : grid0.Coords) : Prop :=
  (Scalar.cmpi .ne (Scalar.extui (Scalar.cmpi .eq (BitVec.ofNat 32 (i 1).val) 0#32)) 0#32) = 1#1
theorem hcond0_0 : ∀ t : Fin cfg0.N, cond0_0 (grid0.coords t) ↔ t.val % 1250 = 0 :=
  (by decide +kernel : ∀ t : Fin grid0.N, cond0_0 (grid0.coords t) ↔ t.val % 1250 = 0)

/-- The hand-over branch is taken: the second grid coordinate is 1249. -/
abbrev cond0_1 (i : grid0.Coords) : Prop := k0_cond2 i = 1#1
theorem hcond0_1 : ∀ t : Fin cfg0.N, cond0_1 (grid0.coords t) ↔ t.val % 1250 = 1249 :=
  (by decide +kernel : ∀ t : Fin grid0.N, cond0_1 (grid0.coords t) ↔ t.val % 1250 = 1249)

/-- The input windows never rest. -/
theorem liveAt0_0 (t : Fin cfg0.N) : cfg0.idle 0 (grid0.coords t) = false := rfl
theorem liveAt0_1 (t : Fin cfg0.N) : cfg0.idle 1 (grid0.coords t) = false := rfl

/-- An output window rests exactly where the hand-over branch is not taken. -/
theorem idleAt0_2 (t : Fin cfg0.N) (h : ¬cond0_1 (grid0.coords t)) : cfg0.idle 2 (grid0.coords t) = true := by
  show (!(k0_cond2 (grid0.coords t) == 1#1)) = true
  simp only [Bool.not_eq_true', beq_eq_false_iff_ne, ne_eq]; exact h
theorem idleAt0_3 (t : Fin cfg0.N) (h : ¬cond0_1 (grid0.coords t)) : cfg0.idle 3 (grid0.coords t) = true := by
  show (!(k0_cond2 (grid0.coords t) == 1#1)) = true
  simp only [Bool.not_eq_true', beq_eq_false_iff_ne, ne_eq]; exact h
theorem liveAt0_2 (t : Fin cfg0.N) (h : cond0_1 (grid0.coords t)) : cfg0.idle 2 (grid0.coords t) = false := by
  show (!(k0_cond2 (grid0.coords t) == 1#1)) = false
  simp only [Bool.not_eq_false', beq_iff_eq]; exact h
theorem liveAt0_3 (t : Fin cfg0.N) (h : cond0_1 (grid0.coords t)) : cfg0.idle 3 (grid0.coords t) = false := by
  show (!(k0_cond2 (grid0.coords t) == 1#1)) = false
  simp only [Bool.not_eq_false', beq_iff_eq]; exact h

/-- And it is not written back there. -/
theorem noFlush0_2 (t : Fin cfg0.N) (h : ¬cond0_1 (grid0.coords t)) : (cfg0.win 2).flush t = false := by
  cases hf : (cfg0.win 2).flush t with
  | false => rfl
  | true => exact absurd ((hcond0_1 t).mpr ((flush0_2 t).mp hf)) h
theorem noFlush0_3 (t : Fin cfg0.N) (h : ¬cond0_1 (grid0.coords t)) : (cfg0.win 3).flush t = false := by
  cases hf : (cfg0.win 3).flush t with
  | false => rfl
  | true => exact absurd ((hcond0_1 t).mpr ((flush0_3 t).mp hf)) h

/-- Each window's staging memref at a point, as the pipeline passes it to the body, and its wholeness. -/
abbrev ms0_0 (t : Fin cfg0.N) : Memref sig .tc .vmem S256x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x10112 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x10112 .f32 := win0_3.stage (cfg0.slots t 3)
abbrev hs0_3 (t : Fin cfg0.N) : (ms0_3 t).IsWhole := hstage0_3 ((cfg0.slots t 3).cast nbuf0_3)

/-- The views through which the scratch arrays' and the output buffers' contents are stated. -/
abbrev VS0 : View sig .tc .vmem S1x128x10112 .f32 := (scS).view
abbrev VS1 : View sig .tc .vmem S1x1x10112 .f32 := (scC).view
abbrev VO2 : View sig .tc .vmem S1x128x10112 .f32 := (Memref.whole cc0_stg2_0 : Memref sig .tc .vmem S1x128x10112 .f32).view
abbrev VO3 : View sig .tc .vmem S1x1x10112 .f32 := (Memref.whole cc0_stg3_0 : Memref sig .tc .vmem S1x1x10112 .f32).view

end Cert.KernelIdeal.Hand

end
-- ==== Proof.R0RunA.lean ====
/-
  The first kernel region, its body at the first point of a half: the reset branch is taken, the hand-over is not.

  The body stores the zero arrays into the two scratch arrays, whatever they held, then adds the point's contribution
  and stores both back whole; the output windows' buffers are not touched.
-/
import proofs.«404063_j72000831750623_3_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at any contents and the scratch arrays at anything:
    the body runs to the continuation holding the inputs and the output buffers as they were and each scratch array
    with its stores written (the pieces, last first, are what the run finds). -/
noncomputable def run0_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : cond0_0 i) (hc1 : ¬cond0_1 i)
    (x0 : Vec F S256x128 .bf16) (x1 : Vec F S1x256 .i32) :
    Σ' (LS0 : List (View.Piece (Elt F) S1x128x10112 .f32)), { LS1 : List (View.Piece (Elt F) S1x1x10112 .f32) //
      ∀ (y4 : Vec F S1x128x10112 .f32) (y5 : Vec F S1x1x10112 .f32) (E : Set ℕ) (K : PUnit → sProp 𝕄),
        iprop(owns (c : Thread nD τ) arg2 fullShare x0 ∗ owns (c : Thread nD τ) arg3 fullShare x1
            ∗ owns (c : Thread nD τ) arg4 fullShare y4 ∗ owns (c : Thread nD τ) arg5 fullShare y5
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1
                ∗ owns (c : Thread nD τ) arg4 fullShare y4 ∗ owns (c : Thread nD τ) arg5 fullShare y5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, fun y4 y5 E K => ?run⟩
  case run =>
    simp only [cc0__accum_kernel_eq_skeleton]; unfold cc0__accum_kernel_skel
    unfold owns
    iintro ⟨⟨%f0, %hf0, H0⟩, ⟨%f1, %hf1, H1⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists f4; isplitr
      · ipureintro; exact hf4
      iexact H4
    isplitl [H5]
    · iexists f5; isplitr
      · ipureintro; exact hf5
      iexact H5
    isplitl [HS0]; · iexists _; iexact HS0
    iexists _; iexact HS1

end Cert.KernelIdeal.Hand

end
-- ==== Proof.R0RunB.lean ====
/-
  The first kernel region, its body at a point in the middle of a half: neither branch is taken.

  The body reads the point's rows and segment words, adds their contribution to the running sums and counts held in
  the two scratch arrays, and stores both back whole; the output windows' buffers are not touched.
-/
import proofs.«404063_j72000831750623_3_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at any contents, the scratch arrays at
    what the point before left: the body runs to the continuation holding the inputs and the output buffers as they
    were and each scratch array with its stores written (the pieces, last first, are what the run finds). -/
noncomputable def run0_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : ¬cond0_0 i) (hc1 : ¬cond0_1 i)
    (x0 : Vec F S256x128 .bf16) (x1 : Vec F S1x256 .i32) (xs0 : Vec F S1x128x10112 .f32) (xs1 : Vec F S1x1x10112 .f32) :
    Σ' (LS0 : List (View.Piece (Elt F) S1x128x10112 .f32)), { LS1 : List (View.Piece (Elt F) S1x1x10112 .f32) //
      ∀ (y4 : Vec F S1x128x10112 .f32) (y5 : Vec F S1x1x10112 .f32) (E : Set ℕ) (K : PUnit → sProp 𝕄),
        iprop(owns (c : Thread nD τ) arg2 fullShare x0 ∗ owns (c : Thread nD τ) arg3 fullShare x1
            ∗ owns (c : Thread nD τ) arg4 fullShare y4 ∗ owns (c : Thread nD τ) arg5 fullShare y5
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ owns (c : Thread nD τ) arg4 fullShare y4 ∗ owns (c : Thread nD τ) arg5 fullShare y5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, fun y4 y5 E K => ?run⟩
  case run =>
    simp only [cc0__accum_kernel_eq_skeleton]; unfold cc0__accum_kernel_skel
    unfold owns
    iintro ⟨⟨%f0, %hf0, H0⟩, ⟨%f1, %hf1, H1⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists f4; isplitr
      · ipureintro; exact hf4
      iexact H4
    isplitl [H5]
    · iexists f5; isplitr
      · ipureintro; exact hf5
      iexact H5
    isplitl [HS0]; · iexists _; iexact HS0
    iexists _; iexact HS1

end Cert.KernelIdeal.Hand

end
-- ==== Proof.R0RunC.lean ====
/-
  The first kernel region, its body at the last point of a half: the hand-over branch is taken, the reset is not.

  The body adds the point's contribution to the running sums and counts, stores both back whole into the scratch
  arrays, then reads them back and stores them whole into the two output windows' buffers.
-/
import proofs.«404063_j72000831750623_3_alg».proof.Proof.R0Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs, the inputs at their contents, the output buffers at anything, the scratch arrays at
    what the point before left: the body runs to the continuation holding the inputs as they were and each scratch
    array and each output buffer with its stores written (the pieces, last first, are what the run finds). -/
noncomputable def run0_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole)
    (hc0 : ¬cond0_0 i) (hc1 : cond0_1 i)
    (x0 : Vec F S256x128 .bf16) (x1 : Vec F S1x256 .i32) (xs0 : Vec F S1x128x10112 .f32) (xs1 : Vec F S1x1x10112 .f32) :
    Σ' (L2 : List (View.Piece (Elt F) S1x128x10112 .f32)) (L3 : List (View.Piece (Elt F) S1x1x10112 .f32))
       (LS0 : List (View.Piece (Elt F) S1x128x10112 .f32)), { LS1 : List (View.Piece (Elt F) S1x1x10112 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__accum_kernel i arg2 harg2 arg3 harg3 arg4 harg4 arg5 harg5 arg6 harg6 arg7 harg7) K } := by
  refine ⟨?_, ?_, ?_, ?_, fun E K => ?run⟩
  case run =>
    simp only [cc0__accum_kernel_eq_skeleton]; unfold cc0__accum_kernel_skel
    unfold owns
    iintro ⟨⟨%f0, %hf0, H0⟩, ⟨%f1, %hf1, H1⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [HS0]; · iexists _; iexact HS0
    iexists _; iexact HS1

end Cert.KernelIdeal.Hand

end
-- ==== Proof.R0Pieces.lean ====
/-
  The first kernel region: what the body's stores leave, case by case.

  In every case each scratch array receives one whole store last, so it ends at that store's value: the point's
  contribution added to what the body read from the array before — the zero array where the reset branch ran first,
  otherwise what the point before left.  Where the hand-over branch runs, each output buffer receives one whole store
  of what the scratch array then holds.
-/
import proofs.«404063_j72000831750623_3_alg».proof.Proof.R0RunA
import proofs.«404063_j72000831750623_3_alg».proof.Proof.R0RunB
import proofs.«404063_j72000831750623_3_alg».proof.Proof.R0RunC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl
theorem hz2 : (![0, 0] : Fin 2 → ℕ) = fun _ => 0 := by funext a; fin_cases a <;> rfl

/-- At the first point of a half the sums end at the contribution added to the zero array. -/
theorem canS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) :
    View.canon (run0_A c i arg2 harg2 arg3 harg3 arg4 harg4 arg5 harg5 arg6 harg6 arg7 harg7 hc0 hc1 x0 x1).1 = k0_pay4 x1 x0 k0_pay1 := by
  unfold run0_A; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) (y : S1x128x10112.Idx) :
    ∃ pc ∈ (run0_A c i arg2 harg2 arg3 harg3 arg4 harg4 arg5 harg5 arg6 harg6 arg7 harg7 hc0 hc1 x0 x1).1, y ∈ pc.1.set :=
  View.cover_of_tiledL _ S1x128x10112.size (by sl_kernel_rfl) y

theorem evS_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32)
    (v : View sig .tc .vmem S1x128x10112 .f32) (f : v.ty.Contents (Elt F)) :
    v.read (Elt F) (v.writes (Elt F) f (run0_A c i arg2 harg2 arg3 harg3 arg4 harg4 arg5 harg5 arg6 harg6 arg7 harg7 hc0 hc1 x0 x1).1) = k0_pay4 x1 x0 k0_pay1 :=
  (View.read_writes_eq_canon v f _ (covS_A c i arg2 harg2 arg3 harg3 arg4 harg4 arg5 harg5 arg6 harg6 arg7 harg7 hc0 hc1 x0 x1)).trans (canS_A c i arg2 harg2 arg3 harg3 arg4 harg4 arg5 harg5 arg6 harg6 arg7 harg7 hc0 hc1 x0 x1)

/-- And the counts likewise. -/
theorem canC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) :
    View.canon (run0_A c i arg2 harg2 arg3 harg3 arg4 harg4 arg5 harg5 arg6 harg6 arg7 harg7 hc0 hc1 x0 x1).2.1 = k0_pay5 x1 k0_pay2 := by
  unfold run0_A; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32) (y : S1x1x10112.Idx) :
    ∃ pc ∈ (run0_A c i arg2 harg2 arg3 harg3 arg4 harg4 arg5 harg5 arg6 harg6 arg7 harg7 hc0 hc1 x0 x1).2.1, y ∈ pc.1.set :=
  View.cover_of_tiledL _ S1x1x10112.size (by sl_kernel_rfl) y

theorem evC_A (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : cond0_0 i) (hc1 : ¬cond0_1 i) (x0 : Vec F S256x128 .bf16) (x1 : Vec F S1x256 .i32)
    (v : View sig .tc .vmem S1x1x10112 .f32) (f : v.ty.Contents (Elt F)) :
    v.read (Elt F) (v.writes (Elt F) f (run0_A c i arg2 harg2 arg3 harg3 arg4 harg4 arg5 harg5 arg6 harg6 arg7 harg7 hc0 hc1 x0 x1).2.1) = k0_pay5 x1 k0_pay2 :=
  (View.read_writes_eq_canon v f _ (covC_A c i arg2 harg2 arg3 harg3 arg4 harg4 arg5 harg5 arg6 harg6 arg7 harg7 hc0 hc1 x0 x1)).trans (canC_A c i arg2 harg2 arg3 harg3 arg4 harg4 arg5 harg5 arg6 harg6 arg7 harg7 hc0 hc1 x0 x1)

/-- In the middle of a half the sums end at the contribution added to what the point before left. -/
theorem canS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) :
    View.canon (run0_B c i arg2 harg2 arg3 harg3 arg4 harg4 arg5 harg5 arg6 harg6 arg7 harg7 hc0 hc1 x0 x1 xs0 xs1).1 = k0_pay4 x1 x0 xs0 := by
  unfold run0_B; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) (y : S1x128x10112.Idx) :
    ∃ pc ∈ (run0_B c i arg2 harg2 arg3 harg3 arg4 harg4 arg5 harg5 arg6 harg6 arg7 harg7 hc0 hc1 x0 x1 xs0 xs1).1, y ∈ pc.1.set :=
  View.cover_of_tiledL _ S1x128x10112.size (by sl_kernel_rfl) y

theorem evS_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_B c i arg2 harg2 arg3 harg3 arg4 harg4 arg5 harg5 arg6 harg6 arg7 harg7 hc0 hc1 x0 x1 xs0 xs1).1) = k0_pay4 x1 x0 xs0 :=
  (View.read_writes_eq_canon v f _ (covS_B c i arg2 harg2 arg3 harg3 arg4 harg4 arg5 harg5 arg6 harg6 arg7 harg7 hc0 hc1 x0 x1 xs0 xs1)).trans (canS_B c i arg2 harg2 arg3 harg3 arg4 harg4 arg5 harg5 arg6 harg6 arg7 harg7 hc0 hc1 x0 x1 xs0 xs1)

/-- And the counts likewise. -/
theorem canC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) :
    View.canon (run0_B c i arg2 harg2 arg3 harg3 arg4 harg4 arg5 harg5 arg6 harg6 arg7 harg7 hc0 hc1 x0 x1 xs0 xs1).2.1 = k0_pay5 x1 xs1 := by
  unfold run0_B; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32) (y : S1x1x10112.Idx) :
    ∃ pc ∈ (run0_B c i arg2 harg2 arg3 harg3 arg4 harg4 arg5 harg5 arg6 harg6 arg7 harg7 hc0 hc1 x0 x1 xs0 xs1).2.1, y ∈ pc.1.set :=
  View.cover_of_tiledL _ S1x1x10112.size (by sl_kernel_rfl) y

theorem evC_B (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : ¬cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_B c i arg2 harg2 arg3 harg3 arg4 harg4 arg5 harg5 arg6 harg6 arg7 harg7 hc0 hc1 x0 x1 xs0 xs1).2.1) = k0_pay5 x1 xs1 :=
  (View.read_writes_eq_canon v f _ (covC_B c i arg2 harg2 arg3 harg3 arg4 harg4 arg5 harg5 arg6 harg6 arg7 harg7 hc0 hc1 x0 x1 xs0 xs1)).trans (canC_B c i arg2 harg2 arg3 harg3 arg4 harg4 arg5 harg5 arg6 harg6 arg7 harg7 hc0 hc1 x0 x1 xs0 xs1)

/-- At the last point of a half the sums' output buffer receives the new running sums. -/
theorem canO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).1 = k0_pay4 x1 x0 xs0 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x128x10112.Idx) :
    ∃ pc ∈ (run0_C c i arg2 harg2 arg3 harg3 arg4 harg4 arg5 harg5 arg6 harg6 arg7 harg7 hc0 hc1 x0 x1 xs0 xs1).1, y ∈ pc.1.set :=
  View.cover_of_tiledL _ S1x128x10112.size (by sl_kernel_rfl) y

theorem evO2_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).1) = k0_pay4 x1 x0 xs0 :=
  (View.read_writes_eq_canon v f _ (covO2_C c i arg2 harg2 arg3 harg3 arg4 harg4 arg5 harg5 arg6 harg6 arg7 harg7 hc0 hc1 x0 x1 xs0 xs1)).trans (canO2_C c i arg2 harg2 arg3 harg3 arg4 harg4 arg5 harg5 arg6 harg6 arg7 harg7 hc0 hc1 x0 x1 xs0 xs1)

/-- The counts' output buffer receives the new running counts. -/
theorem canO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.1 = k0_pay5 x1 xs1 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x1x10112.Idx) :
    ∃ pc ∈ (run0_C c i arg2 harg2 arg3 harg3 arg4 harg4 arg5 harg5 arg6 harg6 arg7 harg7 hc0 hc1 x0 x1 xs0 xs1).2.1, y ∈ pc.1.set :=
  View.cover_of_tiledL _ S1x1x10112.size (by sl_kernel_rfl) y

theorem evO3_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.1) = k0_pay5 x1 xs1 :=
  (View.read_writes_eq_canon v f _ (covO3_C c i arg2 harg2 arg3 harg3 arg4 harg4 arg5 harg5 arg6 harg6 arg7 harg7 hc0 hc1 x0 x1 xs0 xs1)).trans (canO3_C c i arg2 harg2 arg3 harg3 arg4 harg4 arg5 harg5 arg6 harg6 arg7 harg7 hc0 hc1 x0 x1 xs0 xs1)

/-- The scratch sums end at the same value. -/
theorem canS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.2.1 = k0_pay4 x1 x0 xs0 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x128x10112.Idx) :
    ∃ pc ∈ (run0_C c i arg2 harg2 arg3 harg3 arg4 harg4 arg5 harg5 arg6 harg6 arg7 harg7 hc0 hc1 x0 x1 xs0 xs1).2.2.1, y ∈ pc.1.set :=
  View.cover_of_tiledL _ S1x128x10112.size (by sl_kernel_rfl) y

theorem evS_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x128x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.2.1) = k0_pay4 x1 x0 xs0 :=
  (View.read_writes_eq_canon v f _ (covS_C c i arg2 harg2 arg3 harg3 arg4 harg4 arg5 harg5 arg6 harg6 arg7 harg7 hc0 hc1 x0 x1 xs0 xs1)).trans (canS_C c i arg2 harg2 arg3 harg3 arg4 harg4 arg5 harg5 arg6 harg6 arg7 harg7 hc0 hc1 x0 x1 xs0 xs1)

/-- The scratch counts likewise. -/
theorem canC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) :
    View.canon (run0_C c i arg2 harg2 arg3 harg3 arg4 harg4 arg5 harg5 arg6 harg6 arg7 harg7 hc0 hc1 x0 x1 xs0 xs1).2.2.2.1 = k0_pay5 x1 xs1 := by
  unfold run0_C; dsimp only; sl_unfold_words
  simp only [View.canon_unit_zero (S := S1x128x10112) hz3, View.canon_unit_zero (S := S1x1x10112) hz3,
    View.canon_cons_unit_zero (S := S1x128x10112) hz3, View.canon_cons_unit_zero (S := S1x1x10112) hz3,
    View.readCov_unit_zero (S := S1x128x10112) _ hz3, View.readCov_unit_zero (S := S1x1x10112) _ hz3,
    View.readAt_eq_ld, Memref.IsWhole.read_unread,
    View.ld_unit_zero (S := S1x128x10112) hz3, View.ld_unit_zero (S := S1x1x10112) hz3,
    View.ld_unit_zero (S := S256x128) hz2, View.ld_unit_zero (S := S1x256) hz2]

theorem covC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32) (y : S1x1x10112.Idx) :
    ∃ pc ∈ (run0_C c i arg2 harg2 arg3 harg3 arg4 harg4 arg5 harg5 arg6 harg6 arg7 harg7 hc0 hc1 x0 x1 xs0 xs1).2.2.2.1, y ∈ pc.1.set :=
  View.cover_of_tiledL _ S1x1x10112.size (by sl_kernel_rfl) y

theorem evC_C (c : Dev nD) (i : grid0.Coords)
    (arg2 : Memref sig .tc .vmem S256x128 .bf16) (harg2 : arg2.IsWhole) (arg3 : Memref sig .tc .vmem S1x256 .i32) (harg3 : arg3.IsWhole)
    (arg4 : Memref sig .tc .vmem S1x128x10112 .f32) (harg4 : arg4.IsWhole) (arg5 : Memref sig .tc .vmem S1x1x10112 .f32) (harg5 : arg5.IsWhole)
    (arg6 : Memref sig .tc .vmem S1x128x10112 .f32) (harg6 : arg6.IsWhole) (arg7 : Memref sig .tc .vmem S1x1x10112 .f32) (harg7 : arg7.IsWhole) (hc0 : ¬cond0_0 i) (hc1 : cond0_1 i) (x0 : Vec F S256x128 .bf16) (x1 : Vec F S1x256 .i32) (xs0 : Vec F S1x128x10112 .f32) (xs1 : Vec F S1x1x10112 .f32)
    (v : View sig .tc .vmem S1x1x10112 .f32) (f : v.ty.Contents (Elt F)) :
    v.read (Elt F) (v.writes (Elt F) f (run0_C c i arg2 harg2 arg3 harg3 arg4 harg4 arg5 harg5 arg6 harg6 arg7 harg7 hc0 hc1 x0 x1 xs0 xs1).2.2.2.1) = k0_pay5 x1 xs1 :=
  (View.read_writes_eq_canon v f _ (covC_C c i arg2 harg2 arg3 harg3 arg4 harg4 arg5 harg5 arg6 harg6 arg7 harg7 hc0 hc1 x0 x1 xs0 xs1)).trans (canC_C c i arg2 harg2 arg3 harg3 arg4 harg4 arg5 harg5 arg6 harg6 arg7 harg7 hc0 hc1 x0 x1 xs0 xs1)

end Cert.KernelIdeal.Hand

end
-- ==== Proof.R0Oblig.lean ====
/-
  The first kernel region, its body obligation: at every point the body, called on the windows' staging buffers
  and the state between points, runs and leaves what the proof data says.

  A point is the first of its half, the last, or neither (a half has 1250 points, so never both).  In each case the
  body's run for that case applies: the input buffers hold the point's blocks, the scratch arrays what the point
  before left (anything at all before a reset), and afterwards they hold the running arrays after this point; the
  output buffers are handed back untouched except at the last point, where they receive the running arrays.
-/
import proofs.«404063_j72000831750623_3_alg».proof.Proof.R0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- An input window's current staging buffer holds its block, fetched at this point or not. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, PhiS0_castSucc]
  rw [show (dat0 V c).leavesExact 0 t = owns (c : Thread nD τ) (ms0_0 t) fullShare ((dat0 V c).after 0 t) from by
        unfold Dat.leavesExact; rw [liveAt0_0 t], after0_0,
    show (dat0 V c).leavesExact 1 t = owns (c : Thread nD τ) (ms0_1 t) fullShare ((dat0 V c).after 1 t) from by
        unfold Dat.leavesExact; rw [liveAt0_1 t], after0_1]
  have hN : t.val < 2500 := lt_of_lt_of_eq t.isLt (show cfg0.N = 2500 from N_0)
  by_cases h1 : t.val % 1250 = 1249
  · -- the last point of a half
    have h0 : ¬ t.val % 1250 = 0 := by omega
    have hc0 : ¬cond0_0 (grid0.coords t) := fun h => h0 ((hcond0_0 t).mp h)
    have hc1 : cond0_1 (grid0.coords t) := (hcond0_1 t).mpr h1
    have hz : t.val ≠ 0 := by omega
    rw [show (dat0 V c).leavesExact 2 t = owns (c : Thread nD τ) (ms0_2 t) fullShare ((dat0 V c).after 2 t) from by
          unfold Dat.leavesExact; rw [liveAt0_2 t hc1], after0_2,
      show (dat0 V c).leavesExact 3 t = owns (c : Thread nD τ) (ms0_3 t) fullShare ((dat0 V c).after 3 t) from by
          unfold Dat.leavesExact; rw [liveAt0_3 t hc1], after0_3]
    rw [accS_next V c t h0, accC_next V c t h0, PhiS0_pos V c _ _ hz]
    iintro ⟨⟨HS0, HS1, Hr, Hg⟩, Ho, ⟨%d0, H0⟩, ⟨%d1, H1⟩, ⟨%d2, H2⟩, ⟨%d3, H3⟩⟩
    iapply ((run0_C c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t) _ _).2.2.2.2 Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, ⟨%e2, H2⟩, ⟨%e3, H3⟩, ⟨%es0, HS0⟩, ⟨%es1, HS1⟩⟩
    isplitl [HS0 HS1 Hr Hg]
    · isplitl [HS0]
      · unfold owns; iexists _; isplitr
        swap; · iexact HS0
        ipureintro; exact evS_C _ _ _ _ _ _ _ _ _ _ _ _ _ _ _ _ _ _ _ _ _ _
      isplitl [HS1]
      · unfold owns; iexists _; isplitr
        swap; · iexact HS1
        ipureintro; exact evC_C _ _ _ _ _ _ _ _ _ _ _ _ _ _ _ _ _ _ _ _ _ _
      isplitl [Hr]; · iexact Hr
      iexact Hg
    isplitl [Ho]; · iexact Ho
    isplitl [H0]; · iexact H0
    isplitl [H1]; · iexact H1
    isplitl [H2]
    · unfold owns; iexists _; isplitr
      swap; · iexact H2
      ipureintro; exact evO2_C _ _ _ _ _ _ _ _ _ _ _ _ _ _ _ _ _ _ _ _ _ _
    unfold owns; iexists _; isplitr
    swap; · iexact H3
    ipureintro; exact evO3_C _ _ _ _ _ _ _ _ _ _ _ _ _ _ _ _ _ _ _ _ _ _
  · have hc1 : ¬cond0_1 (grid0.coords t) := fun h => h1 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1)]
    by_cases h0 : t.val % 1250 = 0
    · -- the first point of a half: whatever the scratch arrays held is overwritten
      have hc0 : cond0_0 (grid0.coords t) := (hcond0_0 t).mpr h0
      rw [accS_first V c t h0, accC_first V c t h0]
      by_cases hz : t.val = 0
      · rw [PhiS0_zero V c _ _ hz, PhiA0_eq]
        iintro ⟨⟨⟨HS0, HS1, Hr⟩, Hg⟩, Ho, ⟨%d0, H0⟩, ⟨%d1, H1⟩, ⟨%d2, H2⟩, ⟨%d3, H3⟩⟩
        iapply ((run0_A c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hr Hg]
        · isplitl [HS0]
          · unfold owns; iexists _; isplitr
            swap; · iexact HS0
            ipureintro; exact evS_A _ _ _ _ _ _ _ _ _ _ _ _ _ _ _ _ _ _ _ _
          isplitl [HS1]
          · unfold owns; iexists _; isplitr
            swap; · iexact HS1
            ipureintro; exact evC_A _ _ _ _ _ _ _ _ _ _ _ _ _ _ _ _ _ _ _ _
          isplitl [Hr]; · iexact Hr
          iexact Hg
        isplitl [Ho]; · iexact Ho
        isplitl [H0]; · iexact H0
        isplitl [H1]; · iexact H1
        isplitl [H2]; · iexists _; iexact H2
        iexists _; iexact H3
      · rw [PhiS0_pos V c _ _ hz]
        iintro ⟨⟨HS0, HS1, Hr, Hg⟩, Ho, ⟨%d0, H0⟩, ⟨%d1, H1⟩, ⟨%d2, H2⟩, ⟨%d3, H3⟩⟩
        iapply ((run0_A c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t)).2.2 _ _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hr Hg]
        · isplitl [HS0]
          · unfold owns; iexists _; isplitr
            swap; · iexact HS0
            ipureintro; exact evS_A _ _ _ _ _ _ _ _ _ _ _ _ _ _ _ _ _ _ _ _
          isplitl [HS1]
          · unfold owns; iexists _; isplitr
            swap; · iexact HS1
            ipureintro; exact evC_A _ _ _ _ _ _ _ _ _ _ _ _ _ _ _ _ _ _ _ _
          isplitl [Hr]; · iexact Hr
          iexact Hg
        isplitl [Ho]; · iexact Ho
        isplitl [H0]; · iexact H0
        isplitl [H1]; · iexact H1
        isplitl [H2]; · iexists _; iexact H2
        iexists _; iexact H3
    · -- a point in the middle of a half
      have hc0 : ¬cond0_0 (grid0.coords t) := fun h => h0 ((hcond0_0 t).mp h)
      have hz : t.val ≠ 0 := fun h => h0 (by rw [h])
      rw [accS_next V c t h0, accC_next V c t h0, PhiS0_pos V c _ _ hz]
      iintro ⟨⟨HS0, HS1, Hr, Hg⟩, Ho, ⟨%d0, H0⟩, ⟨%d1, H1⟩, ⟨%d2, H2⟩, ⟨%d3, H3⟩⟩
      iapply ((run0_B c (grid0.coords t) (ms0_0 t) (hs0_0 t) (ms0_1 t) (hs0_1 t) (ms0_2 t) (hs0_2 t) (ms0_3 t) (hs0_3 t) scS (Memref.isWhole_whole _) scC (Memref.isWhole_whole _) hc0 hc1 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0]
        · unfold owns; iexists _; isplitr
          swap; · iexact HS0
          ipureintro; exact evS_B _ _ _ _ _ _ _ _ _ _ _ _ _ _ _ _ _ _ _ _ _ _
        isplitl [HS1]
        · unfold owns; iexists _; isplitr
          swap; · iexact HS1
          ipureintro; exact evC_B _ _ _ _ _ _ _ _ _ _ _ _ _ _ _ _ _ _ _ _ _ _
        isplitl [Hr]; · iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the state before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the state gives the launch's back: the running arrays' named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 2500 := N_0; omega), PhiA0_eq]
  iintro ⟨HS0, HS1, Hr, Hg⟩
  isplitl [HS0 HS1 Hr]
  · isplitl [HS0]; · iexists _; iexact HS0
    isplitl [HS1]; · iexists _; iexact HS1
    iexact Hr
  iexact Hg

end Cert.KernelIdeal.Hand

end
-- ==== Proof.R1Body.lean ====
/- REGION 1 (the finalizing kernel: one grid point, seven one-block windows): the body's triple and the body
   obligation of the proof data. Generic in the float model. -/
import proofs.«404063_j72000831750623_3_alg».proof.Proof.R1Data
import Idealize.ShloMosaic.Lib.Pipeline.FrameBody
import Idealize.ShloMosaic.Lib.Pipeline.Frame
import Idealize.ShloMosaic.Lib.Pipeline.Regions
import Idealize.ShloMosaic.Lib.Ring
import Idealize.ShloMosaic.Lib.Tactic

-- membership in a rectangle of these extents: the structural look recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers as the region finds them
variable (V : (c : Dev nD) → (b : Ref sig .tc) → Buf (Elt F) ((c : Thread nD τ).loc b))

/-! ## What the output's one store covers -/

/-- The one store is through the whole-block rectangle, so it covers the block. -/
theorem cover1_6 (p0 : Vec F S1x10000 .f32) (y : S1x10000.Idx) :
    ∃ pc ∈ ([⟨r1_6, p0⟩] : List (View.Piece (Elt F) S1x10000 .f32)), y ∈ pc.1.set :=
  View.cover_of_tiled [⟨r1_6, p0⟩] S1x10000.size (by rfl) y

/-! ## The body's triple -/

set_option maxHeartbeats 1000000 in
/-- The kernel body on whole staging memrefs, the six inputs' at read contents `x0 … x5` and the output's at
    anything, runs to the continuation holding the inputs' as they were and the output's at `out1_6` of the
    inputs': eight loads (two planes of each stacked input, the four small inputs whole), a load of the output
    that is not used, and one whole store of the payload. -/
theorem sound_kernel1 (c : Dev nD) (E : Set ℕ) (i : grid1.Coords)
    (arg1 : Memref sig .tc .vmem S2x128x10112 .f32) (harg1 : arg1.IsWhole)
    (arg2 : Memref sig .tc .vmem S2x1x10112 .f32) (harg2 : arg2.IsWhole)
    (arg3 : Memref sig .tc .vmem S64x128 .bf16) (harg3 : arg3.IsWhole)
    (arg4 : Memref sig .tc .vmem S64x1 .f32) (harg4 : arg4.IsWhole)
    (arg5 : Memref sig .tc .vmem S1x64 .bf16) (harg5 : arg5.IsWhole)
    (arg6 : Memref sig .tc .vmem S1x1 .f32) (harg6 : arg6.IsWhole)
    (arg7 : Memref sig .tc .vmem S1x10000 .f32) (harg7 : arg7.IsWhole)
    (x0 : Vec F S2x128x10112 .f32) (x1 : Vec F S2x1x10112 .f32) (x2 : Vec F S64x128 .bf16) (x3 : Vec F S64x1 .f32)
    (x4 : Vec F S1x64 .bf16) (x5 : Vec F S1x1 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__finalize_kernel i arg1 harg1 arg2 harg2 arg3 harg3 arg4 harg4 arg5 harg5 arg6 harg6 arg7 harg7) K := by
  simp only [cc1__finalize_kernel_eq_skeleton]; unfold cc1__finalize_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_6 _)

/-! ## Each input's staging buffer holds its block -/

/-- Input window 0's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`: the invariant, the core's debt, and each window's current staging
    buffer at what the pipeline left in it; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the body's triple applies; the invariant
    and the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Segs.lean ====
/-
  The run: the program's six items from the launch to the return, each kernel region as a segment over the
  thread state "every unscoped buffer at the boundary's contents, the generator register at some state, nothing
  owed".

  A region's arrays are split out of the unscoped buffers at its entry and put back at its exit, at the exit
  contents the boundary valuations name: an input's array as entered (an input is never written back), an
  output's at what the proof data folds to after the last point, every other buffer as entered.  The generator
  register goes into the state between points and comes back; the first region's state between points is the
  launch's at both ends.  Then the conditional run at these regions: the result buffer is read off the last
  valuation and every argument ends as launched.
-/
import proofs.«404063_j72000831750623_3_alg».proof.Proof.SegData
import proofs.«404063_j72000831750623_3_alg».proof.Proof.RunAll
import proofs.«404063_j72000831750623_3_alg».proof.Proof.R0Oblig
import proofs.«404063_j72000831750623_3_alg».proof.Proof.R1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The exit contents at the regions' arrays, and off them -/

/-- After the first region each of its arrays holds what the proof data folds to: an input's as entered, the two
    outputs' by the valuation's reading at them. -/
theorem hF0 (c : Dev nD) (w : Fin cfg0.W) :
    (pdats m 0 c).arrAt w cfg0.N = V4 m (outsK m) c (Pipeline.arrRef spec0 w) := by
  rw [V4_outsK]
  match w with
  | ⟨0, _⟩ => exact (((dat0 (Vat3 m) c).arrAt_in 0 rfl _).trans (A_eq0 (Vat3 m) c 0)).trans (V4_of m (outsA m) c main_v5 (by decide)).symm
  | ⟨1, _⟩ => exact (((dat0 (Vat3 m) c).arrAt_in 1 rfl _).trans (A_eq0 (Vat3 m) c 1)).trans (V4_of m (outsA m) c main_v6 (by decide)).symm
  | ⟨2, _⟩ => exact (V4_v13_0 m c).symm
  | ⟨3, _⟩ => exact (V4_v13_1 m c).symm

/-- Every buffer that is none of the first region's arrays holds what it held at entry. -/
theorem hrest0 (c : Dev nD) (b : Ref sig .tc) (hb : b ∉ Finset.univ.image (Pipeline.arrRef spec0)) :
    V4 m (outsK m) c b = V3 m c b :=
  V4_of m (outsK m) c b fun h => by
    rcases List.mem_cons.mp h with h | h
    · exact hb (Finset.mem_image.mpr ⟨2, Finset.mem_univ _, h.symm⟩)
    · exact hb (Finset.mem_image.mpr ⟨3, Finset.mem_univ _, (List.mem_singleton.mp h).symm⟩)

/-- The second region's proof data read the arrays off the first region's exit. -/
theorem hA1 (c : Dev nD) (w : Fin cfg1.W) :
    (pdats m 1 c).A w = V4 m (outsK m) c (Pipeline.arrRef spec1 w) := by
  rw [V4_outsK]; exact A_eq1 (Vat4 m) c w

/-- After the second region each of its arrays holds what the proof data folds to: the six inputs' as entered,
    the output's by the valuation's reading at it. -/
theorem hF1 (c : Dev nD) (w : Fin cfg1.W) :
    (pdats m 1 c).arrAt w cfg1.N = V5 m (outsK m) c (Pipeline.arrRef spec1 w) := by
  match w with
  | ⟨0, _⟩ => exact (((dat1 (Vat4 m) c).arrAt_in 0 rfl _).trans (hA1 m c 0)).trans (V5_of m (outsK m) c main_v13_0 (by decide)).symm
  | ⟨1, _⟩ => exact (((dat1 (Vat4 m) c).arrAt_in 1 rfl _).trans (hA1 m c 1)).trans (V5_of m (outsK m) c main_v13_1 (by decide)).symm
  | ⟨2, _⟩ => exact (((dat1 (Vat4 m) c).arrAt_in 2 rfl _).trans (hA1 m c 2)).trans (V5_of m (outsK m) c main_v8 (by decide)).symm
  | ⟨3, _⟩ => exact (((dat1 (Vat4 m) c).arrAt_in 3 rfl _).trans (hA1 m c 3)).trans (V5_of m (outsK m) c main_v11 (by decide)).symm
  | ⟨4, _⟩ => exact (((dat1 (Vat4 m) c).arrAt_in 4 rfl _).trans (hA1 m c 4)).trans (V5_of m (outsK m) c main_v10 (by decide)).symm
  | ⟨5, _⟩ => exact (((dat1 (Vat4 m) c).arrAt_in 5 rfl _).trans (hA1 m c 5)).trans (V5_of m (outsK m) c main_v12 (by decide)).symm
  | ⟨6, _⟩ => exact (V5_v14 m c).symm

/-- Every buffer that is none of the second region's arrays holds what it held at entry. -/
theorem hrest1 (c : Dev nD) (b : Ref sig .tc) (hb : b ∉ Finset.univ.image (Pipeline.arrRef spec1)) :
    V5 m (outsK m) c b = V4 m (outsK m) c b :=
  V5_of m (outsK m) c b fun h =>
    hb (Finset.mem_image.mpr ⟨6, Finset.mem_univ _, (List.mem_singleton.mp h).symm⟩)

/-! ## The regions as segments -/

set_option backward.isDefEq.respectTransparency.types false in
/-- The first region over the thread state: entered from every unscoped buffer after the third host stretch, left
    at the valuation after the region. -/
def reg0 : Pipeline.RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (body_obligation0 (Vat3 m) c).loose
  hwaits := Pipeline.hwaits_of_owed_zero _ _ _ _ (fun _ => ∅) (fun _ _ => 0) 0 fun _ _ => rfl
  pre c := iprop(StableHlo.held (c : Thread nD τ) (Pipeline.ucRefs τ sig) (V3 m c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (Vat3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vat3 m) c)
    unfold Pipeline.ΦA
    iintro ⟨Hp, -, Hr⟩
    isplitl [Hr]; · iexact Hr
    iexact Hp
  hout c := by
    rw [Pipeline.ownSems0_none]
    refine BIBase.Entails.trans (hout0 (Vat3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vat3 m c) (fun b => V4 m (outsK m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from the valuation after the first region, left at the
    valuation after the second. Its state between points is the launch's throughout. -/
def reg1 : Pipeline.RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (body_obligation1 (Vat4 m) c).loose
  hwaits := Pipeline.hwaits_of_owed_zero _ _ _ _ (fun _ => ∅) (fun _ _ => 0) 1 fun _ _ => rfl
  pre c := iprop(StableHlo.held (c : Thread nD τ) (Pipeline.ucRefs τ sig) (V4 m (outsK m) c) ∗ R c)
  post c := iprop(StableHlo.held (c : Thread nD τ) (Pipeline.ucRefs τ sig) (V5 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (fun b => V4 m (outsK m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V4 m (outsK m) c b) (hA1 m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V4 m (outsK m) c b) (fun b => V5 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- THE RUN: from any memory with zero counters every weakly fair execution of the program terminates, every final
    memory holds the result buffer at the last valuation (over the two regions' leavings named above) and every
    argument as launched. The conditional run at the two regions: the launch deals each core its generator register
    and its dues at nothing, which ride beside the buffers to the end. -/
theorem run_all : θ_run defs (onTc (τ := τ) (main (F := F))) ⟨m, fun _ => 0, ρ⟩ (fun r => ∀ c : Dev nD,
      r.2.mem ((c.tc : Thread nD τ).loc main_v15) = V6 m (outsK m) c main_v15
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_cond m (emb₁ : Emb (URounds (GSem nD τ sig) Unit) 𝕄) () Variants.none (fun _ => ∅) (fun _ _ => 0) (fun _ _ => rfl)
    ρ (outsK m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach (fun _ => ∅) (fun _ _ => 0) fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)

/-- THE FRAME: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Hand

end
-- ==== Proof.R1Val.lean ====
/- REGION 1 (the finalizing kernel: one grid point, seven one-block windows): what the region leaves in its
   output ARRAY, as one function of the arrays it finds. Generic in the float model. -/
import proofs.«404063_j72000831750623_3_alg».proof.Proof.R1Data
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

-- the buffers as the region finds them
variable (V : (c : Dev nD) → (b : Ref sig .tc) → Buf (Elt F) ((c : Thread nD τ).loc b))

/-! ## The loads, read -/

theorem zeros2 : (![0, 0] : Fin 2 → Nat) = fun _ => 0 := funext fun a => by fin_cases a <;> rfl

/-- A load of plane 0 of the stacked partial sums reads the array at first coordinate 0. -/
theorem ld_sum_plane0 (x0 : Vec F S2x128x10112 .f32) (a : Fin 1) (b : Fin 128) (d : Fin 10112) :
    View.ld x0 r1_0a (ix3 a b d) = x0 (ix3 (0 : Fin 2) b d) := by
  show x0 _ = x0 _
  congr 1
  funext k; apply Fin.ext
  match k with
  | ⟨0, _⟩ => show 0 + 1 * a.val = 0; have := a.isLt; omega
  | ⟨1, _⟩ => show 0 + 1 * b.val = b.val; omega
  | ⟨2, _⟩ => show 0 + 1 * d.val = d.val; omega

/-- A load of plane 1 of the stacked partial sums reads the array at first coordinate 1. -/
theorem ld_sum_plane1 (x0 : Vec F S2x128x10112 .f32) (a : Fin 1) (b : Fin 128) (d : Fin 10112) :
    View.ld x0 r1_0b (ix3 a b d) = x0 (ix3 (1 : Fin 2) b d) := by
  show x0 _ = x0 _
  congr 1
  funext k; apply Fin.ext
  match k with
  | ⟨0, _⟩ => show 1 + 1 * a.val = 1; have := a.isLt; omega
  | ⟨1, _⟩ => show 0 + 1 * b.val = b.val; omega
  | ⟨2, _⟩ => show 0 + 1 * d.val = d.val; omega

/-- A load of plane 0 of the stacked partial counts reads the array at first coordinate 0. -/
theorem ld_cnt_plane0 (x1 : Vec F S2x1x10112 .f32) (a : Fin 1) (b : Fin 1) (d : Fin 10112) :
    View.ld x1 r1_1a (ix3 a b d) = x1 (ix3 (0 : Fin 2) b d) := by
  show x1 _ = x1 _
  congr 1
  funext k; apply Fin.ext
  match k with
  | ⟨0, _⟩ => show 0 + 1 * a.val = 0; have := a.isLt; omega
  | ⟨1, _⟩ => show 0 + 1 * b.val = b.val; omega
  | ⟨2, _⟩ => show 0 + 1 * d.val = d.val; omega

/-- A load of plane 1 of the stacked partial counts reads the array at first coordinate 1. -/
theorem ld_cnt_plane1 (x1 : Vec F S2x1x10112 .f32) (a : Fin 1) (b : Fin 1) (d : Fin 10112) :
    View.ld x1 r1_1b (ix3 a b d) = x1 (ix3 (1 : Fin 2) b d) := by
  show x1 _ = x1 _
  congr 1
  funext k; apply Fin.ext
  match k with
  | ⟨0, _⟩ => show 1 + 1 * a.val = 1; have := a.isLt; omega
  | ⟨1, _⟩ => show 0 + 1 * b.val = b.val; omega
  | ⟨2, _⟩ => show 0 + 1 * d.val = d.val; omega

/-- What the body leaves in the output block is the payload of the two planes of each stacked input and of the
    four small inputs: the canon of one whole piece is the piece, a load through a whole-buffer rectangle is the
    value, a load through a plane's rectangle reads the plane. -/
theorem out1_6_eq (x0 : Vec F S2x128x10112 .f32) (x1 : Vec F S2x1x10112 .f32) (x2 : Vec F S64x128 .bf16) (x3 : Vec F S64x1 .f32)
    (x4 : Vec F S1x64 .bf16) (x5 : Vec F S1x1 .f32) :
    out1_6 x0 x1 x2 x3 x4 x5
      = k1_pay1 (fun j : S1x128x10112.Idx => x0 (ix3 (0 : Fin 2) (j 1) (j 2))) (fun j : S1x128x10112.Idx => x0 (ix3 (1 : Fin 2) (j 1) (j 2)))
          (fun j : S1x1x10112.Idx => x1 (ix3 (0 : Fin 2) (j 1) (j 2))) (fun j : S1x1x10112.Idx => x1 (ix3 (1 : Fin 2) (j 1) (j 2)))
          x2 x3 x4 x5 := by
  unfold out1_6
  rw [View.canon_unit_zero zeros2]
  have e0a : View.ld x0 r1_0a = fun j : S1x128x10112.Idx => x0 (ix3 (0 : Fin 2) (j 1) (j 2)) :=
    funext fun j => by rw [eq_ix3 j]; exact ld_sum_plane0 x0 _ _ _
  have e0b : View.ld x0 r1_0b = fun j : S1x128x10112.Idx => x0 (ix3 (1 : Fin 2) (j 1) (j 2)) :=
    funext fun j => by rw [eq_ix3 j]; exact ld_sum_plane1 x0 _ _ _
  have e1a : View.ld x1 r1_1a = fun j : S1x1x10112.Idx => x1 (ix3 (0 : Fin 2) (j 1) (j 2)) :=
    funext fun j => by rw [eq_ix3 j]; exact ld_cnt_plane0 x1 _ _ _
  have e1b : View.ld x1 r1_1b = fun j : S1x1x10112.Idx => x1 (ix3 (1 : Fin 2) (j 1) (j 2)) :=
    funext fun j => by rw [eq_ix3 j]; exact ld_cnt_plane1 x1 _ _ _
  rw [e0a, e0b, e1a, e1b, View.ld_unit_zero (S := S64x128) zeros2, View.ld_unit_zero (S := S64x1) zeros2,
    View.ld_unit_zero (S := S1x64) zeros2, View.ld_unit_zero (S := S1x1) zeros2]

/-! ## From the one point's blocks to the arrays -/

/-- The stacked inputs' block offsets are zero at every point (the index maps are constant zero). -/
theorem zeros3_0 (t : Fin cfg1.N) : (fun a => win1_0.index t a * main_v13_0.ty.shape.size a) = fun _ => 0 :=
  funext fun a => by fin_cases a <;> exact Nat.zero_mul _
theorem zeros3_1 (t : Fin cfg1.N) : (fun a => win1_1.index t a * main_v13_1.ty.shape.size a) = fun _ => 0 :=
  funext fun a => by fin_cases a <;> exact Nat.zero_mul _
theorem zeros2_2 (t : Fin cfg1.N) : (fun a => win1_2.index t a * main_v8.ty.shape.size a) = fun _ => 0 :=
  funext fun a => by fin_cases a <;> exact Nat.zero_mul _
theorem zeros2_3 (t : Fin cfg1.N) : (fun a => win1_3.index t a * main_v11.ty.shape.size a) = fun _ => 0 :=
  funext fun a => by fin_cases a <;> exact Nat.zero_mul _
theorem zeros2_4 (t : Fin cfg1.N) : (fun a => win1_4.index t a * main_v10.ty.shape.size a) = fun _ => 0 :=
  funext fun a => by fin_cases a <;> exact Nat.zero_mul _
theorem zeros2_5 (t : Fin cfg1.N) : (fun a => win1_5.index t a * main_v12.ty.shape.size a) = fun _ => 0 :=
  funext fun a => by fin_cases a <;> exact Nat.zero_mul _
theorem zeros2_6 (t : Fin cfg1.N) : (fun a => win1_6.index t a * main_v14.ty.shape.size a) = fun _ => 0 :=
  funext fun a => by fin_cases a <;> exact Nat.zero_mul _

/-- Each input window has one block, the whole array: its block at any point IS the array as the region finds it. -/
theorem iblk1_0_eq (c : Dev nD) (t : Fin cfg1.N) : iblk1 V c 0 t = V c main_v13_0 := by
  unfold iblk1
  exact Memref.read_access_unit_zero (Elt F) main_v13_0 (zeros3_0 t) (fun a => by rw [congrFun (zeros3_0 t) a]; simp) (V c main_v13_0)
theorem iblk1_1_eq (c : Dev nD) (t : Fin cfg1.N) : iblk1 V c 1 t = V c main_v13_1 := by
  unfold iblk1
  exact Memref.read_access_unit_zero (Elt F) main_v13_1 (zeros3_1 t) (fun a => by rw [congrFun (zeros3_1 t) a]; simp) (V c main_v13_1)
theorem iblk1_2_eq (c : Dev nD) (t : Fin cfg1.N) : iblk1 V c 2 t = V c main_v8 := by
  unfold iblk1
  exact Memref.read_access_unit_zero (Elt F) main_v8 (zeros2_2 t) (fun a => by rw [congrFun (zeros2_2 t) a]; simp) (V c main_v8)
theorem iblk1_3_eq (c : Dev nD) (t : Fin cfg1.N) : iblk1 V c 3 t = V c main_v11 := by
  unfold iblk1
  exact Memref.read_access_unit_zero (Elt F) main_v11 (zeros2_3 t) (fun a => by rw [congrFun (zeros2_3 t) a]; simp) (V c main_v11)
theorem iblk1_4_eq (c : Dev nD) (t : Fin cfg1.N) : iblk1 V c 4 t = V c main_v10 := by
  unfold iblk1
  exact Memref.read_access_unit_zero (Elt F) main_v10 (zeros2_4 t) (fun a => by rw [congrFun (zeros2_4 t) a]; simp) (V c main_v10)
theorem iblk1_5_eq (c : Dev nD) (t : Fin cfg1.N) : iblk1 V c 5 t = V c main_v12 := by
  unfold iblk1
  exact Memref.read_access_unit_zero (Elt F) main_v12 (zeros2_5 t) (fun a => by rw [congrFun (zeros2_5 t) a]; simp) (V c main_v12)

/-- What the output array ends holding: the body's block of the arrays the region finds. -/
abbrev G6 (c : Dev nD) : Vec F S1x10000 .f32 :=
  out1_6 (V c main_v13_0) (V c main_v13_1) (V c main_v8) (V c main_v11) (V c main_v10) (V c main_v12)

/-- What the one point writes back is the one block of `G6`, which is all of it. -/
theorem flushed6_eq (c : Dev nD) (t : Fin cfg1.N) :
    (dat1 V c).flushed 6 t = ((cfg1.win 6).blk t).view.read (Elt F) (G6 V c) := by
  show (cfg1.win 6).cut (grid1.coords t) ((dat1 V c).after 6 t) = _
  rw [after1_6, iblk1_0_eq, iblk1_1_eq, iblk1_2_eq, iblk1_3_eq, iblk1_4_eq, iblk1_5_eq]
  exact (Memref.read_access_unit_zero (Elt F) main_v14 (zeros2_6 t) (fun a => by rw [congrFun (zeros2_6 t) a]; simp) (G6 V c)).symm

/-- The output array after the region: the one point's block covers it. -/
theorem arr6_eq (c : Dev nD) : (dat1 V c).arrAt 6 cfg1.N
    = out1_6 (V c main_v13_0) (V c main_v13_1) (V c main_v8) (V c main_v11) (V c main_v10) (V c main_v12) :=
  (dat1 V c).arrAt_eq_of_cover 6 (G6 V c) (fun t _ => flushed6_eq V c t) fun i =>
    ⟨t1_0, flush1_6 t1_0, by
      show i ∈ ((View.whole main_v14).slice (win1_6.rect t1_0)).set
      rw [View.set_slice_whole]
      exact View.mem_set_unit_zero (zeros2_6 t1_0) _ i⟩

end Cert.KernelIdeal.Hand

end
-- ==== Proof.Spec.lean ====
/-
  The function both programs compute, written once over plain index types.

  Every incidence k carries a feature row g k (128 numbers) and a segment word col k.  For a segment e the
  rows whose word, read as a signed integer, is e are summed coordinate by coordinate (segSum) and counted
  (segCnt); the mean divides the sum by the count raised to at least one, so an empty segment has mean zero
  over one.  Two affine layers follow, the first cut off below at zero, and the last value goes through the
  logistic function written as one over one plus the exponential of the negated argument.
-/
import Idealize.ShloMosaic.PureOps.Ideal
import Idealize.ShloMosaic.PureOps.Ideal.Laws

noncomputable section

namespace Cert.Spec

open Idealize.ShloMosaic

/-- The number of incidences, of feature coordinates and of hidden units. -/
abbrev nInc : ℕ := 640000
abbrev nFeat : ℕ := 128
abbrev nHid : ℕ := 64

/-- The float word of 1.0, read on the extended reals. -/
def one : EReal := Ideal.ofBits .f32 0x3F800000#32

/-- Coordinate d of the rows of segment e, summed. -/
def segSum (g : Fin nInc → Fin nFeat → EReal) (col : Fin nInc → BitVec 32) (e : ℕ) (d : Fin nFeat) : EReal :=
  ∑ k ∈ Finset.univ.filter (fun k : Fin nInc => (col k).toInt = (e : Int)), g k d

/-- The number of rows of segment e, each counted as the word of 1.0. -/
def segCnt (col : Fin nInc → BitVec 32) (e : ℕ) : EReal :=
  ∑ _k ∈ Finset.univ.filter (fun k : Fin nInc => (col k).toInt = (e : Int)), one

/-- The segment's mean row: the sum over the count, the count raised to at least one. -/
def mean (g : Fin nInc → Fin nFeat → EReal) (col : Fin nInc → BitVec 32) (e : ℕ) (d : Fin nFeat) : EReal :=
  Ideal.div (segSum g col e d) (max (segCnt col e) one)

/-- The first layer at hidden unit h, cut off below at zero. -/
def hid (g : Fin nInc → Fin nFeat → EReal) (col : Fin nInc → BitVec 32) (W1 : Fin nFeat → Fin nHid → EReal)
    (b1 : Fin nHid → EReal) (e : ℕ) (h : Fin nHid) : EReal :=
  max ((∑ d : Fin nFeat, mean g col e d * W1 d h) + b1 h) 0

/-- The second layer. -/
def logit (g : Fin nInc → Fin nFeat → EReal) (col : Fin nInc → BitVec 32) (W1 : Fin nFeat → Fin nHid → EReal)
    (b1 : Fin nHid → EReal) (W2 : Fin nHid → EReal) (b2 : EReal) (e : ℕ) : EReal :=
  (∑ h : Fin nHid, hid g col W1 b1 e h * W2 h) + b2

/-- The score of segment e. -/
def score (g : Fin nInc → Fin nFeat → EReal) (col : Fin nInc → BitVec 32) (W1 : Fin nFeat → Fin nHid → EReal)
    (b1 : Fin nHid → EReal) (W2 : Fin nHid → EReal) (b2 : EReal) (e : ℕ) : EReal :=
  Ideal.div one (one + Ideal.exp (-(logit g col W1 b1 W2 b2 e)))

end Cert.Spec

end
-- ==== Proof.LibDots.lean ====
/-
  Three matrix products on the extended reals, each read at one entry as the sum over the contracted coordinate of the
  products of the operands' entries. General facts, about no particular program: the shapes are literal with variable
  extents, and the dimension record is given by its six axis lists with ANY proof of its side condition.
-/
import Idealize.ShloMosaic.PureOps.Ideal.Laws
import Idealize.ShloMosaic.Lib.ValueIdx

noncomputable section

namespace Cert.Lib.Dots

open Idealize.ShloMosaic Idealize.ShloMosaic.ValueIdx

/-- An M×K array times the transpose of an N×K array (both contract their second axis), accumulated into the all-zero
    array: entry (r, c) is the sum over k of A (r, k) · B (c, k). -/
theorem matmul_zero_rowsT_apply {M K N : Nat} {φ₁ φ₂ : FTy}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (r : Fin M) (c : Fin N) :
    matmul (F := Ideal) (⟨[1], [1], [0], [0], [], [], w⟩ : DotDims _ _ _) prec A B (constant ⟨2, ![M, N]⟩ .f32 0x00000000#32) (ix2 r c)
      = ∑ k : Fin K, A (ix2 r k) * B (ix2 c k) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [1], [0], [0], [], [], w⟩ : DotDims _ _ _) K rfl rfl).symm]
  refine Finset.sum_congr rfl fun k _ => ?_
  have c2 := contrEquiv1_symm_val
    (⟨[1], [1], [0], [0], [], [], w⟩ : DotDims ⟨2, ![M, K]⟩ ⟨2, ![N, K]⟩ ⟨2, ![M, N]⟩) K rfl rfl k
  -- the first operand is read at (row of the output, contracted coordinate)
  have l2 : (⟨[1], [1], [0], [0], [], [], w⟩ : DotDims ⟨2, ![M, K]⟩ ⟨2, ![N, K]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (column of the output, contracted coordinate)
  have r2 : (⟨[1], [1], [0], [0], [], [], w⟩ : DotDims ⟨2, ![M, K]⟩ ⟨2, ![N, K]⟩ ⟨2, ![M, N]⟩).rhsIdx (ix2 r c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c2
  rw [l2, r2]

/-- An M×K array times a K×N array, accumulated into the all-zero array: entry (r, c) is the sum over k of
    A (r, k) · B (k, c). -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) := by
  show FloatOps.matmul _ prec A B _ (ix2 r c) = _
  -- the entry is the sum over the contraction index; that index has one axis of extent K, so the sum runs over Fin K
  rw [Ideal.matmul_constant_zero_apply,
    ← Equiv.sum_comp (contrEquiv1 (⟨[1], [0], [0], [1], [], [], w⟩ : DotDims _ _ _) K rfl rfl).symm]
  refine Finset.sum_congr rfl fun k _ => ?_
  have c2 := contrEquiv1_symm_val
    (⟨[1], [0], [0], [1], [], [], w⟩ : DotDims ⟨2, ![M, K]⟩ ⟨2, ![K, N]⟩ ⟨2, ![M, N]⟩) K rfl rfl k
  -- the first operand is read at (row of the output, contracted coordinate)
  have l2 : (⟨[1], [0], [0], [1], [], [], w⟩ : DotDims ⟨2, ![M, K]⟩ ⟨2, ![K, N]⟩ ⟨2, ![M, N]⟩).lhsIdx (ix2 r c)
      ((contrEquiv1 _ K rfl rfl).symm k) = ix2 r k := by
    funext ax; apply Fin.ext
    match ax with
    | ⟨0, _⟩ => simp [DotDims.lhsIdx]; rfl
    | ⟨1, _⟩ => simp [DotDims.lhsIdx]; exact c2
  -- the second operand is read at (contracted coordinate, column of the output)
  have r2 : (⟨[1], [0], [0], [1], [], [], w⟩ : DotDims ⟨2, ![M, K]⟩ ⟨2, ![K, N]⟩ ⟨2, ![M, N]⟩).rhsIdx (ix2 r c)
      ((contrEquiv1 _ K rfl rfl).symm k) = ix2 k c := by
    funext ax; apply Fin.ext
    match ax with
    | ⟨0, _⟩ => simp [DotDims.rhsIdx]; exact c2
    | ⟨1, _⟩ => simp [DotDims.rhsIdx]; rfl
  rw [l2, r2]

/-- The host's product of a G×M×K array with the transpose of an N×K array (the last axis of the first against the
    last axis of the second, no batch axis): entry (g, m, c) is the sum over k of A (g, m, k) · B (c, k). -/
theorem dotGeneral_rank3_rowsT_apply {G M K N : Nat} {φ₁ φ₂ : FTy}
    (w : DotDims.WF ⟨3, ![G, M, K]⟩ ⟨2, ![N, K]⟩ ⟨3, ![G, M, N]⟩ [2] [1] [0, 1] [0] [] [])
    (prec : Option ContractPrecision) (A : FVec Ideal ⟨3, ![G, M, K]⟩ φ₁) (B : FVec Ideal ⟨2, ![N, K]⟩ φ₂)
    (g : Fin G) (m : Fin M) (c : Fin N) :
    Host.dotGeneral (F := Ideal) (⟨[2], [1], [0, 1], [0], [], [], w⟩ : DotDims _ _ _) prec A B (ix3 g m c)
      = ∑ k : Fin K, A (ix3 g m k) * B (ix2 c k) := by
  show FloatOps.dotGeneral _ prec _ A B (ix3 g m c) = _
  -- the entry is the sum over the contraction index; that index has one axis of extent K, so the sum runs over Fin K
  rw [Ideal.dotGeneral_apply,
    ← Equiv.sum_comp (contrEquiv1 (⟨[2], [1], [0, 1], [0], [], [], w⟩ : DotDims _ _ _) K rfl rfl).symm]
  refine Finset.sum_congr rfl fun k _ => ?_
  have c3 := contrEquiv1_symm_val
    (⟨[2], [1], [0, 1], [0], [], [], w⟩ : DotDims ⟨3, ![G, M, K]⟩ ⟨2, ![N, K]⟩ ⟨3, ![G, M, N]⟩) K rfl rfl k
  -- the first operand keeps the output's two leading coordinates and takes the contracted one last
  have l3 : (⟨[2], [1], [0, 1], [0], [], [], w⟩ : DotDims ⟨3, ![G, M, K]⟩ ⟨2, ![N, K]⟩ ⟨3, ![G, M, N]⟩).lhsIdx (ix3 g m c)
      ((contrEquiv1 _ K rfl rfl).symm k) = ix3 g m k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  -- the second operand is read at (last coordinate of the output, contracted coordinate)
  have r3 : (⟨[2], [1], [0, 1], [0], [], [], w⟩ : DotDims ⟨3, ![G, M, K]⟩ ⟨2, ![N, K]⟩ ⟨3, ![G, M, N]⟩).rhsIdx (ix3 g m c)
      ((contrEquiv1 _ K rfl rfl).symm k) = ix2 c k := by
    funext ax; apply Fin.ext
    match ax with
    | ⟨0, _⟩ => simp [DotDims.rhsIdx]; rfl
    | ⟨1, _⟩ => simp [DotDims.rhsIdx]; exact c3
  rw [l3, r3]

end Cert.Lib.Dots

end
-- ==== Proof.PayAt.lean ====
/-
  The values the two kernel bodies store, read at one index on the extended reals.

  The first body's one-hot array has at (r, e) the number 1 where the segment word of incidence r, read signed, is e,
  and 0 elsewhere; its product with the transposed feature block is, at (d, e), the sum over the block's incidences of
  the feature times that 0 / 1, and its column sums count the incidences of e.  The second body adds the two partial
  sums and counts, divides by the count raised to at least one, and applies the two affine layers and the logistic.
-/
import proofs.«404063_j72000831750623_3_alg».proof.Proof.Gen.KernelIdeal.Skeleton
import proofs.«404063_j72000831750623_3_alg».proof.Proof.Spec
import proofs.«404063_j72000831750623_3_alg».proof.Proof.LibDots
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayAt

open Cert.KernelIdeal Cert.KernelIdeal.Gen Idealize.ShloMosaic Idealize.ShloMosaic.ValueIdx

/-- 1 where the word, read signed, is the natural number e, else 0. -/
def oh (v : BitVec 32) (e : ℕ) : EReal := if v.toInt = (e : Int) then 1 else 0

/-- A word equals the word of a natural number below 2^31 exactly when its signed reading is that number. -/
theorem ofNat_eq_iff_toInt (w : BitVec 32) (e : ℕ) (he : e < 2 ^ 31) : BitVec.ofNat 32 e = w ↔ w.toInt = (e : Int) := by
  have hc := BitVec.toInt_eq_toNat_cond w
  have hl := w.isLt
  constructor
  · intro h
    have hn : w.toNat = e := by
      rw [← h, BitVec.toNat_ofNat]
      omega
    omega
  · intro h
    apply BitVec.eq_of_toNat_eq
    rw [BitVec.toNat_ofNat]
    omega

/-- The one-bit word of a truth value, widened to 32 bits and read as a signed integer, is 1 or 0. -/
theorem widened_bit (b : Bool) : (((BitVec.setWidth 32 (BitVec.ofBool b)).toInt : ℝ) : EReal) = if b then 1 else 0 := by
  cases b
  · have : (BitVec.setWidth 32 (BitVec.ofBool false)).toInt = 0 := by decide
    rw [this]; simp
  · have : (BitVec.setWidth 32 (BitVec.ofBool true)).toInt = 1 := by decide
    rw [this]; simp

/-- The one-hot array at (r, e): 1 where incidence r's segment word is e. -/
theorem pay3_apply (v3 : Vec Ideal S1x256 .i32) (r : Fin 256) (e : Fin 10112) :
    k0_pay3 (F := Ideal) v3 (ix2 r e) = oh (v3 (ix2 (0 : Fin 1) r)) e.val := by
  show (((BitVec.setWidth 32 (IntOp.cmpi .eq (iota .tc S256x10112 32 [1] iota_S256x10112_d1_w32 (ix2 r e))
      (broadcastTo S256x10112 (transpose S256x1 [1, 0] (shapeCast S1x256 v3 shapeCasts_S1x256_S1x256)
        transposes_S1x256_p1_0_S256x1) broadcasts_S256x1_S256x10112 (ix2 r e)))).toInt : ℝ) : EReal) = _
  rw [iota_single_apply,
    broadcastTo_apply _ broadcasts_S256x1_S256x10112 (ix2 r e) (ix2 r (0 : Fin 1)) (fun a => match a with
      | ⟨0, _⟩ => rfl
      | ⟨1, _⟩ => rfl),
    transpose_ix2_apply, shapeCast_self]
  show (((BitVec.setWidth 32 (BitVec.ofBool (BitVec.ofNat 32 e.val == v3 (ix2 (0 : Fin 1) r)))).toInt : ℝ) : EReal) = _
  rw [widened_bit, oh]
  have he : e.val < 2 ^ 31 := by have := e.isLt; omega
  by_cases h : (v3 (ix2 (0 : Fin 1) r)).toInt = (e.val : Int)
  · rw [if_pos h, if_pos (by rw [beq_iff_eq]; exact (ofNat_eq_iff_toInt _ _ he).2 h)]
  · rw [if_neg h, if_neg (by rw [beq_iff_eq]; exact fun h' => h ((ofNat_eq_iff_toInt _ _ he).1 h'))]

/-- The first body's reset of the partial sums: the zero word everywhere. -/
theorem pay1_apply (j : S1x128x10112.Idx) : k0_pay1 (F := Ideal) j = 0 := by
  show shapeCast S1x128x10112 (broadcast S1x128x10112 (Ideal.ofBits .f32 0x00000000#32)) shapeCasts_S1x128x10112_S1x128x10112 j = 0
  rw [shapeCast_self, broadcast_apply, Ideal.ofBits_zero_f32]

/-- The first body's reset of the partial counts: the zero word everywhere. -/
theorem pay2_apply (j : S1x1x10112.Idx) : k0_pay2 (F := Ideal) j = 0 := by
  show shapeCast S1x1x10112 (broadcast S1x1x10112 (Ideal.ofBits .f32 0x00000000#32)) shapeCasts_S1x1x10112_S1x1x10112 j = 0
  rw [shapeCast_self, broadcast_apply, Ideal.ofBits_zero_f32]

/-- The partial sums after a block: what was there plus, over the block's incidences r, feature d of r where r's
    segment word is e.  The product contracts the incidence axis of the transposed feature block with the one-hot
    array's; the change of float format on the one-hot array is the identity. -/
theorem pay4_apply (v3 : Vec Ideal S1x256 .i32) (v12 : Vec Ideal S256x128 .bf16) (v16 : Vec Ideal S1x128x10112 .f32)
    (d : Fin 128) (e : Fin 10112) :
    k0_pay4 v3 v12 v16 (ix3 (0 : Fin 1) d e)
      = v16 (ix3 (0 : Fin 1) d e) + ∑ r : Fin 256, v12 (ix2 r d) * oh (v3 (ix2 (0 : Fin 1) r)) e.val := by
  show shapeCast S1x128x10112 (addf v16 (shapeCast S1x128x10112
      (matmul dot_S128x256_S256x10112_S128x10112_1_0_0_1_n_n none
        (transpose S128x256 [1, 0] (shapeCast S256x128 v12 shapeCasts_S256x128_S256x128) transposes_S256x128_p1_0_S128x256)
        (truncf .bf16 (k0_pay3 v3) bitsLt_bf16_f32) (constant S128x10112 .f32 0x00000000#32))
      shapeCasts_S128x10112_S1x128x10112)) shapeCasts_S1x128x10112_S1x128x10112 (ix3 (0 : Fin 1) d e) = _
  rw [shapeCast_self, addf_apply, shapeCast_ab_1ab_apply]
  congr 1
  show matmul (F := Ideal) (⟨[1], [0], [0], [1], [], [], dot_S128x256_S256x10112_S128x10112_1_0_0_1_n_n_wf⟩ : DotDims _ _ _) none _ _
      (constant ⟨2, ![128, 10112]⟩ .f32 0x00000000#32) (ix2 d e) = _
  rw [Cert.Lib.Dots.matmul_zero_rowsCols_apply]
  refine Finset.sum_congr rfl fun r _ => ?_
  rw [transpose_ix2_apply, shapeCast_self, truncf_apply, pay3_apply]

/-- The partial counts after a block: what was there plus the number of the block's incidences whose segment word
    is e (the one-hot array summed down its columns). -/
theorem pay5_apply (v3 : Vec Ideal S1x256 .i32) (v25 : Vec Ideal S1x1x10112 .f32) (e : Fin 10112) :
    k0_pay5 v3 v25 (ix3 (0 : Fin 1) (0 : Fin 1) e)
      = v25 (ix3 (0 : Fin 1) (0 : Fin 1) e) + ∑ r : Fin 256, oh (v3 (ix2 (0 : Fin 1) r)) e.val := by
  show shapeCast S1x1x10112 (addf v25 (shapeCast S1x1x10112 (shapeCast S1x10112
      (multiReduction .add [0] S10112 (k0_pay3 v3) 0x00000000#32 reduces_S256x10112_S10112 (.inl rfl) rfl)
      shapeCasts_S10112_S1x10112) shapeCasts_S1x10112_S1x1x10112)) shapeCasts_S1x1x10112_S1x1x10112
      (ix3 (0 : Fin 1) (0 : Fin 1) e) = _
  rw [shapeCast_self, addf_apply, shapeCast_ab_1ab_apply, shapeCast_a_1a_apply]
  congr 1
  refine (Ideal.multiReduction_add_single (k0_pay3 (F := Ideal) v3) 0x00000000#32 reduces_S256x10112_S10112 (.inl rfl) rfl
    (ix1 e)).trans ?_
  show ∑ r : Fin 256, k0_pay3 (F := Ideal) v3 (reduces_S256x10112_S10112.lift (ix1 e) r) = _
  refine Finset.sum_congr rfl fun r _ => ?_
  have hl : reduces_S256x10112_S10112.lift (ix1 e) r = ix2 r e := by
    funext c
    apply Fin.ext
    match c with
    | ⟨0, _⟩ => rfl
    | ⟨1, _⟩ => rfl
  rw [hl, pay3_apply]

/-- The second body's two products, each read at an entry as the sum over the contracted coordinate. -/
theorem dotB_apply (A : FVec Ideal S64x128 .bf16) (B : FVec Ideal S128x10112 .bf16) (r : Fin 64) (c : Fin 10112) :
    matmul dot_S64x128_S128x10112_S64x10112_1_0_0_1_n_n none A B (constant S64x10112 .f32 0x00000000#32) (ix2 r c)
      = ∑ k : Fin 128, A (ix2 r k) * B (ix2 k c) :=
  Cert.Lib.Dots.matmul_zero_rowsCols_apply dot_S64x128_S128x10112_S64x10112_1_0_0_1_n_n_wf none A B r c

theorem dotC_apply (A : FVec Ideal S1x64 .bf16) (B : FVec Ideal S64x10112 .bf16) (r : Fin 1) (c : Fin 10112) :
    matmul dot_S1x64_S64x10112_S1x10112_1_0_0_1_n_n none A B (constant S1x10112 .f32 0x00000000#32) (ix2 r c)
      = ∑ k : Fin 64, A (ix2 r k) * B (ix2 k c) :=
  Cert.Lib.Dots.matmul_zero_rowsCols_apply dot_S1x64_S64x10112_S1x10112_1_0_0_1_n_n_wf none A B r c

/-- The second body's result at segment e: the two partial sums and counts added, the sum over the count raised to at
    least one, the first affine layer cut off below at zero, the second affine layer, the logistic.  Each product
    contracts its operands' shared axis into the zero accumulator; the changes of float format are the identity; the
    biases are broadcast along the segment axis; the result keeps the first 10000 segments. -/
theorem k1_pay1_apply_at (v0 v2 : Vec Ideal S1x128x10112 .f32) (v5 v7 : Vec Ideal S1x1x10112 .f32)
    (v15 : Vec Ideal S64x128 .bf16) (v18 : Vec Ideal S64x1 .f32) (v24 : Vec Ideal S1x64 .bf16) (v28 : Vec Ideal S1x1 .f32)
    (e : Fin 10000) (e' : Fin 10112) (he : e'.val = e.val) :
    k1_pay1 v0 v2 v5 v7 v15 v18 v24 v28 (ix2 (0 : Fin 1) e)
      = Ideal.logistic ((∑ h : Fin 64, v24 (ix2 (0 : Fin 1) h) *
          max ((∑ d : Fin 128, v15 (ix2 h d) *
              Ideal.div (v0 (ix3 (0 : Fin 1) d e') + v2 (ix3 (0 : Fin 1) d e'))
                (max (v5 (ix3 (0 : Fin 1) (0 : Fin 1) e') + v7 (ix3 (0 : Fin 1) (0 : Fin 1) e')) Cert.Spec.one))
            + v18 (ix2 h (0 : Fin 1))) 0)
        + v28 (ix2 (0 : Fin 1) (0 : Fin 1))) := by
  unfold k1_pay1
  rw [slice2_axis1_apply 0 _ slices_S1x10112_o0_0_S1x10000 (0 : Fin 1) e e' (by omega)]
  simp only [shapeCast_self]
  show Ideal.logistic (addf (F := Ideal) (s := S1x10112) (φ := .f32) _ _ (ix2 (0 : Fin 1) e')) = _
  rw [addf_apply, dotC_apply,
    broadcastTo_apply _ broadcasts_S1x1_S1x10112 (ix2 (0 : Fin 1) e') (ix2 (0 : Fin 1) (0 : Fin 1)) (fun a => match a with
      | ⟨0, _⟩ => rfl
      | ⟨1, _⟩ => rfl)]
  congr 2
  refine Finset.sum_congr rfl fun h _ => ?_
  rw [truncf_apply, maximumf_apply, addf_apply, broadcast_apply, dotB_apply,
    broadcastTo_apply _ broadcasts_S64x1_S64x10112 (ix2 h e') (ix2 h (0 : Fin 1)) (fun a => match a with
      | ⟨0, _⟩ => rfl
      | ⟨1, _⟩ => rfl)]
  show _ * max (_ + _) (Ideal.ofBits .f32 0x00000000#32) = _
  rw [Ideal.ofBits_zero_f32]
  congr 3
  refine Finset.sum_congr rfl fun d _ => ?_
  rw [truncf_apply, divf_apply, addf_apply, shapeCast_1ab_ab_apply, shapeCast_1ab_ab_apply, broadcastTo_1b_ab_apply,
    maximumf_apply, addf_apply, shapeCast_1ab_ab_apply, shapeCast_1ab_ab_apply, broadcast_apply]
  rfl

/-- The same with the segment's place among the 10112 padded segments written out. -/
theorem k1_pay1_apply (v0 v2 : Vec Ideal S1x128x10112 .f32) (v5 v7 : Vec Ideal S1x1x10112 .f32)
    (v15 : Vec Ideal S64x128 .bf16) (v18 : Vec Ideal S64x1 .f32) (v24 : Vec Ideal S1x64 .bf16) (v28 : Vec Ideal S1x1 .f32)
    (e : Fin 10000) :
    k1_pay1 v0 v2 v5 v7 v15 v18 v24 v28 (ix2 (0 : Fin 1) e)
      = Ideal.logistic ((∑ h : Fin 64, v24 (ix2 (0 : Fin 1) h) *
          max ((∑ d : Fin 128, v15 (ix2 h d) *
              Ideal.div (v0 (ix3 (0 : Fin 1) d (⟨e.val, by have := e.isLt; omega⟩ : Fin 10112))
                  + v2 (ix3 (0 : Fin 1) d (⟨e.val, by have := e.isLt; omega⟩ : Fin 10112)))
                (max (v5 (ix3 (0 : Fin 1) (0 : Fin 1) (⟨e.val, by have := e.isLt; omega⟩ : Fin 10112))
                  + v7 (ix3 (0 : Fin 1) (0 : Fin 1) (⟨e.val, by have := e.isLt; omega⟩ : Fin 10112))) Cert.Spec.one))
            + v18 (ix2 h (0 : Fin 1))) 0)
        + v28 (ix2 (0 : Fin 1) (0 : Fin 1))) :=
  k1_pay1_apply_at v0 v2 v5 v7 v15 v18 v24 v28 e ⟨e.val, by have := e.isLt; omega⟩ rfl

end Cert.KernelIdeal.PayAt

end
-- ==== Proof.BridgeAlg.lean ====
/-
  The algebra between the kernel's arrangement of the score and the shared specification's.

  A sum over all incidences of a term times the 0 / 1 that marks a segment is the sum of the term over that segment's
  incidences; the 0 / 1 summed is the segment's count, each incidence counted as the word of 1.0, which is the number 1;
  multiplication of extended reals is commutative, so the weights may stand on either side in the two layers; and the
  logistic function is one over one plus the exponential of the negated argument.
-/
import proofs.«404063_j72000831750623_3_alg».proof.Proof.Spec
import proofs.«404063_j72000831750623_3_alg».proof.Proof.PayAt
import Idealize.ShloMosaic.PureOps.Ideal
import Idealize.ShloMosaic.PureOps.Ideal.Laws
import Mathlib.Algebra.BigOperators.Group.Finset.Basic

noncomputable section

namespace Cert.KernelIdeal.Bridge

open Cert.KernelIdeal.PayAt Cert.Spec Idealize.ShloMosaic

/-- The float word of 1.0 denotes the number 1. -/
theorem one_eq : Cert.Spec.one = 1 := by
  unfold Cert.Spec.one
  simp [Ideal.ofBits, Ideal.ieee]
  rw [← EReal.coe_mul]
  norm_num

/-- A term times the segment's 0 / 1, summed over all incidences, is the term summed over the segment's incidences. -/
theorem sum_mul_oh (f : Fin 640000 → EReal) (col : Fin 640000 → BitVec 32) (e : ℕ) :
    ∑ k : Fin 640000, f k * oh (col k) e
      = ∑ k ∈ Finset.univ.filter (fun k : Fin 640000 => (col k).toInt = (e : Int)), f k := by
  rw [Finset.sum_filter]
  refine Finset.sum_congr rfl fun k _ => ?_
  unfold oh
  by_cases h : (col k).toInt = (e : Int)
  · rw [if_pos h, if_pos h, mul_one]
  · rw [if_neg h, if_neg h, mul_zero]

/-- The segment's 0 / 1 summed over all incidences is the segment's count. -/
theorem sum_oh (col : Fin 640000 → BitVec 32) (e : ℕ) :
    ∑ k : Fin 640000, oh (col k) e = Cert.Spec.segCnt col e := by
  unfold Cert.Spec.segCnt
  rw [Finset.sum_filter, one_eq]
  rfl

/-- The kernel's arrangement of the score — weights on the left in both layers, the logistic as one operation — is
    the specification's. -/
theorem score_kernel_form (g : Fin nInc → Fin nFeat → EReal) (col : Fin nInc → BitVec 32)
    (W1 : Fin nFeat → Fin nHid → EReal) (b1 : Fin nHid → EReal) (W2 : Fin nHid → EReal) (b2 : EReal) (e : ℕ) :
    Ideal.logistic ((∑ h : Fin 64, W2 h *
        max ((∑ d : Fin 128, W1 d h * Ideal.div (segSum g col e d) (max (segCnt col e) Cert.Spec.one)) + b1 h) 0) + b2)
      = score g col W1 b1 W2 b2 e := by
  have e1 : ∀ h : Fin 64,
      (∑ d : Fin 128, W1 d h * Ideal.div (segSum g col e d) (max (segCnt col e) Cert.Spec.one))
        = ∑ d : Fin nFeat, mean g col e d * W1 d h :=
    fun h => Finset.sum_congr rfl fun d _ => mul_comm _ _
  have e2 : (∑ h : Fin 64, W2 h *
        max ((∑ d : Fin 128, W1 d h * Ideal.div (segSum g col e d) (max (segCnt col e) Cert.Spec.one)) + b1 h) 0)
      = ∑ h : Fin nHid, hid g col W1 b1 e h * W2 h :=
    Finset.sum_congr rfl fun h _ => by rw [e1 h, mul_comm]; rfl
  rw [e2]
  unfold score logit Ideal.logistic
  rw [one_eq]

end Cert.KernelIdeal.Bridge

end
-- ==== Proof.R0Val.lean ====
/-
  What the first kernel region leaves in its two output arrays, index by index, over the extended reals.

  Every point of the region reads one block of 256 incidences: their gathered feature rows and their segment words.
  A block's contribution to the partial sum at (feature d, segment e) is the sum over its incidences of the feature
  times the 0 / 1 that says the incidence's segment word is e; to the partial count, the sum of those 0 / 1.  The
  running arrays of a half add up the contributions of the half's points so far; the half's output block is what the
  running arrays hold after the half's last point.  Last, the two halves' blocks are all the incidences, once each.
-/
import proofs.«404063_j72000831750623_3_alg».proof.Proof.R0Data
import proofs.«404063_j72000831750623_3_alg».proof.Proof.R0Conds
import proofs.«404063_j72000831750623_3_alg».proof.Proof.Gen.KernelIdeal.Points
import proofs.«404063_j72000831750623_3_alg».proof.Proof.Gen.KernelIdeal.Launch
import proofs.«404063_j72000831750623_3_alg».proof.Proof.Spec
import proofs.«404063_j72000831750623_3_alg».proof.Proof.PayAt
import Idealize.ShloMosaic.PureOps.Ideal.Laws
import Idealize.ShloMosaic.Lib.ValueIdx
import Idealize.ShloMosaic.Lib.Pipeline.Value
import Idealize.ShloMosaic.Lib.ValueLayout
import Mathlib.Algebra.BigOperators.Fin
import Mathlib.Algebra.BigOperators.Group.Finset.Basic

set_option maxRecDepth 16384

noncomputable section

namespace Cert.KernelIdeal.R0Val

open Cert.KernelIdeal Cert.KernelIdeal.Gen Cert.KernelIdeal.Hand Cert.KernelIdeal.PayAt
open Idealize.ShloMosaic Idealize.ShloMosaic.TcCoe Idealize.ShloMosaic.ValueIdx
open Idealize.ShloMosaic.Pipeline (Dat Cfg Window)

-- the buffers as the region finds them
variable (V : (c : Dev nD) → (b : Ref sig .tc) → Buf (Elt Ideal) ((c : Thread nD τ).loc b))

/-- The gathered feature rows, all 640000 incidences. -/
abbrev gArr (c : Dev nD) : Vec Ideal S640000x128 .bf16 := V c main_v5
/-- The segment words of the incidences. -/
abbrev cArr (c : Dev nD) : Vec Ideal S1x640000 .i32 := V c main_v6

/-! ## A point's blocks are rows of the arrays -/

/-- incidence number of row r of block s -/
def rowOf (s : Fin cfg0.N) (r : Fin 256) : Fin 640000 :=
  ⟨s.val * 256 + r.val, by have h : s.val < 2500 := Nat.lt_of_lt_of_eq s.isLt N_0; have := r.isLt; omega⟩

theorem rowOf_val (s : Fin cfg0.N) (r : Fin 256) : (rowOf s r).val = s.val * 256 + r.val := rfl

/-- The block index of the two input windows at a point: block row t of the features, block column t of the words. -/
theorem idx_in : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- Row r of the feature block at point t is row 256 t + r of the gathered rows. -/
theorem gblk_apply (c : Dev nD) (t : Fin cfg0.N) (r : Fin 256) (d : Fin 128) :
    gblk V c t (ix2 r d) = gArr V c (ix2 (rowOf t r) d) := by
  obtain ⟨e0, e1, -, -⟩ := idx_in t
  show iblk0 V c 0 t (ix2 r d) = _
  unfold iblk0
  rw [View.read_apply]
  show V c main_v5 _ = V c main_v5 _
  congr 1
  funext a
  apply Fin.ext
  match a with
  | ⟨0, _⟩ => show win0_0.index t (0 : Fin 2) * 256 + 1 * r.val = t.val * 256 + r.val; rw [e0]; omega
  | ⟨1, _⟩ => show win0_0.index t (1 : Fin 2) * 128 + 1 * d.val = d.val; rw [e1]; omega

/-- Entry r of the word block at point t is the word of incidence 256 t + r. -/
theorem cblk_apply (c : Dev nD) (t : Fin cfg0.N) (r : Fin 256) :
    cblk V c t (ix2 (0 : Fin 1) r) = cArr V c (ix2 (0 : Fin 1) (rowOf t r)) := by
  obtain ⟨-, -, e0, e1⟩ := idx_in t
  show iblk0 V c 1 t (ix2 (0 : Fin 1) r) = _
  unfold iblk0
  rw [View.read_apply]
  show V c main_v6 _ = V c main_v6 _
  congr 1
  funext a
  apply Fin.ext
  match a with
  | ⟨0, _⟩ => show win0_1.index t (0 : Fin 2) * 1 + 1 * 0 = 0; rw [e0]
  | ⟨1, _⟩ => show win0_1.index t (1 : Fin 2) * 256 + 1 * r.val = t.val * 256 + r.val; rw [e1]; omega

/-! ## One block's contribution, and the running arrays as sums of contributions -/

/-- one block's contribution to the partial sum at (feature d, segment e) -/
def blkS (c : Dev nD) (s : Fin cfg0.N) (d : Fin 128) (e : Fin 10112) : EReal :=
  ∑ r : Fin 256, gArr V c (ix2 (rowOf s r) d) * oh (cArr V c (ix2 (0 : Fin 1) (rowOf s r))) e.val
/-- one block's contribution to the partial count at segment e -/
def blkC (c : Dev nD) (s : Fin cfg0.N) (e : Fin 10112) : EReal :=
  ∑ r : Fin 256, oh (cArr V c (ix2 (0 : Fin 1) (rowOf s r))) e.val

/-- A quantity that starts at its point's addend at the first point of a run of J points and adds its point's addend
    to what the point before left elsewhere is, at every point, the sum of the addends of its run's points so far.
    By induction on the point: the set of points gains one; addition is commutative and associative. -/
theorem run_sum {N : ℕ} (J : ℕ) (f : (n : ℕ) → n < N → EReal) (b : Fin N → EReal)
    (hfirst : ∀ (n : ℕ) (h : n < N), n % J = 0 → f n h = 0 + b ⟨n, h⟩)
    (hnext : ∀ (n : ℕ) (h : n + 1 < N), ¬ (n + 1) % J = 0 → f (n + 1) h = f n (Nat.lt_of_succ_lt h) + b ⟨n + 1, h⟩) :
    ∀ (n : ℕ) (h : n < N), f n h = ∑ s ∈ Finset.univ.filter (fun s : Fin N => s.val / J = n / J ∧ s.val ≤ n), b s := by
  have one : ∀ (n : ℕ) (h : n < N), n % J = 0 →
      Finset.univ.filter (fun s : Fin N => s.val / J = n / J ∧ s.val ≤ n) = {⟨n, h⟩} := by
    intro n h h0
    ext s
    simp only [Finset.mem_filter, Finset.mem_univ, true_and, Finset.mem_singleton, Fin.ext_iff]
    constructor
    · rintro ⟨h1, h2⟩
      have := Nat.div_add_mod n J
      have := Nat.div_add_mod s.val J
      rw [h1] at this
      omega
    · intro e; rw [e]; exact ⟨rfl, le_refl _⟩
  have more : ∀ (n : ℕ) (h : n + 1 < N), ¬ (n + 1) % J = 0 →
      Finset.univ.filter (fun s : Fin N => s.val / J = (n + 1) / J ∧ s.val ≤ n + 1)
        = insert ⟨n + 1, h⟩ (Finset.univ.filter (fun s : Fin N => s.val / J = n / J ∧ s.val ≤ n)) := by
    intro n h h0
    have hd : (n + 1) / J = n / J := by
      rcases Nat.eq_zero_or_pos J with hJ | hJ
      · subst hJ; simp
      · rw [Nat.succ_div]; rw [if_neg]; · rfl
        · intro hdvd; exact h0 (Nat.mod_eq_zero_of_dvd hdvd)
    ext s
    simp only [Finset.mem_filter, Finset.mem_univ, true_and, Finset.mem_insert, Fin.ext_iff]
    rw [hd]
    constructor
    · rintro ⟨h1, h2⟩
      by_cases e : s.val = n + 1
      · exact Or.inl e
      · exact Or.inr ⟨h1, by omega⟩
    · rintro (e | ⟨h1, h2⟩)
      · rw [e]; exact ⟨hd, le_refl _⟩
      · exact ⟨h1, by omega⟩
  intro n
  induction n with
  | zero =>
    intro h
    rw [hfirst 0 h (Nat.zero_mod _), one 0 h (Nat.zero_mod _), Finset.sum_singleton, zero_add]
  | succ n ih =>
    intro h
    by_cases h0 : (n + 1) % J = 0
    · rw [hfirst (n + 1) h h0, one (n + 1) h h0, Finset.sum_singleton, zero_add]
    · rw [hnext n h h0, more n h h0, Finset.sum_insert, ih (Nat.lt_of_succ_lt h), add_comm]
      simp only [Finset.mem_filter, Finset.mem_univ, true_and, not_and, not_le]
      intro _; exact Nat.lt_succ_self n

/-- The partial sums after point t, at (feature d, segment e): the contributions of the points of t's half up to t. -/
theorem accS_apply (c : Dev nD) (t : Fin cfg0.N) (d : Fin 128) (e : Fin 10112) :
    accS V c t.val t.isLt (ix3 (0 : Fin 1) d e)
      = ∑ s ∈ Finset.univ.filter (fun s : Fin cfg0.N => s.val / 1250 = t.val / 1250 ∧ s.val ≤ t.val), blkS V c s d e := by
  refine run_sum 1250 (fun n h => accS V c n h (ix3 (0 : Fin 1) d e)) (fun s => blkS V c s d e) ?_ ?_ t.val t.isLt
  · intro n h h0
    have e1 : accS V c n h = k0_pay4 (cblk V c ⟨n, h⟩) (gblk V c ⟨n, h⟩) (k0_pay1 (F := Ideal)) := accS_first V c ⟨n, h⟩ h0
    show accS V c n h (ix3 (0 : Fin 1) d e) = 0 + blkS V c ⟨n, h⟩ d e
    rw [e1, pay4_apply, pay1_apply]
    unfold blkS
    exact congrArg _ (Finset.sum_congr rfl fun r _ => by rw [gblk_apply, cblk_apply])
  · intro n h h0
    have e1 : accS V c (n + 1) h = k0_pay4 (cblk V c ⟨n + 1, h⟩) (gblk V c ⟨n + 1, h⟩) (accS V c n (Nat.lt_of_succ_lt h)) :=
      congrArg (k0_pay4 _ _) (if_neg h0)
    show accS V c (n + 1) h (ix3 (0 : Fin 1) d e) = accS V c n (Nat.lt_of_succ_lt h) (ix3 (0 : Fin 1) d e) + blkS V c ⟨n + 1, h⟩ d e
    rw [e1, pay4_apply]
    unfold blkS
    exact congrArg _ (Finset.sum_congr rfl fun r _ => by rw [gblk_apply, cblk_apply])

/-- The partial counts after point t, at segment e, likewise. -/
theorem accC_apply (c : Dev nD) (t : Fin cfg0.N) (e : Fin 10112) :
    accC V c t.val t.isLt (ix3 (0 : Fin 1) (0 : Fin 1) e)
      = ∑ s ∈ Finset.univ.filter (fun s : Fin cfg0.N => s.val / 1250 = t.val / 1250 ∧ s.val ≤ t.val), blkC V c s e := by
  refine run_sum 1250 (fun n h => accC V c n h (ix3 (0 : Fin 1) (0 : Fin 1) e)) (fun s => blkC V c s e) ?_ ?_ t.val t.isLt
  · intro n h h0
    have e1 : accC V c n h = k0_pay5 (cblk V c ⟨n, h⟩) (k0_pay2 (F := Ideal)) := accC_first V c ⟨n, h⟩ h0
    show accC V c n h (ix3 (0 : Fin 1) (0 : Fin 1) e) = 0 + blkC V c ⟨n, h⟩ e
    rw [e1, pay5_apply, pay2_apply]
    unfold blkC
    exact congrArg _ (Finset.sum_congr rfl fun r _ => by rw [cblk_apply])
  · intro n h h0
    have e1 : accC V c (n + 1) h = k0_pay5 (cblk V c ⟨n + 1, h⟩) (accC V c n (Nat.lt_of_succ_lt h)) :=
      congrArg (k0_pay5 _) (if_neg h0)
    show accC V c (n + 1) h (ix3 (0 : Fin 1) (0 : Fin 1) e) = accC V c n (Nat.lt_of_succ_lt h) (ix3 (0 : Fin 1) (0 : Fin 1) e) + blkC V c ⟨n + 1, h⟩ e
    rw [e1, pay5_apply]
    unfold blkC
    exact congrArg _ (Finset.sum_congr rfl fun r _ => by rw [cblk_apply])

/-! ## The output arrays -/

/-- The block index of the two output windows at a point: the point's half on the first axis, 0 on the others. -/
theorem idx_out : ∀ t : Fin cfg0.N, win0_2.index t (0 : Fin 3) = t.val / 1250 ∧ win0_2.index t (1 : Fin 3) = 0
    ∧ win0_2.index t (2 : Fin 3) = 0 ∧ win0_3.index t (0 : Fin 3) = t.val / 1250 ∧ win0_3.index t (1 : Fin 3) = 0
    ∧ win0_3.index t (2 : Fin 3) = 0 :=
  (by decide +kernel : ∀ t : Fin grid0.N, _)

/-- A point's half is 0 or 1. -/
theorem half_lt (t : Fin cfg0.N) : t.val / 1250 < 2 := by
  have h : t.val < 2500 := Nat.lt_of_lt_of_eq t.isLt N_0
  omega

/-- What the partial-sum array ends holding: at (half h, feature d, segment e), the contributions of the points of half h. -/
def sumArr (c : Dev nD) : Vec Ideal S2x128x10112 .f32 := fun i =>
  ∑ s ∈ Finset.univ.filter (fun s : Fin cfg0.N => s.val / 1250 = (i 0).val), blkS V c s (i 1) (i 2)
/-- What the partial-count array ends holding: at (half h, segment e), the contributions of the points of half h. -/
def cntArr (c : Dev nD) : Vec Ideal S2x1x10112 .f32 := fun i =>
  ∑ s ∈ Finset.univ.filter (fun s : Fin cfg0.N => s.val / 1250 = (i 0).val), blkC V c s (i 2)

/-- At the last point of a half, the points of the half so far are all the half's points. -/
theorem filter_last (t : Fin cfg0.N) (h9 : t.val % 1250 = 1249) :
    Finset.univ.filter (fun s : Fin cfg0.N => s.val / 1250 = t.val / 1250 ∧ s.val ≤ t.val)
      = Finset.univ.filter (fun s : Fin cfg0.N => s.val / 1250 = t.val / 1250) := by
  refine Finset.filter_congr fun s _ => ?_
  constructor
  · exact fun h => h.1
  · intro h; refine ⟨h, ?_⟩; omega

/-- The running sums after the last point of a half are the half's entries of the final array. -/
theorem accS_last (c : Dev nD) (t : Fin cfg0.N) (h9 : t.val % 1250 = 1249) (d : Fin 128) (e : Fin 10112) :
    accS V c t.val t.isLt (ix3 (0 : Fin 1) d e) = sumArr V c (ix3 (⟨t.val / 1250, half_lt t⟩ : Fin 2) d e) := by
  rw [accS_apply, filter_last t h9]
  rfl

theorem accC_last (c : Dev nD) (t : Fin cfg0.N) (h9 : t.val % 1250 = 1249) (e : Fin 10112) :
    accC V c t.val t.isLt (ix3 (0 : Fin 1) (0 : Fin 1) e) = cntArr V c (ix3 (⟨t.val / 1250, half_lt t⟩ : Fin 2) (0 : Fin 1) e) := by
  rw [accC_apply, filter_last t h9]
  rfl

/-- What the last point of a half writes back is the half's block of the final partial sums. -/
theorem flushed2_eq (c : Dev nD) (t : Fin cfg0.N) (hf : (cfg0.win 2).flush t = true) :
    (dat0 V c).flushed 2 t = ((cfg0.win 2).blk t).view.read (Elt Ideal) (sumArr V c) := by
  have h9 : t.val % 1250 = 1249 := (flush0_2 t).mp hf
  obtain ⟨e0, e1, e2, -, -, -⟩ := idx_out t
  show (cfg0.win 2).cut (grid0.coords t) ((dat0 V c).after 2 t) = _
  rw [after0_2]
  funext y
  rw [View.read_apply]
  have y0 : (y 0).val < 1 := (y 0).isLt
  have hx : win0_2.xinj (grid0.coords t) y = ix3 (0 : Fin 1) (y 1 : Fin 128) (y 2 : Fin 10112) := by
    funext a
    apply Fin.ext
    match a with
    | ⟨0, _⟩ => show (y 0).val = 0; omega
    | ⟨1, _⟩ => rfl
    | ⟨2, _⟩ => rfl
  have hm : ((cfg0.win 2).blk t).view.emb y = ix3 (⟨t.val / 1250, half_lt t⟩ : Fin 2) (y 1 : Fin 128) (y 2 : Fin 10112) := by
    funext a
    apply Fin.ext
    match a with
    | ⟨0, _⟩ => show win0_2.index t (0 : Fin 3) * 1 + 1 * (y 0).val = t.val / 1250; rw [e0]; omega
    | ⟨1, _⟩ => show win0_2.index t (1 : Fin 3) * 128 + 1 * (y 1).val = (y 1).val; rw [e1]; omega
    | ⟨2, _⟩ => show win0_2.index t (2 : Fin 3) * 10112 + 1 * (y 2).val = (y 2).val; rw [e2]; omega
  show accS V c t.val t.isLt (win0_2.xinj (grid0.coords t) y) = sumArr V c (((cfg0.win 2).blk t).view.emb y)
  rw [hx, hm]
  exact accS_last V c t h9 _ _

/-- Every entry of the partial-sum array is in the block of the last point of its half. -/
theorem cover2 (i : S2x128x10112.Idx) :
    ∃ t : Fin cfg0.N, (cfg0.win 2).flush t = true ∧ i ∈ ((cfg0.win 2).blk t).view.set := by
  have hi0 : (i 0).val < 2 := (i 0).isLt
  have hi1 : (i 1).val < 128 := (i 1).isLt
  have hi2 : (i 2).val < 10112 := (i 2).isLt
  obtain ⟨t, ht⟩ : ∃ t : Fin cfg0.N, t.val = (i 0).val * 1250 + 1249 :=
    ⟨⟨(i 0).val * 1250 + 1249, by rw [show cfg0.N = 2500 from N_0]; omega⟩, rfl⟩
  obtain ⟨e0, e1, e2, -, -, -⟩ := idx_out t
  refine ⟨t, (flush0_2 t).mpr (by omega), ?_⟩
  show i ∈ ((View.whole main_v13_0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 128 ≤ (i 1).val ∧ (i 1).val < win0_2.index t (1 : Fin 3) * 128 + 128
    rw [e1]; omega
  | ⟨2, _⟩ =>
    show win0_2.index t (2 : Fin 3) * 10112 ≤ (i 2).val ∧ (i 2).val < win0_2.index t (2 : Fin 3) * 10112 + 10112
    rw [e2]; omega

/-- The partial-sum array after the region. -/
theorem arr2_eq (c : Dev nD) : (dat0 V c).arrAt 2 cfg0.N = sumArr V c :=
  (dat0 V c).arrAt_eq_of_cover 2 (sumArr V c) (flushed2_eq V c) cover2

/-- The partial-sum array after the region at (half h, feature d, segment e): the contributions of the points of half h. -/
theorem arr2_apply (c : Dev nD) (h : Fin 2) (d : Fin 128) (e : Fin 10112) :
    ((dat0 V c).arrAt 2 cfg0.N : S2x128x10112.Idx → EReal) (ix3 h d e)
      = ∑ s ∈ Finset.univ.filter (fun s : Fin cfg0.N => s.val / 1250 = h.val), blkS V c s d e := by
  rw [arr2_eq]
  rfl

/-- What the last point of a half writes back is the half's block of the final partial counts. -/
theorem flushed3_eq (c : Dev nD) (t : Fin cfg0.N) (hf : (cfg0.win 3).flush t = true) :
    (dat0 V c).flushed 3 t = ((cfg0.win 3).blk t).view.read (Elt Ideal) (cntArr V c) := by
  have h9 : t.val % 1250 = 1249 := (flush0_3 t).mp hf
  obtain ⟨-, -, -, e0, e1, e2⟩ := idx_out t
  show (cfg0.win 3).cut (grid0.coords t) ((dat0 V c).after 3 t) = _
  rw [after0_3]
  funext y
  rw [View.read_apply]
  have y0 : (y 0).val < 1 := (y 0).isLt
  have y1 : (y 1).val < 1 := (y 1).isLt
  have hx : win0_3.xinj (grid0.coords t) y = ix3 (0 : Fin 1) (0 : Fin 1) (y 2 : Fin 10112) := by
    funext a
    apply Fin.ext
    match a with
    | ⟨0, _⟩ => show (y 0).val = 0; omega
    | ⟨1, _⟩ => show (y 1).val = 0; omega
    | ⟨2, _⟩ => rfl
  have hm : ((cfg0.win 3).blk t).view.emb y = ix3 (⟨t.val / 1250, half_lt t⟩ : Fin 2) (0 : Fin 1) (y 2 : Fin 10112) := by
    funext a
    apply Fin.ext
    match a with
    | ⟨0, _⟩ => show win0_3.index t (0 : Fin 3) * 1 + 1 * (y 0).val = t.val / 1250; rw [e0]; omega
    | ⟨1, _⟩ => show win0_3.index t (1 : Fin 3) * 1 + 1 * (y 1).val = 0; rw [e1]; omega
    | ⟨2, _⟩ => show win0_3.index t (2 : Fin 3) * 10112 + 1 * (y 2).val = (y 2).val; rw [e2]; omega
  show accC V c t.val t.isLt (win0_3.xinj (grid0.coords t) y) = cntArr V c (((cfg0.win 3).blk t).view.emb y)
  rw [hx, hm]
  exact accC_last V c t h9 _

/-- Every entry of the partial-count array is in the block of the last point of its half. -/
theorem cover3 (i : S2x1x10112.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 10112 := (i 2).isLt
  obtain ⟨t, ht⟩ : ∃ t : Fin cfg0.N, t.val = (i 0).val * 1250 + 1249 :=
    ⟨⟨(i 0).val * 1250 + 1249, by rw [show cfg0.N = 2500 from N_0]; omega⟩, rfl⟩
  obtain ⟨-, -, -, e0, e1, e2⟩ := idx_out t
  refine ⟨t, (flush0_3 t).mpr (by omega), ?_⟩
  show i ∈ ((View.whole main_v13_1).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 10112 ≤ (i 2).val ∧ (i 2).val < win0_3.index t (2 : Fin 3) * 10112 + 10112
    rw [e2]; omega

/-- The partial-count array after the region. -/
theorem arr3_eq (c : Dev nD) : (dat0 V c).arrAt 3 cfg0.N = cntArr V c :=
  (dat0 V c).arrAt_eq_of_cover 3 (cntArr V c) (flushed3_eq V c) cover3

/-- The partial-count array after the region at (half h, segment e): the contributions of the points of half h. -/
theorem arr3_apply (c : Dev nD) (h : Fin 2) (e : Fin 10112) :
    ((dat0 V c).arrAt 3 cfg0.N : S2x1x10112.Idx → EReal) (ix3 h (0 : Fin 1) e)
      = ∑ s ∈ Finset.univ.filter (fun s : Fin cfg0.N => s.val / 1250 = h.val), blkC V c s e := by
  rw [arr3_eq]
  rfl

/-! ## The two halves' blocks are all the incidences -/

/-- (block s, row r) ↦ incidence 256 s + r, with inverse k ↦ (k / 256, k % 256). -/
def rowsEquiv : Fin cfg0.N × Fin 256 ≃ Fin 640000 where
  toFun p := rowOf p.1 p.2
  invFun k := (⟨k.val / 256, by have := k.isLt; rw [show cfg0.N = 2500 from N_0]; omega⟩, ⟨k.val % 256, by omega⟩)
  left_inv p := by
    obtain ⟨⟨s, hs⟩, ⟨r, hr⟩⟩ := p
    refine Prod.ext (Fin.ext ?_) (Fin.ext ?_)
    · show (s * 256 + r) / 256 = s; omega
    · show (s * 256 + r) % 256 = r; omega
  right_inv k := by
    obtain ⟨v, hv⟩ := k
    refine Fin.ext ?_
    show v / 256 * 256 + v % 256 = v; omega

/-- the two halves' blocks are all the incidences, once each -/
theorem sum_halves (f : Fin 640000 → EReal) :
    (∑ s ∈ Finset.univ.filter (fun s : Fin cfg0.N => s.val / 1250 = 0), ∑ r : Fin 256, f (rowOf s r))
      + (∑ s ∈ Finset.univ.filter (fun s : Fin cfg0.N => s.val / 1250 = 1), ∑ r : Fin 256, f (rowOf s r))
      = ∑ k : Fin 640000, f k := by
  have h1 : Finset.univ.filter (fun s : Fin cfg0.N => s.val / 1250 = 1)
      = Finset.univ.filter (fun s : Fin cfg0.N => ¬ s.val / 1250 = 0) := by
    refine Finset.filter_congr fun s _ => ?_
    have := half_lt s
    omega
  rw [h1, Finset.sum_filter_add_sum_filter_not, ← Equiv.sum_comp rowsEquiv f, Fintype.sum_prod_type]
  rfl

end Cert.KernelIdeal.R0Val

end
-- ==== Proof.LibLayoutIx.lean ====
/-
  LAYOUT OPERATIONS OF A HOST PROGRAM READ AT AN INDEX BUILT FROM COORDINATES — general lemmas, about no particular
  program.

  Each lemma rewrites ONE layout operation of StableHLO — `broadcastInDim`, `extractStridedSlice`, `shapeCast`,
  `transpose`, `concatenate` — applied at an index written by its coordinates (`ValueIdx.ix0` … `ix3`) to its operand
  at the index it reads, again written by coordinates. The equations are oriented left to right for `simp only`: a
  chain of layout operations applied at `ix2 n c` is pushed down to the operand's element, one rewrite per operation.
  Shapes are LITERAL (`⟨rank, ![…]⟩`), their extents variables wherever no unit axis is involved, so one lemma serves
  every program whose shapes are reducible abbreviations of such literals; the operation's side condition
  (`Shape.Slices`, `ShapeCasts`, `BroadcastsInDim`, `Transposes`, `Concatenates`) is ANY proof `h`, bound as a variable.

  What is proved:
  * a rank-0 operand broadcast to any shape reads its one element (`broadcastInDim_scalar`);
  * a rank-1 operand broadcast into a column `[N, 1]` or a row `[1, N]` reads its coordinate (`broadcastInDim_col`,
    `broadcastInDim_row`); a row `[1, N]` stretched to `[R, N]` and a column `[N, 1]` stretched to `[N, C]` read the
    unit axis at 0 (`broadcastInDim_rows`, `broadcastInDim_cols`);
  * column `k` of an `[N, C]` array and row `k` of an `[R, N]` array, sliced out as `[N, 1]` / `[1, N]`
    (`extractStridedSlice_col`, `extractStridedSlice_row`);
  * a column or a row reshaped to rank 1 (`shapeCast_col`, `shapeCast_row`), and a `[U, V, L]` table flattened to
    `[U * V, L]`, read at row `f` as `(f / V, f % V)` (`shapeCast_table`, and `shapeCast_table_2048` at the literal 4194304);
  * the transposes `[1, 0]` of rank 2 and `[2, 0, 1]` of rank 3 (`transpose_10`, `transpose_201`);
  * two columns joined along axis 1 (`concatenate_cols_zero`, `concatenate_cols_one`) and twelve rows joined along axis 0:
    row `r` is piece `r`, for the index `ix2 ⟨r, hr⟩ n` (`concatenate_rows12_0` … `_11`), for `r` a numeral of `Fin 12`
    (`concatenate_rows12_num_0` … `_11`) and for any `r` (`concatenate_rows12`, the piece picked out of `![u0, …, u11]`);
  * pointwise host operations read at an index, all by `rfl`: the host's quotient, floor, absolute value and
    round-half-even at the ideal instance, the float-to-integer conversion there, and the integer splat, sum, product,
    signed minimum and comparison.
-/
import Idealize.ShloMosaic.Lib.ValueIdx
import Idealize.ShloMosaic.Lib.Pipeline.Value

namespace Cert.LibLayoutIx

open Idealize.ShloMosaic Idealize.ShloMosaic.ValueIdx

variable {α : Type}

/-! ## Broadcasts -/

/-- A rank-0 operand broadcast to ANY shape reads its one element at every index (`dims` is the empty map). -/
theorem broadcastInDim_scalar (t : Shape) (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A rank-1 operand laid down as the COLUMN `[N, 1]` reads its coordinate `n` at `(n, k)`. (When `N = 1` the
    operand's axis counts as a unit axis and is read at 0, which is then `n`.) The axis map is written at the literal
    ranks, `Fin 1 → Fin 2`, the form under which the simplifier finds the equation from a shape given by name. -/
theorem broadcastInDim_col {N : Nat} (h : (⟨1, ![N]⟩ : Shape).BroadcastsInDim ⟨2, ![N, 1]⟩ (![0] : Fin 1 → Fin 2))
    (x : (⟨1, ![N]⟩ : Shape).Idx → α) (n : Fin N) (k : Fin 1) :
    broadcastInDim ⟨2, ![N, 1]⟩ (![0] : Fin 1 → Fin 2) h x (ix2 n k) = x (ix1 n) :=
  broadcastInDim_apply _ h x _ (ix1 n) (fun a => match a with
    | ⟨0, _⟩ => by
      have hn := n.isLt
      show n.val = if N = 1 then 0 else n.val
      split
      · omega
      · rfl)

/-- A rank-1 operand laid down as the ROW `[1, N]` reads its coordinate `n` at `(k, n)`. -/
theorem broadcastInDim_row {N : Nat} (h : (⟨1, ![N]⟩ : Shape).BroadcastsInDim ⟨2, ![1, N]⟩ (![1] : Fin 1 → Fin 2))
    (x : (⟨1, ![N]⟩ : Shape).Idx → α) (k : Fin 1) (n : Fin N) :
    broadcastInDim ⟨2, ![1, N]⟩ (![1] : Fin 1 → Fin 2) h x (ix2 k n) = x (ix1 n) :=
  broadcastInDim_apply _ h x _ (ix1 n) (fun a => match a with
    | ⟨0, _⟩ => by
      have hn := n.isLt
      show n.val = if N = 1 then 0 else n.val
      split
      · omega
      · rfl)

/-- A ROW `[1, N]` stretched to `[R, N]` reads the row at `(0, n)`, whatever the row `r` asked for. -/
theorem broadcastInDim_rows {R N : Nat}
    (h : (⟨2, ![1, N]⟩ : Shape).BroadcastsInDim ⟨2, ![R, N]⟩ (![0, 1] : Fin 2 → Fin 2))
    (x : (⟨2, ![1, N]⟩ : Shape).Idx → α) (r : Fin R) (n : Fin N) :
    broadcastInDim ⟨2, ![R, N]⟩ (![0, 1] : Fin 2 → Fin 2) h x (ix2 r n) = x (ix2 0 n) :=
  broadcastInDim_apply _ h x _ (ix2 0 n) (fun a => match a with
    | ⟨0, _⟩ => by
      show (0 : Nat) = if (1 : Nat) = 1 then 0 else r.val
      rfl
    | ⟨1, _⟩ => by
      have hn := n.isLt
      show n.val = if N = 1 then 0 else n.val
      split
      · omega
      · rfl)

/-- A COLUMN `[N, 1]` stretched to `[N, C]` reads the column at `(n, 0)`, whatever the column `c` asked for. -/
theorem broadcastInDim_cols {N C : Nat}
    (h : (⟨2, ![N, 1]⟩ : Shape).BroadcastsInDim ⟨2, ![N, C]⟩ (![0, 1] : Fin 2 → Fin 2))
    (x : (⟨2, ![N, 1]⟩ : Shape).Idx → α) (n : Fin N) (c : Fin C) :
    broadcastInDim ⟨2, ![N, C]⟩ (![0, 1] : Fin 2 → Fin 2) h x (ix2 n c) = x (ix2 n 0) :=
  broadcastInDim_apply _ h x _ (ix2 n 0) (fun a => match a with
    | ⟨0, _⟩ => by
      have hn := n.isLt
      show n.val = if N = 1 then 0 else n.val
      split
      · omega
      · rfl
    | ⟨1, _⟩ => by
      show (0 : Nat) = if (1 : Nat) = 1 then 0 else c.val
      rfl)

/-! ## Slices -/

/-- The column a slice `[N, 1]` at offsets `(0, k)` of an `[N, C]` array takes is inside the array. -/
theorem slice_col_lt {N C k : Nat} (h : (⟨2, ![N, C]⟩ : Shape).Slices ![0, k] ⟨2, ![N, 1]⟩) : k < C := by
  have h1 := h.2 ⟨1, Nat.one_lt_two⟩
  change k + 1 ≤ C at h1
  omega

/-- COLUMN `k` of an `[N, C]` array, sliced out as `[N, 1]`, reads the array at `(n, k)`. -/
theorem extractStridedSlice_col {N C k : Nat} (x : (⟨2, ![N, C]⟩ : Shape).Idx → α)
    (h : (⟨2, ![N, C]⟩ : Shape).Slices ![0, k] ⟨2, ![N, 1]⟩) (n : Fin N) (z : Fin 1) :
    extractStridedSlice ⟨2, ![N, 1]⟩ ![0, k] x h (ix2 n z) = x (ix2 n ⟨k, slice_col_lt h⟩) :=
  extractStridedSlice_apply _ x h _ _ (fun a => match a with
    | ⟨0, _⟩ => by show n.val = 0 + n.val; omega
    | ⟨1, _⟩ => by have hz := z.isLt; show k = k + z.val; omega)

/-- The row a slice `[1, N]` at offsets `(k, 0)` of an `[R, N]` array takes is inside the array. -/
theorem slice_row_lt {R N k : Nat} (h : (⟨2, ![R, N]⟩ : Shape).Slices ![k, 0] ⟨2, ![1, N]⟩) : k < R := by
  have h0 := h.2 ⟨0, Nat.two_pos⟩
  change k + 1 ≤ R at h0
  omega

/-- ROW `k` of an `[R, N]` array, sliced out as `[1, N]`, reads the array at `(k, n)`. -/
theorem extractStridedSlice_row {R N k : Nat} (x : (⟨2, ![R, N]⟩ : Shape).Idx → α)
    (h : (⟨2, ![R, N]⟩ : Shape).Slices ![k, 0] ⟨2, ![1, N]⟩) (z : Fin 1) (n : Fin N) :
    extractStridedSlice ⟨2, ![1, N]⟩ ![k, 0] x h (ix2 z n) = x (ix2 ⟨k, slice_row_lt h⟩ n) :=
  extractStridedSlice_apply _ x h _ _ (fun a => match a with
    | ⟨0, _⟩ => by have hz := z.isLt; show k = k + z.val; omega
    | ⟨1, _⟩ => by show n.val = 0 + n.val; omega)

/-! ## Reshapes -/

/-- A column `[N, 1]` reshaped to rank 1 reads `(n, 0)` at `n`. -/
theorem shapeCast_col {N : Nat} (x : (⟨2, ![N, 1]⟩ : Shape).Idx → α)
    (h : (⟨2, ![N, 1]⟩ : Shape).ShapeCasts ⟨1, ![N]⟩) (n : Fin N) :
    shapeCast ⟨1, ![N]⟩ x h (ix1 n) = x (ix2 n 0) :=
  shapeCast_apply x h _ (ix2 n 0) (by
    rw [Shape.rowMajor_val_two, Shape.rowMajor_val_one]
    show n.val * 1 + 0 = n.val
    omega)

/-- A row `[1, N]` reshaped to rank 1 reads `(0, n)` at `n`. -/
theorem shapeCast_row {N : Nat} (x : (⟨2, ![1, N]⟩ : Shape).Idx → α)
    (h : (⟨2, ![1, N]⟩ : Shape).ShapeCasts ⟨1, ![N]⟩) (n : Fin N) :
    shapeCast ⟨1, ![N]⟩ x h (ix1 n) = x (ix2 0 n) :=
  shapeCast_apply x h _ (ix2 0 n) (by
    rw [Shape.rowMajor_val_two, Shape.rowMajor_val_one]
    show 0 * N + n.val = n.val
    omega)

/-- A row `m` of the flattened table lies in block `m / V`, which is one of the `U` blocks. -/
theorem table_div_lt {U V m : Nat} (hm : m < U * V) : m / V < U :=
  Nat.div_lt_of_lt_mul (Nat.mul_comm U V ▸ hm)

/-- A row `m` of the flattened table is row `m % V` of its block (a nonempty table has `0 < V`). -/
theorem table_mod_lt {U V m : Nat} (hm : m < U * V) : m % V < V := by
  rcases Nat.eq_zero_or_pos V with h0 | hV
  · rw [h0, Nat.mul_zero] at hm; exact absurd hm (Nat.not_lt_zero _)
  · exact Nat.mod_lt _ hV

/-- A `[U, V, L]` table FLATTENED to `[U * V, L]`: row `f` of the result is row `f % V` of block `f / V`. -/
theorem shapeCast_table {U V L : Nat} (x : (⟨3, ![U, V, L]⟩ : Shape).Idx → α)
    (h : (⟨3, ![U, V, L]⟩ : Shape).ShapeCasts ⟨2, ![U * V, L]⟩) (f : Fin (U * V)) (l : Fin L) :
    shapeCast ⟨2, ![U * V, L]⟩ x h (ix2 f l)
      = x (ix3 ⟨f.val / V, table_div_lt f.isLt⟩ ⟨f.val % V, table_mod_lt f.isLt⟩ l) :=
  shapeCast_apply x h _ _ (by
    rw [Shape.rowMajor_val_three, Shape.rowMajor_val_two]
    show (f.val / V * V + f.val % V) * L + l.val = f.val * L + l.val
    rw [Nat.div_add_mod'])

/-- The same with the row count written out, `2048 * 2048 = 4194304`, and two lanes: the form that matches a target
    shape given as the literal `[4194304, 2]`. -/
theorem shapeCast_table_2048 (x : (⟨3, ![2048, 2048, 2]⟩ : Shape).Idx → α)
    (h : (⟨3, ![2048, 2048, 2]⟩ : Shape).ShapeCasts ⟨2, ![4194304, 2]⟩) (f : Fin 4194304) (l : Fin 2) :
    shapeCast ⟨2, ![4194304, 2]⟩ x h (ix2 f l)
      = x (ix3 ⟨f.val / 2048, by have := f.isLt; omega⟩ ⟨f.val % 2048, by omega⟩ l) :=
  shapeCast_apply x h _ _ (by
    rw [Shape.rowMajor_val_three, Shape.rowMajor_val_two]
    show (f.val / 2048 * 2048 + f.val % 2048) * 2 + l.val = f.val * 2 + l.val
    omega)

/-! ## Transposes -/

/-- The rank-2 transpose: `(c, n)` of the result is `(n, c)` of the operand (either direction is this equation). -/
theorem transpose_10 {N C : Nat} (x : (⟨2, ![N, C]⟩ : Shape).Idx → α)
    (h : (⟨2, ![N, C]⟩ : Shape).Transposes ([1, 0] : List (Fin 2)) ⟨2, ![C, N]⟩) (c : Fin C) (n : Fin N) :
    transpose ⟨2, ![C, N]⟩ ([1, 0] : List (Fin 2)) x h (ix2 c n) = x (ix2 n c) :=
  transpose_apply _ x h _ (ix2 n c) (fun b => match b with
    | ⟨0, _⟩ => rfl
    | ⟨1, _⟩ => rfl)

/-- The rank-3 transpose that brings the last axis to the front: `(l, u, v)` of the result is `(u, v, l)` of the operand. -/
theorem transpose_201 {U V L : Nat} (x : (⟨3, ![U, V, L]⟩ : Shape).Idx → α)
    (h : (⟨3, ![U, V, L]⟩ : Shape).Transposes ([2, 0, 1] : List (Fin 3)) ⟨3, ![L, U, V]⟩)
    (l : Fin L) (u : Fin U) (v : Fin V) :
    transpose ⟨3, ![L, U, V]⟩ ([2, 0, 1] : List (Fin 3)) x h (ix3 l u v) = x (ix3 u v l) :=
  transpose_apply _ x h _ (ix3 u v l) (fun b => match b with
    | ⟨0, _⟩ => rfl
    | ⟨1, _⟩ => rfl
    | ⟨2, _⟩ => rfl)

/-! ## Concatenations -/

/-- Two columns joined along axis 1, read in column 0: the FIRST column. -/
theorem concatenate_cols_zero {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 0) = a (ix2 n 0) :=
  concatenate_pair_apply_left 1 a b h (ix2 n 0) rfl (ix2 n 0) (fun c => match c with
    | ⟨0, _⟩ => rfl
    | ⟨1, _⟩ => rfl)

/-- Two columns joined along axis 1, read in column 1: the SECOND column (at its own column 0). -/
theorem concatenate_cols_one {N : Nat} (a b : (⟨2, ![N, 1]⟩ : Shape).Idx → α)
    (h : Shape.Concatenates [⟨2, ![N, 1]⟩, ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n 1) = b (ix2 n 0) :=
  concatenate_pair_apply_right 1 a b h (ix2 n 1) rfl rfl (ix2 n 0)
    (fun c hc => match c, hc with
      | ⟨0, _⟩, _ => rfl
      | ⟨1, _⟩, hc => absurd rfl hc)
    (by show 0 + 1 = 1; rfl)

section Rows12
variable {N : Nat} (u0 u1 u2 u3 u4 u5 u6 u7 u8 u9 u10 u11 : (⟨2, ![1, N]⟩ : Shape).Idx → α)

set_option quotPrecheck false in
/-- The twelve rows, each with its shape, in the order the concatenation lists them. -/
local notation "rows12" =>
  ([⟨⟨2, ![1, N]⟩, u0⟩, ⟨⟨2, ![1, N]⟩, u1⟩, ⟨⟨2, ![1, N]⟩, u2⟩, ⟨⟨2, ![1, N]⟩, u3⟩,
    ⟨⟨2, ![1, N]⟩, u4⟩, ⟨⟨2, ![1, N]⟩, u5⟩, ⟨⟨2, ![1, N]⟩, u6⟩, ⟨⟨2, ![1, N]⟩, u7⟩,
    ⟨⟨2, ![1, N]⟩, u8⟩, ⟨⟨2, ![1, N]⟩, u9⟩, ⟨⟨2, ![1, N]⟩, u10⟩, ⟨⟨2, ![1, N]⟩, u11⟩] : List ((s : Shape) × (s.Idx → α)))

variable (h : Shape.Concatenates [⟨2, ![1, N]⟩, ⟨2, ![1, N]⟩, ⟨2, ![1, N]⟩, ⟨2, ![1, N]⟩, ⟨2, ![1, N]⟩, ⟨2, ![1, N]⟩,
  ⟨2, ![1, N]⟩, ⟨2, ![1, N]⟩, ⟨2, ![1, N]⟩, ⟨2, ![1, N]⟩, ⟨2, ![1, N]⟩, ⟨2, ![1, N]⟩] ⟨2, ![12, N]⟩ 0)

/-- TWELVE ROWS joined along axis 0, read in row `R`: the piece that sits at position `R` of the list (`hx`), once the
    extents of the pieces before it are known to add up to `R` (`hp`: each piece is one row). -/
theorem concatenate_rows12_at (R : Nat) (hR : R < 12) (v : (⟨2, ![1, N]⟩ : Shape).Idx → α)
    (hx : rows12[R]'hR = ⟨⟨2, ![1, N]⟩, v⟩)
    (hp : (((List.take R rows12).map (·.1)).map fun s : Shape =>
      if h : s.rank = (⟨2, ![12, N]⟩ : Shape).rank then s.size ((0 : Fin (⟨2, ![12, N]⟩ : Shape).rank).cast h.symm) else 0).sum = R)
    (n : Fin N) :
    concatenate ⟨2, ![12, N]⟩ 0 rows12 h (ix2 ⟨R, hR⟩ n) = v (ix2 0 n) :=
  concatenate_apply_piece (t := ⟨2, ![12, N]⟩) 0 rows12 h (ix2 ⟨R, hR⟩ n) R hR ⟨2, ![1, N]⟩ v hx rfl R hp (ix2 0 n)
    (fun c hc => match c, hc with
      | ⟨0, _⟩, hc => absurd rfl hc
      | ⟨1, _⟩, _ => rfl)
    (by show R + 0 = R; rfl)

/-! Row `r` at the index `ix2 ⟨r, hr⟩ n`, `hr` any proof of the bound. -/

/-- Row 0 of the twelve joined rows is the first piece. -/
theorem concatenate_rows12_0 (hr : 0 < 12) (n : Fin N) :
    concatenate ⟨2, ![12, N]⟩ 0 rows12 h (ix2 ⟨0, hr⟩ n) = u0 (ix2 0 n) :=
  concatenate_rows12_at u0 u1 u2 u3 u4 u5 u6 u7 u8 u9 u10 u11 h 0 hr u0 rfl rfl n

/-- Row 1 of the twelve joined rows is the second piece. -/
theorem concatenate_rows12_1 (hr : 1 < 12) (n : Fin N) :
    concatenate ⟨2, ![12, N]⟩ 0 rows12 h (ix2 ⟨1, hr⟩ n) = u1 (ix2 0 n) :=
  concatenate_rows12_at u0 u1 u2 u3 u4 u5 u6 u7 u8 u9 u10 u11 h 1 hr u1 rfl rfl n

/-- Row 2 of the twelve joined rows is the third piece. -/
theorem concatenate_rows12_2 (hr : 2 < 12) (n : Fin N) :
    concatenate ⟨2, ![12, N]⟩ 0 rows12 h (ix2 ⟨2, hr⟩ n) = u2 (ix2 0 n) :=
  concatenate_rows12_at u0 u1 u2 u3 u4 u5 u6 u7 u8 u9 u10 u11 h 2 hr u2 rfl rfl n

/-- Row 3 of the twelve joined rows is the fourth piece. -/
theorem concatenate_rows12_3 (hr : 3 < 12) (n : Fin N) :
    concatenate ⟨2, ![12, N]⟩ 0 rows12 h (ix2 ⟨3, hr⟩ n) = u3 (ix2 0 n) :=
  concatenate_rows12_at u0 u1 u2 u3 u4 u5 u6 u7 u8 u9 u10 u11 h 3 hr u3 rfl rfl n

/-- Row 4 of the twelve joined rows is the fifth piece. -/
theorem concatenate_rows12_4 (hr : 4 < 12) (n : Fin N) :
    concatenate ⟨2, ![12, N]⟩ 0 rows12 h (ix2 ⟨4, hr⟩ n) = u4 (ix2 0 n) :=
  concatenate_rows12_at u0 u1 u2 u3 u4 u5 u6 u7 u8 u9 u10 u11 h 4 hr u4 rfl rfl n

/-- Row 5 of the twelve joined rows is the sixth piece. -/
theorem concatenate_rows12_5 (hr : 5 < 12) (n : Fin N) :
    concatenate ⟨2, ![12, N]⟩ 0 rows12 h (ix2 ⟨5, hr⟩ n) = u5 (ix2 0 n) :=
  concatenate_rows12_at u0 u1 u2 u3 u4 u5 u6 u7 u8 u9 u10 u11 h 5 hr u5 rfl rfl n

/-- Row 6 of the twelve joined rows is the seventh piece. -/
theorem concatenate_rows12_6 (hr : 6 < 12) (n : Fin N) :
    concatenate ⟨2, ![12, N]⟩ 0 rows12 h (ix2 ⟨6, hr⟩ n) = u6 (ix2 0 n) :=
  concatenate_rows12_at u0 u1 u2 u3 u4 u5 u6 u7 u8 u9 u10 u11 h 6 hr u6 rfl rfl n

/-- Row 7 of the twelve joined rows is the eighth piece. -/
theorem concatenate_rows12_7 (hr : 7 < 12) (n : Fin N) :
    concatenate ⟨2, ![12, N]⟩ 0 rows12 h (ix2 ⟨7, hr⟩ n) = u7 (ix2 0 n) :=
  concatenate_rows12_at u0 u1 u2 u3 u4 u5 u6 u7 u8 u9 u10 u11 h 7 hr u7 rfl rfl n

/-- Row 8 of the twelve joined rows is the ninth piece. -/
theorem concatenate_rows12_8 (hr : 8 < 12) (n : Fin N) :
    concatenate ⟨2, ![12, N]⟩ 0 rows12 h (ix2 ⟨8, hr⟩ n) = u8 (ix2 0 n) :=
  concatenate_rows12_at u0 u1 u2 u3 u4 u5 u6 u7 u8 u9 u10 u11 h 8 hr u8 rfl rfl n

/-- Row 9 of the twelve joined rows is the tenth piece. -/
theorem concatenate_rows12_9 (hr : 9 < 12) (n : Fin N) :
    concatenate ⟨2, ![12, N]⟩ 0 rows12 h (ix2 ⟨9, hr⟩ n) = u9 (ix2 0 n) :=
  concatenate_rows12_at u0 u1 u2 u3 u4 u5 u6 u7 u8 u9 u10 u11 h 9 hr u9 rfl rfl n

/-- Row 10 of the twelve joined rows is the eleventh piece. -/
theorem concatenate_rows12_10 (hr : 10 < 12) (n : Fin N) :
    concatenate ⟨2, ![12, N]⟩ 0 rows12 h (ix2 ⟨10, hr⟩ n) = u10 (ix2 0 n) :=
  concatenate_rows12_at u0 u1 u2 u3 u4 u5 u6 u7 u8 u9 u10 u11 h 10 hr u10 rfl rfl n

/-- Row 11 of the twelve joined rows is the twelfth piece. -/
theorem concatenate_rows12_11 (hr : 11 < 12) (n : Fin N) :
    concatenate ⟨2, ![12, N]⟩ 0 rows12 h (ix2 ⟨11, hr⟩ n) = u11 (ix2 0 n) :=
  concatenate_rows12_at u0 u1 u2 u3 u4 u5 u6 u7 u8 u9 u10 u11 h 11 hr u11 rfl rfl n

/-- ANY row `r` of the twelve joined rows is the piece at position `r`. -/
theorem concatenate_rows12 (r : Fin 12) (n : Fin N) :
    concatenate ⟨2, ![12, N]⟩ 0 rows12 h (ix2 r n)
      = (![u0, u1, u2, u3, u4, u5, u6, u7, u8, u9, u10, u11] r) (ix2 0 n) :=
  match r with
  | ⟨0, hr⟩ => concatenate_rows12_0 u0 u1 u2 u3 u4 u5 u6 u7 u8 u9 u10 u11 h hr n
  | ⟨1, hr⟩ => concatenate_rows12_1 u0 u1 u2 u3 u4 u5 u6 u7 u8 u9 u10 u11 h hr n
  | ⟨2, hr⟩ => concatenate_rows12_2 u0 u1 u2 u3 u4 u5 u6 u7 u8 u9 u10 u11 h hr n
  | ⟨3, hr⟩ => concatenate_rows12_3 u0 u1 u2 u3 u4 u5 u6 u7 u8 u9 u10 u11 h hr n
  | ⟨4, hr⟩ => concatenate_rows12_4 u0 u1 u2 u3 u4 u5 u6 u7 u8 u9 u10 u11 h hr n
  | ⟨5, hr⟩ => concatenate_rows12_5 u0 u1 u2 u3 u4 u5 u6 u7 u8 u9 u10 u11 h hr n
  | ⟨6, hr⟩ => concatenate_rows12_6 u0 u1 u2 u3 u4 u5 u6 u7 u8 u9 u10 u11 h hr n
  | ⟨7, hr⟩ => concatenate_rows12_7 u0 u1 u2 u3 u4 u5 u6 u7 u8 u9 u10 u11 h hr n
  | ⟨8, hr⟩ => concatenate_rows12_8 u0 u1 u2 u3 u4 u5 u6 u7 u8 u9 u10 u11 h hr n
  | ⟨9, hr⟩ => concatenate_rows12_9 u0 u1 u2 u3 u4 u5 u6 u7 u8 u9 u10 u11 h hr n
  | ⟨10, hr⟩ => concatenate_rows12_10 u0 u1 u2 u3 u4 u5 u6 u7 u8 u9 u10 u11 h hr n
  | ⟨11, hr⟩ => concatenate_rows12_11 u0 u1 u2 u3 u4 u5 u6 u7 u8 u9 u10 u11 h hr n

/-! Row `r` at the index `ix2 r n` with `r` a numeral of `Fin 12`. -/

/-- Row 0, the index's row written as a numeral. -/
theorem concatenate_rows12_num_0 (n : Fin N) :
    concatenate ⟨2, ![12, N]⟩ 0 rows12 h (ix2 (0 : Fin 12) n) = u0 (ix2 0 n) :=
  concatenate_rows12 u0 u1 u2 u3 u4 u5 u6 u7 u8 u9 u10 u11 h 0 n

/-- Row 1, the index's row written as a numeral. -/
theorem concatenate_rows12_num_1 (n : Fin N) :
    concatenate ⟨2, ![12, N]⟩ 0 rows12 h (ix2 (1 : Fin 12) n) = u1 (ix2 0 n) :=
  concatenate_rows12 u0 u1 u2 u3 u4 u5 u6 u7 u8 u9 u10 u11 h 1 n

/-- Row 2, the index's row written as a numeral. -/
theorem concatenate_rows12_num_2 (n : Fin N) :
    concatenate ⟨2, ![12, N]⟩ 0 rows12 h (ix2 (2 : Fin 12) n) = u2 (ix2 0 n) :=
  concatenate_rows12 u0 u1 u2 u3 u4 u5 u6 u7 u8 u9 u10 u11 h 2 n

/-- Row 3, the index's row written as a numeral. -/
theorem concatenate_rows12_num_3 (n : Fin N) :
    concatenate ⟨2, ![12, N]⟩ 0 rows12 h (ix2 (3 : Fin 12) n) = u3 (ix2 0 n) :=
  concatenate_rows12 u0 u1 u2 u3 u4 u5 u6 u7 u8 u9 u10 u11 h 3 n

/-- Row 4, the index's row written as a numeral. -/
theorem concatenate_rows12_num_4 (n : Fin N) :
    concatenate ⟨2, ![12, N]⟩ 0 rows12 h (ix2 (4 : Fin 12) n) = u4 (ix2 0 n) :=
  concatenate_rows12 u0 u1 u2 u3 u4 u5 u6 u7 u8 u9 u10 u11 h 4 n

/-- Row 5, the index's row written as a numeral. -/
theorem concatenate_rows12_num_5 (n : Fin N) :
    concatenate ⟨2, ![12, N]⟩ 0 rows12 h (ix2 (5 : Fin 12) n) = u5 (ix2 0 n) :=
  concatenate_rows12 u0 u1 u2 u3 u4 u5 u6 u7 u8 u9 u10 u11 h 5 n

/-- Row 6, the index's row written as a numeral. -/
theorem concatenate_rows12_num_6 (n : Fin N) :
    concatenate ⟨2, ![12, N]⟩ 0 rows12 h (ix2 (6 : Fin 12) n) = u6 (ix2 0 n) :=
  concatenate_rows12 u0 u1 u2 u3 u4 u5 u6 u7 u8 u9 u10 u11 h 6 n

/-- Row 7, the index's row written as a numeral. -/
theorem concatenate_rows12_num_7 (n : Fin N) :
    concatenate ⟨2, ![12, N]⟩ 0 rows12 h (ix2 (7 : Fin 12) n) = u7 (ix2 0 n) :=
  concatenate_rows12 u0 u1 u2 u3 u4 u5 u6 u7 u8 u9 u10 u11 h 7 n

/-- Row 8, the index's row written as a numeral. -/
theorem concatenate_rows12_num_8 (n : Fin N) :
    concatenate ⟨2, ![12, N]⟩ 0 rows12 h (ix2 (8 : Fin 12) n) = u8 (ix2 0 n) :=
  concatenate_rows12 u0 u1 u2 u3 u4 u5 u6 u7 u8 u9 u10 u11 h 8 n

/-- Row 9, the index's row written as a numeral. -/
theorem concatenate_rows12_num_9 (n : Fin N) :
    concatenate ⟨2, ![12, N]⟩ 0 rows12 h (ix2 (9 : Fin 12) n) = u9 (ix2 0 n) :=
  concatenate_rows12 u0 u1 u2 u3 u4 u5 u6 u7 u8 u9 u10 u11 h 9 n

/-- Row 10, the index's row written as a numeral. -/
theorem concatenate_rows12_num_10 (n : Fin N) :
    concatenate ⟨2, ![12, N]⟩ 0 rows12 h (ix2 (10 : Fin 12) n) = u10 (ix2 0 n) :=
  concatenate_rows12 u0 u1 u2 u3 u4 u5 u6 u7 u8 u9 u10 u11 h 10 n

/-- Row 11, the index's row written as a numeral. -/
theorem concatenate_rows12_num_11 (n : Fin N) :
    concatenate ⟨2, ![12, N]⟩ 0 rows12 h (ix2 (11 : Fin 12) n) = u11 (ix2 0 n) :=
  concatenate_rows12 u0 u1 u2 u3 u4 u5 u6 u7 u8 u9 u10 u11 h 11 n

end Rows12

/-! ## Pointwise host operations at an index -/

section Pointwise
variable {s : Shape} {φ : FTy} {w : Nat}

/-- The host's float quotient at an index is the ideal instance's division of the elements. -/
theorem host_divf_apply (a b : FVec Ideal s φ) (i : s.Idx) : Host.divf a b i = Ideal.div (a i) (b i) := rfl
/-- The host's floor at an index rounds the element down to an integer (infinities stay). -/
theorem host_floor_apply (a : FVec Ideal s φ) (i : s.Idx) : Host.floor a i = Ideal.liftRound Int.floor (a i) := rfl
/-- The host's round-to-nearest-even at an index rounds the element, ties to the even integer. -/
theorem host_roundeven_apply (a : FVec Ideal s φ) (i : s.Idx) :
    Host.roundeven a i = Ideal.liftRound Ideal.roundHalfEven (a i) := rfl
/-- The host's absolute value at an index is the larger of the element and its negation. -/
theorem host_absf_apply (a : FVec Ideal s φ) (i : s.Idx) : Host.absf a i = max (a i) (-(a i)) := rfl
/-- A float-to-signed-integer conversion at an index truncates and clamps the element. -/
theorem fptosi_apply (v : Nat) (a : FVec Ideal s φ) (i : s.Idx) : fptosi v a i = Ideal.fptosi v (a i) := rfl
/-- An integer splat reads its word everywhere. -/
theorem constantI_apply (b : BitVec w) (i : s.Idx) : constantI s w b i = b := rfl
/-- An integer sum at an index adds the elements. -/
theorem addi_apply (x y : IVec s w) (i : s.Idx) : addi x y i = IntOp.addi (x i) (y i) := rfl
/-- An integer product at an index multiplies the elements. -/
theorem muli_apply (x y : IVec s w) (i : s.Idx) : muli x y i = IntOp.muli (x i) (y i) := rfl
/-- A signed minimum at an index is the signed minimum of the elements. -/
theorem minsi_apply (x y : IVec s w) (i : s.Idx) : minsi x y i = IntOp.minsi (x i) (y i) := rfl
/-- An integer comparison at an index compares the elements. -/
theorem cmpi_apply (p : CmpIPredicate) (x y : IVec s w) (i : s.Idx) : cmpi p x y i = IntOp.cmpi p (x i) (y i) := rfl
/-- The word-level sum is the bit-vector sum … -/
theorem intOp_addi (x y : BitVec w) : IntOp.addi x y = x + y := rfl
/-- … the word-level product the bit-vector product … -/
theorem intOp_muli (x y : BitVec w) : IntOp.muli x y = x * y := rfl
/-- … and the word-level signed minimum the `if` on the signed comparison. -/
theorem intOp_minsi (x y : BitVec w) : IntOp.minsi x y = if x.slt y then x else y := rfl

end Pointwise

end Cert.LibLayoutIx
-- ==== Proof.HostAt.lean ====
/-
  What the host operations ahead of the first kernel leave in the arrays the two kernels read, at the ideal
  instance, and the index range the precondition grants.

  * The column indices are row 1 of the incidence array, laid out as one row.
  * Each weight matrix is the transpose of its argument (narrowing is the identity on extended reals); each bias is
    its argument with a unit axis added.
  * Every row index lies in [-10000, 10000): the last conjunct of the precondition, read entry by entry.
  * The gathered rows are the reference's gathered rows: under that range every normalised index is on the node axis,
    the in-range mask is all ones, and the masked gather is the gather.
-/
import proofs.«404063_j72000831750623_3_alg».proof.Proof.Gen.KernelIdeal.Regions
import proofs.«404063_j72000831750623_3_alg».proof.Proof.Gen.ReferenceIdeal.Read
import proofs.«404063_j72000831750623_3_alg».proof.Proof.Gen.Pre_finite_inputs
import proofs.«404063_j72000831750623_3_alg».proof.Defs
import proofs.«404063_j72000831750623_3_alg».proof.Proof.LibLayoutIx
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate
import Idealize.ShloMosaic.Lib.ReduceAll

noncomputable section

namespace Cert.KernelIdeal.HostAt

open Cert.KernelIdeal Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ)

/-! ## The layout-only arrays -/

/-- The column indices: a row of the incidence array, flattened and laid out again as one row. -/
theorem V3_main_v6 (c : Dev nD) (k : Fin 640000) :
    (V3 m c main_v6 : S1x640000.Idx → BitVec 32) (ix2 (0 : Fin 1) k)
      = (m ((c.tc : Thread nD τ).loc main_arg1)) (ix2 (1 : Fin 2) k) := by
  have e : (V3 m c main_v6 : S1x640000.Idx → BitVec 32)
      = shapeCast S1x640000 (shapeCast S640000 (extractStridedSlice S1x640000 ![1, 0]
          (m ((c.tc : Thread nD τ).loc main_arg1)) slices_S2x640000_S1x640000_1_0)
          shapeCasts_S1x640000_S640000) shapeCasts_S640000_S1x640000 := by
    show V3 m c main_v6 = _
    dsimp only [V3, V2, V1, V0]
    simp only [hostOps0_2]
    after_results
    rfl
  rw [e]
  -- a flat array laid out as one row reads its coordinate
  rw [shapeCast_apply _ shapeCasts_S640000_S1x640000 (ix2 (0 : Fin 1) k) (ix1 k) (by
    rw [Shape.rowMajor_val_two, Shape.rowMajor_val_one]
    show k.val = 0 * 640000 + k.val
    omega)]
  rw [Cert.LibLayoutIx.shapeCast_row, Cert.LibLayoutIx.extractStridedSlice_row]
  rfl

/-- The first layer's weights: the transpose of the argument (narrowing is the identity on extended reals). -/
theorem V3_main_v8 (c : Dev nD) (h : Fin 64) (d : Fin 128) :
    (V3 m c main_v8 : S64x128.Idx → EReal) (ix2 h d)
      = (m ((c.tc : Thread nD τ).loc main_arg2)) (ix2 d h) := by
  have e : (V3 m c main_v8 : S64x128.Idx → EReal)
      = (truncf .bf16 (transpose S64x128 [1, 0] (m ((c.tc : Thread nD τ).loc main_arg2))
          transposes_S128x64_S64x128_1_0 : FVec Ideal S64x128 .f32) bitsLt_bf16_f32 : FVec Ideal S64x128 .bf16) := by
    show V3 m c main_v8 = _
    dsimp only [V3, V2, V1, V0]
    simp only [hostOps0_2]
    after_results
  rw [e, truncf_apply, Cert.LibLayoutIx.transpose_10]

/-- The second layer's weights: the transpose of the argument. -/
theorem V3_main_v10 (c : Dev nD) (h : Fin 64) :
    (V3 m c main_v10 : S1x64.Idx → EReal) (ix2 (0 : Fin 1) h)
      = (m ((c.tc : Thread nD τ).loc main_arg4)) (ix2 h (0 : Fin 1)) := by
  have e : (V3 m c main_v10 : S1x64.Idx → EReal)
      = (truncf .bf16 (transpose S1x64 [1, 0] (m ((c.tc : Thread nD τ).loc main_arg4))
          transposes_S64x1_S1x64_1_0 : FVec Ideal S1x64 .f32) bitsLt_bf16_f32 : FVec Ideal S1x64 .bf16) := by
    show V3 m c main_v10 = _
    dsimp only [V3, V2, V1, V0]
    simp only [hostOps0_2]
    after_results
  rw [e, truncf_apply, Cert.LibLayoutIx.transpose_10]

/-- The first layer's bias as a column. -/
theorem V3_main_v11 (c : Dev nD) (h : Fin 64) :
    (V3 m c main_v11 : S64x1.Idx → EReal) (ix2 h (0 : Fin 1))
      = (m ((c.tc : Thread nD τ).loc main_arg3)) (ix1 h) := by
  have e : (V3 m c main_v11 : S64x1.Idx → EReal)
      = shapeCast S64x1 (m ((c.tc : Thread nD τ).loc main_arg3)) shapeCasts_S64_S64x1 := by
    show V3 m c main_v11 = _
    dsimp only [V3, V2, V1, V0]
    simp only [hostOps0_2]
    after_results
    rfl
  rw [e]
  exact shapeCast_apply _ shapeCasts_S64_S64x1 (ix2 h (0 : Fin 1)) (ix1 h) (by
    rw [Shape.rowMajor_val_two, Shape.rowMajor_val_one]
    show h.val = h.val * 1 + 0
    omega)

/-- The second layer's bias as a one-by-one array. -/
theorem V3_main_v12 (c : Dev nD) :
    (V3 m c main_v12 : S1x1.Idx → EReal) (ix2 (0 : Fin 1) (0 : Fin 1))
      = (m ((c.tc : Thread nD τ).loc main_arg5)) (ix1 (0 : Fin 1)) := by
  have e : (V3 m c main_v12 : S1x1.Idx → EReal)
      = shapeCast S1x1 (m ((c.tc : Thread nD τ).loc main_arg5)) shapeCasts_S1_S1x1 := by
    show V3 m c main_v12 = _
    dsimp only [V3, V2, V1, V0]
    simp only [hostOps0_2]
    after_results
    rfl
  rw [e]
  exact shapeCast_apply _ shapeCasts_S1_S1x1 (ix2 (0 : Fin 1) (0 : Fin 1)) (ix1 (0 : Fin 1)) (by
    rw [Shape.rowMajor_val_two, Shape.rowMajor_val_one]
    rfl)

/-! ## The index range the precondition grants -/

/-- The result shape of a reduction over every axis has one index. -/
instance subsingleton_S_ : Subsingleton Cert.Pre_finite_inputs.S_.Idx := ⟨fun a b => funext fun d => d.elim0⟩

/-- Every row word is an index of the node axis, counted from either end: the last conjunct of the precondition is a
    conjunction over all entries of two signed comparisons of the entry against the constants -10000 and 10000. -/
theorem row_range (hpre : Cert.Pre_KernelIdeal m) (c : Dev nD) (k : Fin 640000) :
    -10000 ≤ ((m ((c.tc : Thread nD τ).loc main_arg1)) (ix2 (0 : Fin 2) k)).toInt
      ∧ ((m ((c.tc : Thread nD τ).loc main_arg1)) (ix2 (0 : Fin 2) k)).toInt < 10000 := by
  have h := congrFun (hpre c) ix0
  dsimp only [Cert.Pre_finite_inputs.fn, Cert.Pre_finite_inputs.fn_part1] at h
  -- the predicate is a conjunction whose last conjunct is the range test reduced over all entries
  obtain ⟨-, h33⟩ := IntOp.andi_eq_one.1 h
  have hk := Host.reduce_andi_all _ _ _ _ ix0 h33 (ix1 k)
  obtain ⟨hge, hlt⟩ := IntOp.andi_eq_one.1 hk
  have hge' := IntOp.cmpi_sge.1 hge
  have hlt' := IntOp.cmpi_slt.1 hlt
  rw [Cert.LibLayoutIx.broadcastInDim_scalar, Cert.LibLayoutIx.shapeCast_row,
    Cert.LibLayoutIx.extractStridedSlice_row] at hge' hlt'
  have e1 : (constantI Cert.Pre_finite_inputs.S_ 32 4294957296#32 ix0).toInt = -10000 := by decide
  have e2 : (constantI Cert.Pre_finite_inputs.S_ 32 10000#32 ix0).toInt = 10000 := by decide
  rw [e1] at hge'
  rw [e2] at hlt'
  exact ⟨hge', hlt'⟩

/-! ## The gathered rows

The take reads a possibly negative row index from the end of the node axis, tests the normalised index against the
axis, and fills the rows whose index is off the axis. Under the index range every normalised index is on the axis. -/

section Take

variable (a1 : IVec S2x640000 32)

/-- The row indices: row 0 of the incidence array, flattened. -/
def rowIx : IVec S640000 32 :=
  shapeCast S640000 (extractStridedSlice S1x640000 ![0, 0] a1 slices_S2x640000_S1x640000_0_0)
    shapeCasts_S1x640000_S640000

/-- An index below zero counts from the end of the axis: the axis' length is added to it. -/
def normIx : IVec S640000 32 :=
  select (cmpi .slt (rowIx a1) (broadcastInDim S640000 ![] bcast_S_S640000 (constantI S_ 32 0#32)))
    (addi (rowIx a1) (broadcastInDim S640000 ![] bcast_S_S640000 (constantI S_ 32 10000#32))) (rowIx a1)

/-- The gather's start indices, one per incidence. -/
def startIx : IVec S640000x1 32 := broadcastInDim S640000x1 ![0] bcast_S640000_S640000x1_0 (normIx a1)

/-- Whether each start index lies on the node axis, 0 ≤ index ≤ 9999. -/
def onAxis : IVec S640000x1 1 :=
  andi (cmpi .sge (startIx a1) (broadcastInDim S640000x1 ![] bcast_S_S640000x1 (constantI S_ 32 0#32)))
    (cmpi .sle (startIx a1) (broadcastInDim S640000x1 ![0, 1] bcast_S1x1_S640000x1_0_1
      (broadcastInDim S1x1 ![1] bcast_S1_S1x1_1 (constantI S1 32 9999#32))))

/-- The in-range test of each incidence: the conjunction over its index vector. -/
def mask : IVec S640000 1 :=
  Host.reduce IntOp.andi (onAxis a1) (constantI S_ 1 1#1) reducesTo_S640000x1_S640000_d1 h_S_

/-- A word in [-10000, 10000), the axis' length added when it is below zero, lies in [0, 9999]: the sum does not wrap. -/
theorem norm_word (w : BitVec 32) (h0 : -10000 ≤ w.toInt) (h1 : w.toInt < 10000) :
    0 ≤ (Scalar.select (IntOp.cmpi .slt w 0#32) (IntOp.addi w 10000#32) w).toInt
      ∧ (Scalar.select (IntOp.cmpi .slt w 0#32) (IntOp.addi w 10000#32) w).toInt ≤ 9999 := by
  by_cases hn : w.toInt < 0
  · have hc : IntOp.cmpi .slt w 0#32 = 1#1 := IntOp.cmpi_slt.2 (by rw [BitVec.toInt_zero]; exact hn)
    rw [hc, select_one]
    have ha : (IntOp.addi w 10000#32).toInt = w.toInt + 10000 := by
      show (w + 10000#32).toInt = _
      rw [BitVec.toInt_add, show (10000#32 : BitVec 32).toInt = 10000 from by decide]
      exact Int.bmod_eq_of_le (by omega) (by omega)
    rw [ha]
    omega
  · have hc : IntOp.cmpi .slt w 0#32 = 0#1 :=
      eq_zero_of_ne_one (fun h => hn (by have := IntOp.cmpi_slt.1 h; rwa [BitVec.toInt_zero] at this))
    rw [hc, select_zero]
    omega

/-- A conjunction folded over ones from one is one. -/
theorem foldl_andi_ones {ι : Type} (f : ι → BitVec 1) (hf : ∀ n, f n = 1#1) :
    ∀ l : List ι, l.foldl (fun r n => IntOp.andi r (f n)) 1#1 = 1#1
  | [] => rfl
  | a :: l => by
    show List.foldl (fun r n => IntOp.andi r (f n)) (IntOp.andi 1#1 (f a)) l = 1#1
    rw [hf a, show IntOp.andi 1#1 1#1 = (1#1 : BitVec 1) from by decide]
    exact foldl_andi_ones f hf l

variable (hr : ∀ k : Fin 640000, -10000 ≤ (a1 (ix2 (0 : Fin 2) k)).toInt ∧ (a1 (ix2 (0 : Fin 2) k)).toInt < 10000)
include hr

/-- Under the index range the start index of incidence `r` is on the axis. -/
theorem onAxis_ix (r : Fin 640000) (z : Fin 1) : onAxis a1 (ix2 r z) = 1#1 := by
  have hrow : rowIx a1 (ix1 r) = a1 (ix2 (0 : Fin 2) r) := by
    unfold rowIx
    rw [Cert.LibLayoutIx.shapeCast_row, Cert.LibLayoutIx.extractStridedSlice_row]
    rfl
  have hs : startIx a1 (ix2 r z)
      = Scalar.select (IntOp.cmpi .slt (a1 (ix2 (0 : Fin 2) r)) 0#32) (IntOp.addi (a1 (ix2 (0 : Fin 2) r)) 10000#32)
          (a1 (ix2 (0 : Fin 2) r)) := by
    unfold startIx
    rw [Cert.LibLayoutIx.broadcastInDim_col]
    show Scalar.select (IntOp.cmpi .slt (rowIx a1 (ix1 r)) 0#32) (IntOp.addi (rowIx a1 (ix1 r)) 10000#32)
      (rowIx a1 (ix1 r)) = _
    rw [hrow]
  obtain ⟨h0, h1⟩ := norm_word _ (hr r).1 (hr r).2
  show IntOp.andi (IntOp.cmpi .sge (startIx a1 (ix2 r z)) 0#32) (IntOp.cmpi .sle (startIx a1 (ix2 r z)) 9999#32) = 1#1
  rw [hs]
  exact IntOp.andi_eq_one.2 ⟨IntOp.cmpi_sge.2 (by rw [BitVec.toInt_zero]; exact h0),
    IntOp.cmpi_sle.2 (by rw [show (9999#32 : BitVec 32).toInt = 9999 from by decide]; exact h1)⟩

/-- Under the index range every start index is on the axis. -/
theorem onAxis_one (j : S640000x1.Idx) : onAxis a1 j = 1#1 := by
  rw [eq_ix2 j]
  exact onAxis_ix a1 hr _ _

/-- Under the index range the in-range test passes at every incidence. -/
theorem mask_one (r : S640000.Idx) : mask a1 r = 1#1 := by
  unfold mask
  rw [Host.reduce_eq_foldl]
  exact foldl_andi_ones (onAxis a1) (onAxis_one a1 hr) _

omit hr

/-- The kernel's gather and the reference's read the same array at the same start indices. -/
theorem gather_eq (a0 : FVec Ideal S10000x128 .f32) :
    Host.gather gather_S10000x128_S640000x1_S640000x128_1_0_n_n_0_1_1128 a0 (startIx a1)
      = Cert.ReferenceIdeal.Read.val_main_v10 (F := Ideal) a0 a1 := rfl

end Take

set_option maxHeartbeats 2000000 in
/-- What the host operations leave in the gathered array, as a term over the launch contents: the masked gather,
    narrowed. -/
theorem V3_main_v5_eq (c : Dev nD) : (V3 m c main_v5 : S640000x128.Idx → EReal)
    = (truncf .bf16 (select (broadcastInDim S640000x128 ![0] bcast_S640000_S640000x128_0
          (mask (m ((c.tc : Thread nD τ).loc main_arg1))))
        (Host.gather gather_S10000x128_S640000x1_S640000x128_1_0_n_n_0_1_1128 (m ((c.tc : Thread nD τ).loc main_arg0))
          (startIx (m ((c.tc : Thread nD τ).loc main_arg1))))
        (broadcastInDim S640000x128 ![] bcast_S_S640000x128 (constant (F := Ideal) S_ .f32 0x7FC00000#32))
        : FVec Ideal S640000x128 .f32) bitsLt_bf16_f32 : FVec Ideal S640000x128 .bf16) := by
  show V3 m c main_v5 = _
  dsimp only [V3, V2, V1, V0]
  simp only [hostOps0_2, hostOps0_1, hostOps0]
  after_results
  -- the typed references' transports are along equations between equal types
  simp only [cast_eq]
  rfl

/-- The gathered rows are the reference's gathered rows: under the index range the in-range test passes everywhere,
    the masked gather is the gather, and the two gathers read the same array at the same start indices. -/
theorem V3_main_v5 (hpre : Cert.Pre_KernelIdeal m) (c : Dev nD) :
    (V3 m c main_v5 : S640000x128.Idx → EReal)
      = Cert.ReferenceIdeal.Read.val_main_v10 (m ((c.tc : Thread nD τ).loc main_arg0))
          (m ((c.tc : Thread nD τ).loc main_arg1)) := by
  rw [V3_main_v5_eq m c, ← gather_eq]
  funext i
  rw [truncf_apply, select_apply]
  have hm : broadcastInDim S640000x128 ![0] bcast_S640000_S640000x128_0
      (mask (m ((c.tc : Thread nD τ).loc main_arg1))) i = 1#1 :=
    mask_one _ (row_range m hpre c) _
  rw [hm, select_one]

end Cert.KernelIdeal.HostAt

end
-- ==== Proof.Bridge.lean ====
/-
  The kernel program's result, index by index, is the shared specification's score.

  The host's last operation flattens the one-row result.  The second kernel region leaves, at segment e, the logistic of
  the second affine layer over the first (cut off below at zero) over the mean, computed from the two planes of the first
  region's partial sums and counts.  Each plane is the sum of its half's blocks' contributions and the two halves' blocks
  are all the incidences once each, so the planes added are the sum over all incidences of a feature times the segment's
  0 / 1, which is the segment's sum, and of the 0 / 1 alone, which is the segment's count.  The weight arrays the host
  prepared are the arguments transposed or given a unit axis.  What remains is the algebra between the two arrangements
  of the score.
-/
import proofs.«404063_j72000831750623_3_alg».proof.Proof.Gen.KernelIdeal.Regions
import proofs.«404063_j72000831750623_3_alg».proof.Proof.Gen.ReferenceIdeal.Read
import proofs.«404063_j72000831750623_3_alg».proof.Proof.Gen.Pre_finite_inputs
import proofs.«404063_j72000831750623_3_alg».proof.Defs
import proofs.«404063_j72000831750623_3_alg».proof.Proof.R0Data
import proofs.«404063_j72000831750623_3_alg».proof.Proof.R1Data
import proofs.«404063_j72000831750623_3_alg».proof.Proof.R1Val
import proofs.«404063_j72000831750623_3_alg».proof.Proof.SegData
import proofs.«404063_j72000831750623_3_alg».proof.Proof.PayAt
import proofs.«404063_j72000831750623_3_alg».proof.Proof.Spec
import proofs.«404063_j72000831750623_3_alg».proof.Proof.BridgeAlg
import proofs.«404063_j72000831750623_3_alg».proof.Proof.R0Val
import proofs.«404063_j72000831750623_3_alg».proof.Proof.HostAt
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Bridge

open Cert.KernelIdeal Cert.KernelIdeal.Gen Cert.KernelIdeal.Hand Cert.KernelIdeal.PayAt
open Idealize.ShloMosaic Idealize.ShloMosaic.TcCoe Idealize.ShloMosaic.ValueIdx
open Idealize.ShloMosaic.StableHlo

variable (m : (ℓ : Loc nD τ sig) → Buf (Elt Ideal) ℓ)

/-- The host tail: the result laid out as one row, flattened. -/
theorem tail_apply (outs : Outs (F := Ideal)) (c : Dev nD) (e : Fin 10000) :
    (V6 m outs c main_v15 : S10000.Idx → EReal) (ix1 e)
      = (V5 m outs c main_v14 : S1x10000.Idx → EReal) (ix2 (0 : Fin 1) e) := by
  have e1 : (V6 m outs c main_v15 : S10000.Idx → EReal)
      = shapeCast S10000 (V5 m outs c main_v14 : S1x10000.Idx → EReal) shapeCasts_S1x10000_S10000 := by
    show V6 m outs c main_v15 = _
    dsimp only [V6]
    simp only [hostOps2]
    after_results
    rfl
  rw [e1, shapeCast_1a_a_apply]

/-- The first region's two output arrays and the host's four weight arrays, as the second region finds them. -/
abbrev sumArr (c : Dev nD) : Vec Ideal S2x128x10112 .f32 := (dat0 (Vat3 m) c).arrAt 2 cfg0.N
abbrev cntArr (c : Dev nD) : Vec Ideal S2x1x10112 .f32 := (dat0 (Vat3 m) c).arrAt 3 cfg0.N
abbrev w1Arr (c : Dev nD) : Vec Ideal S64x128 .bf16 := V3 m c main_v8
abbrev b1Arr (c : Dev nD) : Vec Ideal S64x1 .f32 := V3 m c main_v11
abbrev w2Arr (c : Dev nD) : Vec Ideal S1x64 .bf16 := V3 m c main_v10
abbrev b2Arr (c : Dev nD) : Vec Ideal S1x1 .f32 := V3 m c main_v12

/-- What the second region leaves at segment e, from the first region's output arrays and the host's weight arrays:
    the region's output array is its one block, the block is the payload of the arrays' planes, and the payload read
    at an index is the two layers over the mean. -/
theorem v14_apply (c : Dev nD) (e : Fin 10000) (e' : Fin 10112) (he : e'.val = e.val) :
    (V5 m (outsK m) c main_v14 : S1x10000.Idx → EReal) (ix2 (0 : Fin 1) e)
      = Ideal.logistic ((∑ h : Fin 64, w2Arr m c (ix2 (0 : Fin 1) h) *
          max ((∑ d : Fin 128, w1Arr m c (ix2 h d) *
              Ideal.div (sumArr m c (ix3 (0 : Fin 2) d e') + sumArr m c (ix3 (1 : Fin 2) d e'))
                (max (cntArr m c (ix3 (0 : Fin 2) (0 : Fin 1) e') + cntArr m c (ix3 (1 : Fin 2) (0 : Fin 1) e')) Cert.Spec.one))
            + b1Arr m c (ix2 h (0 : Fin 1))) 0)
        + b2Arr m c (ix2 (0 : Fin 1) (0 : Fin 1))) := by
  have h0 : Vat4 m c main_v13_0 = sumArr m c := V4_v13_0 m c
  have h1 : Vat4 m c main_v13_1 = cntArr m c := V4_v13_1 m c
  have h2 : Vat4 m c main_v8 = w1Arr m c := V4_of m (outsA m) c main_v8 (by decide)
  have h3 : Vat4 m c main_v11 = b1Arr m c := V4_of m (outsA m) c main_v11 (by decide)
  have h4 : Vat4 m c main_v10 = w2Arr m c := V4_of m (outsA m) c main_v10 (by decide)
  have h5 : Vat4 m c main_v12 = b2Arr m c := V4_of m (outsA m) c main_v12 (by decide)
  rw [V5_v14, arr6_eq, out1_6_eq, h0, h1, h2, h3, h4, h5, k1_pay1_apply_at _ _ _ _ _ _ _ _ e e' he]

/-- The gathered feature rows and the segment words, as the specification names them. -/
abbrev gSpec (c : Dev nD) : Fin Cert.Spec.nInc → Fin Cert.Spec.nFeat → EReal := fun k d =>
  Cert.ReferenceIdeal.Read.val_main_v10 (m ((c.tc : Thread nD τ).loc main_arg0)) (m ((c.tc : Thread nD τ).loc main_arg1)) (ix2 k d)
abbrev colSpec (c : Dev nD) : Fin Cert.Spec.nInc → BitVec 32 := fun k =>
  m ((c.tc : Thread nD τ).loc main_arg1) (ix2 (1 : Fin 2) k)

/-- The two halves' partial sums added: each half's array is the sum of its blocks' contributions, the two halves'
    blocks are all the incidences once each, and a feature times the segment's 0 / 1 summed over all incidences is the
    segment's sum. -/
theorem sum_planes (hpre : Cert.Pre_KernelIdeal m) (c : Dev nD) (d : Fin 128) (e' : Fin 10112) :
    sumArr m c (ix3 (0 : Fin 2) d e') + sumArr m c (ix3 (1 : Fin 2) d e')
      = Cert.Spec.segSum (gSpec m c) (colSpec m c) e'.val d := by
  have hg : R0Val.gArr (Vat3 m) c = Cert.ReferenceIdeal.Read.val_main_v10 (m ((c.tc : Thread nD τ).loc main_arg0)) (m ((c.tc : Thread nD τ).loc main_arg1)) :=
    HostAt.V3_main_v5 m hpre c
  have hc : ∀ k : Fin 640000, R0Val.cArr (Vat3 m) c (ix2 (0 : Fin 1) k) = colSpec m c k := fun k => HostAt.V3_main_v6 m c k
  have a0 : sumArr m c (ix3 (0 : Fin 2) d e')
      = ∑ s ∈ Finset.univ.filter (fun s : Fin cfg0.N => s.val / 1250 = 0), R0Val.blkS (Vat3 m) c s d e' :=
    R0Val.arr2_apply (Vat3 m) c 0 d e'
  have a1 : sumArr m c (ix3 (1 : Fin 2) d e')
      = ∑ s ∈ Finset.univ.filter (fun s : Fin cfg0.N => s.val / 1250 = 1), R0Val.blkS (Vat3 m) c s d e' :=
    R0Val.arr2_apply (Vat3 m) c 1 d e'
  rw [a0, a1]
  unfold R0Val.blkS
  refine (R0Val.sum_halves (fun k => R0Val.gArr (Vat3 m) c (ix2 k d) * oh (R0Val.cArr (Vat3 m) c (ix2 (0 : Fin 1) k)) e'.val)).trans ?_
  refine Eq.trans (Finset.sum_congr rfl fun k _ => ?_) (sum_mul_oh (fun k => gSpec m c k d) (colSpec m c) e'.val)
  rw [hc k, hg]

/-- The two halves' partial counts added: the segment's count. -/
theorem cnt_planes (c : Dev nD) (e' : Fin 10112) :
    cntArr m c (ix3 (0 : Fin 2) (0 : Fin 1) e') + cntArr m c (ix3 (1 : Fin 2) (0 : Fin 1) e')
      = Cert.Spec.segCnt (colSpec m c) e'.val := by
  have hc : ∀ k : Fin 640000, R0Val.cArr (Vat3 m) c (ix2 (0 : Fin 1) k) = colSpec m c k := fun k => HostAt.V3_main_v6 m c k
  have a0 : cntArr m c (ix3 (0 : Fin 2) (0 : Fin 1) e')
      = ∑ s ∈ Finset.univ.filter (fun s : Fin cfg0.N => s.val / 1250 = 0), R0Val.blkC (Vat3 m) c s e' :=
    R0Val.arr3_apply (Vat3 m) c 0 e'
  have a1 : cntArr m c (ix3 (1 : Fin 2) (0 : Fin 1) e')
      = ∑ s ∈ Finset.univ.filter (fun s : Fin cfg0.N => s.val / 1250 = 1), R0Val.blkC (Vat3 m) c s e' :=
    R0Val.arr3_apply (Vat3 m) c 1 e'
  rw [a0, a1]
  unfold R0Val.blkC
  refine (R0Val.sum_halves (fun k => oh (R0Val.cArr (Vat3 m) c (ix2 (0 : Fin 1) k)) e'.val)).trans ?_
  refine Eq.trans (Finset.sum_congr rfl fun k _ => ?_) (sum_oh (colSpec m c) e'.val)
  rw [hc k]

/-- The two layers' weights and biases, as the specification names them. -/
abbrev W1Spec (c : Dev nD) : Fin Cert.Spec.nFeat → Fin Cert.Spec.nHid → EReal := fun d h =>
  m ((c.tc : Thread nD τ).loc main_arg2) (ix2 d h)
abbrev b1Spec (c : Dev nD) : Fin Cert.Spec.nHid → EReal := fun h => m ((c.tc : Thread nD τ).loc main_arg3) (ix1 h)
abbrev W2Spec (c : Dev nD) : Fin Cert.Spec.nHid → EReal := fun h =>
  m ((c.tc : Thread nD τ).loc main_arg4) (ix2 h (0 : Fin 1))
abbrev b2Spec (c : Dev nD) : EReal := m ((c.tc : Thread nD τ).loc main_arg5) (ix1 (0 : Fin 1))

/-- The host's weight arrays at an index: each weight matrix is its argument transposed, each bias its argument with a
    unit axis added. -/
theorem w1Arr_apply (c : Dev nD) (h : Fin 64) (d : Fin 128) : w1Arr m c (ix2 h d) = W1Spec m c d h :=
  HostAt.V3_main_v8 m c h d
theorem w2Arr_apply (c : Dev nD) (h : Fin 64) : w2Arr m c (ix2 (0 : Fin 1) h) = W2Spec m c h :=
  HostAt.V3_main_v10 m c h
theorem b1Arr_apply (c : Dev nD) (h : Fin 64) : b1Arr m c (ix2 h (0 : Fin 1)) = b1Spec m c h :=
  HostAt.V3_main_v11 m c h
theorem b2Arr_apply (c : Dev nD) : b2Arr m c (ix2 (0 : Fin 1) (0 : Fin 1)) = b2Spec m c :=
  HostAt.V3_main_v12 m c

/-- The kernel program's result at segment e is the specification's score: the host tail is a flattening; the second
    region leaves the two layers over the mean of the first region's arrays; those arrays added over the two halves
    are the segment's sum and count; the weight arrays are the arguments laid out; the rest is the algebra of the
    score's two arrangements. -/
theorem kernel_value (hpre : Cert.Pre_KernelIdeal m) (c : Dev nD) (e : Fin 10000) :
    (V6 m (outsK m) c main_v15 : S10000.Idx → EReal) (ix1 e)
      = Cert.Spec.score
          (fun k d => Cert.ReferenceIdeal.Read.val_main_v10 (m ((c.tc : Thread nD τ).loc main_arg0)) (m ((c.tc : Thread nD τ).loc main_arg1)) (ix2 k d))
          (fun k => m ((c.tc : Thread nD τ).loc main_arg1) (ix2 (1 : Fin 2) k))
          (fun d h => m ((c.tc : Thread nD τ).loc main_arg2) (ix2 d h))
          (fun h => m ((c.tc : Thread nD τ).loc main_arg3) (ix1 h))
          (fun h => m ((c.tc : Thread nD τ).loc main_arg4) (ix2 h (0 : Fin 1)))
          (m ((c.tc : Thread nD τ).loc main_arg5) (ix1 (0 : Fin 1))) e.val := by
  rw [tail_apply, v14_apply m c e ⟨e.val, by have := e.isLt; omega⟩ rfl]
  refine Eq.trans ?_ (score_kernel_form (gSpec m c) (colSpec m c) (W1Spec m c) (b1Spec m c) (W2Spec m c) (b2Spec m c) e.val)
  have inner : ∀ h : Fin 64,
      (∑ d : Fin 128, w1Arr m c (ix2 h d) *
          Ideal.div (sumArr m c (ix3 (0 : Fin 2) d (⟨e.val, by have := e.isLt; omega⟩ : Fin 10112))
              + sumArr m c (ix3 (1 : Fin 2) d (⟨e.val, by have := e.isLt; omega⟩ : Fin 10112)))
            (max (cntArr m c (ix3 (0 : Fin 2) (0 : Fin 1) (⟨e.val, by have := e.isLt; omega⟩ : Fin 10112))
              + cntArr m c (ix3 (1 : Fin 2) (0 : Fin 1) (⟨e.val, by have := e.isLt; omega⟩ : Fin 10112))) Cert.Spec.one))
        = ∑ d : Fin 128, W1Spec m c d h *
            Ideal.div (Cert.Spec.segSum (gSpec m c) (colSpec m c) e.val d)
              (max (Cert.Spec.segCnt (colSpec m c) e.val) Cert.Spec.one) :=
    fun h => Finset.sum_congr rfl fun d _ => by
      rw [sum_planes m hpre c d _, cnt_planes m c _, w1Arr_apply]
  have outer : (∑ h : Fin 64, w2Arr m c (ix2 (0 : Fin 1) h) *
        max ((∑ d : Fin 128, w1Arr m c (ix2 h d) *
          Ideal.div (sumArr m c (ix3 (0 : Fin 2) d (⟨e.val, by have := e.isLt; omega⟩ : Fin 10112))
              + sumArr m c (ix3 (1 : Fin 2) d (⟨e.val, by have := e.isLt; omega⟩ : Fin 10112)))
            (max (cntArr m c (ix3 (0 : Fin 2) (0 : Fin 1) (⟨e.val, by have := e.isLt; omega⟩ : Fin 10112))
              + cntArr m c (ix3 (1 : Fin 2) (0 : Fin 1) (⟨e.val, by have := e.isLt; omega⟩ : Fin 10112))) Cert.Spec.one))
          + b1Arr m c (ix2 h (0 : Fin 1))) 0)
      = ∑ h : Fin 64, W2Spec m c h *
          max ((∑ d : Fin 128, W1Spec m c d h *
            Ideal.div (Cert.Spec.segSum (gSpec m c) (colSpec m c) e.val d)
              (max (Cert.Spec.segCnt (colSpec m c) e.val) Cert.Spec.one)) + b1Spec m c h) 0 :=
    Finset.sum_congr rfl fun h _ => by rw [inner h, w2Arr_apply, b1Arr_apply]
  rw [outer, b2Arr_apply]

end Cert.KernelIdeal.Bridge

end
-- ==== Proof.LibScatterRows.lean ====
/-
  A general lemma about the host's accumulating scatter on the extended reals.

  A ROW scatter-add — `stablehlo.scatter` with an `add` body, `update_window_dims = [1]`, `inserted_window_dims = [0]`,
  `scatter_dims_to_operand_dims = [0]`, `index_vector_dim = 1`, on an operand of shape `[S, C]`, scatter indices `[R, 1]`
  and updates `[R, C]` — adds row `r` of the updates to row `idx r` of the operand (jax's `segment_sum`). On the extended
  reals the sum is exact and order-free, so the result at `(s, c)` is the operand there plus the sum of the updates'
  column `c` over the rows whose index word is `s`; and when those rows are enumerated without repetition by
  `e : Fin P → Fin R`, that sum is `∑ p, upd (e p, c)`.
-/
import Idealize.ShloMosaic.PureOps.Ideal
import Idealize.ShloMosaic.Lib.ValueIdx

noncomputable section

namespace Cert.LibScatterRows

open Idealize.ShloMosaic Idealize.ShloMosaic.ValueIdx

/-- A sum over the members of a set of rows cut out by a predicate, re-indexed by an enumeration of that set:
    `e` is injective, lands in the set, and reaches every member. -/
theorem sum_filter_eq_sum_enum {R P : ℕ} {M : Type} [AddCommMonoid M] (pred : Fin R → Prop) [DecidablePred pred]
    (e : Fin P → Fin R) (hinj : Function.Injective e) (hmem : ∀ p, pred (e p)) (hsurj : ∀ r, pred r → ∃ p, e p = r)
    (f : Fin R → M) : ∑ r ∈ Finset.univ.filter pred, f r = ∑ p : Fin P, f (e p) := by
  have hset : Finset.univ.filter pred = Finset.univ.image e := by
    ext r
    simp only [Finset.mem_filter, Finset.mem_univ, true_and, Finset.mem_image]
    constructor
    · intro h; exact hsurj r h
    · rintro ⟨p, rfl⟩; exact hmem p
  rw [hset, Finset.sum_image (fun a _ b _ h => hinj h)]

/-- On operand axis 0 the window starts at the index word of the update's row, read signed. -/
theorem rows_start_zero {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 0
      = (idx (ix2 r (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- On operand axis 1 the window starts at 0. -/
theorem rows_start_one {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) :
    (⟨[1], [0], [0], 1, wf⟩ : ScatterDims ⟨2, ![S, C]⟩ ⟨2, ![R, 1]⟩ ⟨2, ![R, C]⟩).start (ix2 r c') idx 1 = 0 := by
  unfold ScatterDims.start
  rw [dif_neg (show ¬ (1 : Fin 2) ∈ [(0 : Fin 2)] by decide)]

/-- On operand axis 0, an inserted axis, the window coordinate is 0. -/
theorem rows_window_zero {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 0 = 0 := by
  unfold ScatterDims.window
  exact dif_neg (show ¬ (0 : Fin 2) ∈ (List.finRange 2).filter (· ∉ [(0 : Fin 2)]) by decide)

/-- On operand axis 1 the window coordinate is the update's column. -/
theorem rows_window_one {S C R : ℕ}
    (wf : ScatterDims.WF (⟨2, ![S, C]⟩ : Shape) ⟨2, ![R, 1]⟩ ⟨2, ![R, C]⟩ [1] [0] [0] 1)
    (r : Fin R) (c' : Fin C) :
    (⟨[1], [0], [0], 1, wf⟩ : ScatterDims ⟨2, ![S, C]⟩ ⟨2, ![R, 1]⟩ ⟨2, ![R, C]⟩).window (ix2 r c') 1 = c'.val := by
  unfold ScatterDims.window
  exact (dif_pos (show (1 : Fin 2) ∈ (List.finRange 2).filter (· ∉ [(0 : Fin 2)]) by decide)).trans rfl

/-- Where an update lands, on a rank-2 operand, from the window's start and coordinate on the two axes: if on axis 0
    the start is `t` and the window coordinate 0, and on axis 1 the start is 0 and the window coordinate `k`, the update
    goes to `(s, c)` exactly when `t = s` and `k = c` (otherwise it goes elsewhere or is dropped). -/
theorem resultIdx_eq_some_ix2_iff {S C w : ℕ} {si u : Shape} (d : ScatterDims ⟨2, ![S, C]⟩ si u) (j : u.Idx)
    (idx : IVec si w) (t : Int) (k : ℕ) (h00 : d.start j idx 0 = t) (h01 : d.start j idx 1 = 0)
    (hw0 : d.window j 0 = 0) (hw1 : d.window j 1 = k) (s : Fin S) (c : Fin C) :
    d.resultIdx? j idx = some (ix2 s c) ↔ t = (s.val : Int) ∧ k = c.val := by
  have hs := s.isLt
  have hc := c.isLt
  unfold ScatterDims.resultIdx?
  constructor
  · intro h
    split_ifs at h with hall
    have hfun := Option.some.inj h
    have e0 : (d.start j idx 0 + (d.window j 0 : ℕ)).toNat = s.val := congrArg (fun f => (f 0).val) hfun
    have e1 : (d.start j idx 1 + (d.window j 1 : ℕ)).toNat = c.val := congrArg (fun f => (f 1).val) hfun
    have b0 : 0 ≤ d.start j idx 0 + (d.window j 0 : ℕ) := (hall 0).1
    have b1 : 0 ≤ d.start j idx 1 + (d.window j 1 : ℕ) := (hall 1).1
    rw [h00, hw0] at e0 b0
    rw [h01, hw1] at e1 b1
    constructor <;> omega
  · rintro ⟨ht, hk⟩
    have hall : ∀ a, 0 ≤ d.start j idx a + d.window j a
        ∧ d.start j idx a + d.window j a < (⟨2, ![S, C]⟩ : Shape).size a := by
      intro a
      match a with
      | ⟨0, _⟩ =>
        show 0 ≤ d.start j idx 0 + (d.window j 0 : ℕ) ∧ d.start j idx 0 + (d.window j 0 : ℕ) < (S : Int)
        rw [h00, hw0]; omega
      | ⟨1, _⟩ =>
        show 0 ≤ d.start j idx 1 + (d.window j 1 : ℕ) ∧ d.start j idx 1 + (d.window j 1 : ℕ) < (C : Int)
        rw [h01, hw1]; omega
    rw [dif_pos hall]
    congr 1
    funext a
    refine Fin.ext ?_
    match a with
    | ⟨0, _⟩ =>
      show (d.start j idx 0 + (d.window j 0 : ℕ)).toNat = s.val
      rw [h00, hw0]; omega
    | ⟨1, _⟩ =>
      show (d.start j idx 1 + (d.window j 1 : ℕ)).toNat = c.val
      rw [h01, hw1]; omega

/-- Where an update of a row scatter lands: the update at row `r`, column `c'` goes to operand index `(s, c)` exactly
    when the row's index word, read signed, is `s` and the columns agree. -/
theorem rows_resultIdx_eq_some_iff {S C R w : ℕ}
    (wf : ScatterDims.WF (⟨2, ![S, C]⟩ : Shape) ⟨2, ![R, 1]⟩ ⟨2, ![R, C]⟩ [1] [0] [0] 1)
    (idx : IVec ⟨2, ![R, 1]⟩ w) (r : Fin R) (c' : Fin C) (s : Fin S) (c : Fin C) :
    (⟨[1], [0], [0], 1, wf⟩ : ScatterDims ⟨2, ![S, C]⟩ ⟨2, ![R, 1]⟩ ⟨2, ![R, C]⟩).resultIdx? (ix2 r c') idx
        = some (ix2 s c)
      ↔ (idx (ix2 r (0 : Fin 1))).toInt = (s.val : Int) ∧ c' = c := by
  rw [resultIdx_eq_some_ix2_iff _ _ idx _ _ (rows_start_zero wf idx r c') (rows_start_one wf idx r c')
    (rows_window_zero wf r c') (rows_window_one wf r c') s c, Fin.ext_iff]

/-- A row scatter-add read at `(s, c)`: the operand there plus the updates' column `c` summed over the rows whose index
    word, read signed, is `s`. -/
theorem hostScatterAdd_rows_apply {S C R w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (s : Fin S) (c : Fin C) :
    Ideal.hostScatterAdd (⟨[1], [0], [0], 1, wf⟩ : ScatterDims ⟨2, ![S, C]⟩ ⟨2, ![R, 1]⟩ ⟨2, ![R, C]⟩) x idx upd (ix2 s c)
      = x (ix2 s c)
        + ∑ r ∈ Finset.univ.filter (fun r : Fin R => (idx (ix2 r (0 : Fin 1))).toInt = (s.val : Int)), upd (ix2 r c) := by
  unfold Ideal.hostScatterAdd
  congr 1
  rw [Finset.sum_filter, sum_idx2, Finset.sum_filter]
  refine Finset.sum_congr rfl fun r _ => ?_
  by_cases hr : (idx (ix2 r (0 : Fin 1))).toInt = (s.val : Int)
  · rw [if_pos hr, Finset.sum_eq_single c]
    · exact if_pos ((rows_resultIdx_eq_some_iff wf idx r c s c).2 ⟨hr, rfl⟩)
    · intro c' _ hne
      exact if_neg fun h => hne ((rows_resultIdx_eq_some_iff wf idx r c' s c).1 h).2
    · intro hc
      exact absurd (Finset.mem_univ c) hc
  · rw [if_neg hr]
    exact Finset.sum_eq_zero fun c' _ => if_neg fun h => hr ((rows_resultIdx_eq_some_iff wf idx r c' s c).1 h).1

/-- The same with the rows of segment `s` enumerated: if row `r`'s index word is the natural number `seg r`, and `e`
    lists the rows with `seg r = s` once each, the result at `(s, c)` is the operand there plus `∑ p, upd (e p, c)`. -/
theorem hostScatterAdd_rows_enum {S C R P w : ℕ}
    (wf : ScatterDims.WF (⟨2, ![S, C]⟩ : Shape) ⟨2, ![R, 1]⟩ ⟨2, ![R, C]⟩ [1] [0] [0] 1)
    (x : (⟨2, ![S, C]⟩ : Shape).Idx → EReal) (idx : IVec ⟨2, ![R, 1]⟩ w) (upd : (⟨2, ![R, C]⟩ : Shape).Idx → EReal)
    (seg : Fin R → ℕ) (hseg : ∀ r : Fin R, (idx (ix2 r (0 : Fin 1))).toInt = (seg r : Int))
    (s : Fin S) (c : Fin C) (e : Fin P → Fin R) (hinj : Function.Injective e) (hmem : ∀ p, seg (e p) = s.val)
    (hsurj : ∀ r, seg r = s.val → ∃ p, e p = r) :
    Ideal.hostScatterAdd (⟨[1], [0], [0], 1, wf⟩ : ScatterDims ⟨2, ![S, C]⟩ ⟨2, ![R, 1]⟩ ⟨2, ![R, C]⟩) x idx upd (ix2 s c)
      = x (ix2 s c) + ∑ p : Fin P, upd (ix2 (e p) c) := by
  rw [hostScatterAdd_rows_apply wf x idx upd s c]
  congr 1
  refine sum_filter_eq_sum_enum (fun r : Fin R => (idx (ix2 r (0 : Fin 1))).toInt = (s.val : Int)) e hinj ?_ ?_
    (fun r => upd (ix2 r c))
  · intro p
    show (idx (ix2 (e p) (0 : Fin 1))).toInt = (s.val : Int)
    rw [hseg, hmem]
  · intro r hr
    have hr' : (idx (ix2 r (0 : Fin 1))).toInt = (s.val : Int) := hr
    rw [hseg] at hr'
    exact hsurj r (Int.ofNat.inj hr')

end Cert.LibScatterRows

end
-- ==== Proof.LibScatterVec.lean ====
/-
  A general lemma about the host's accumulating scatter on the extended reals, for a VECTOR operand.

  A scatter-add of scalars — `stablehlo.scatter` with an `add` body, no update window axis, `inserted_window_dims = [0]`,
  `scatter_dims_to_operand_dims = [0]`, `index_vector_dim = 1`, on an operand of shape `[S]`, scatter indices `[R, 1]`
  and updates `[R]` — adds update `r` to element `idx r` of the operand (jax's `segment_sum` of a vector: a count, when
  the updates are ones). The index word is read signed and is not clamped: an update whose word is negative or at
  least `S` lands nowhere. On the extended reals the sum is exact and order-free, so the result at `s` is the operand
  there plus the sum of the updates over the rows whose index word is `s`.
-/
import Idealize.ShloMosaic.PureOps.Ideal
import Idealize.ShloMosaic.Lib.ValueIdx

noncomputable section

namespace Cert.LibScatterVec

open Idealize.ShloMosaic Idealize.ShloMosaic.ValueIdx

/-- A rank-1 index set is its one coordinate's. -/
def idxEquiv1 {n : ℕ} : (⟨1, ![n]⟩ : Shape).Idx ≃ Fin n where
  toFun j := j 0
  invFun a := ix1 a
  left_inv j := (eq_ix1 j).symm
  right_inv _ := rfl

/-- A sum over a rank-1 index set is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis the window starts at the index word of the update, read signed. -/
theorem vec_start {S R w : ℕ}
    (wf : ScatterDims.WF (⟨1, ![S]⟩ : Shape) ⟨2, ![R, 1]⟩ ⟨1, ![R]⟩ [] [0] [0] 1)
    (idx : IVec ⟨2, ![R, 1]⟩ w) (r : Fin R) :
    (⟨[], [0], [0], 1, wf⟩ : ScatterDims ⟨1, ![S]⟩ ⟨2, ![R, 1]⟩ ⟨1, ![R]⟩).start (ix1 r) idx 0
      = (idx (ix2 r (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

/-- The operand's one axis is an inserted axis: the window coordinate there is 0. -/
theorem vec_window {S R : ℕ}
    (wf : ScatterDims.WF (⟨1, ![S]⟩ : Shape) ⟨2, ![R, 1]⟩ ⟨1, ![R]⟩ [] [0] [0] 1) (r : Fin R) :
    (⟨[], [0], [0], 1, wf⟩ : ScatterDims ⟨1, ![S]⟩ ⟨2, ![R, 1]⟩ ⟨1, ![R]⟩).window (ix1 r) 0 = 0 := by
  unfold ScatterDims.window
  exact dif_neg (show ¬ (0 : Fin 1) ∈ (List.finRange 1).filter (· ∉ [(0 : Fin 1)]) by decide)

/-- Where an update lands on a vector operand: if the window starts at `t` with window coordinate 0, the update
    goes to `s` exactly when `t = s` (otherwise it goes elsewhere or is dropped). -/
theorem resultIdx_eq_some_ix1_iff {S w : ℕ} {si u : Shape} (d : ScatterDims ⟨1, ![S]⟩ si u) (j : u.Idx)
    (idx : IVec si w) (t : Int) (h0 : d.start j idx 0 = t) (hw : d.window j 0 = 0) (s : Fin S) :
    d.resultIdx? j idx = some (ix1 s) ↔ t = (s.val : Int) := by
  have hs := s.isLt
  unfold ScatterDims.resultIdx?
  constructor
  · intro h
    split_ifs at h with hall
    have hfun := Option.some.inj h
    have e0 : (d.start j idx 0 + (d.window j 0 : ℕ)).toNat = s.val := congrArg (fun f => (f 0).val) hfun
    have b0 : 0 ≤ d.start j idx 0 + (d.window j 0 : ℕ) := (hall 0).1
    rw [h0, hw] at e0 b0
    omega
  · intro ht
    have hall : ∀ a, 0 ≤ d.start j idx a + d.window j a
        ∧ d.start j idx a + d.window j a < (⟨1, ![S]⟩ : Shape).size a := by
      intro a
      match a with
      | ⟨0, _⟩ =>
        show 0 ≤ d.start j idx 0 + (d.window j 0 : ℕ) ∧ d.start j idx 0 + (d.window j 0 : ℕ) < (S : Int)
        rw [h0, hw]; omega
    rw [dif_pos hall]
    congr 1
    funext a
    refine Fin.ext ?_
    match a with
    | ⟨0, _⟩ =>
      show (d.start j idx 0 + (d.window j 0 : ℕ)).toNat = s.val
      rw [h0, hw]; omega

/-- Where an update of a vector scatter lands: update `r` goes to operand element `s` exactly when its index word,
    read signed, is `s`. -/
theorem vec_resultIdx_eq_some_iff {S R w : ℕ}
    (wf : ScatterDims.WF (⟨1, ![S]⟩ : Shape) ⟨2, ![R, 1]⟩ ⟨1, ![R]⟩ [] [0] [0] 1)
    (idx : IVec ⟨2, ![R, 1]⟩ w) (r : Fin R) (s : Fin S) :
    (⟨[], [0], [0], 1, wf⟩ : ScatterDims ⟨1, ![S]⟩ ⟨2, ![R, 1]⟩ ⟨1, ![R]⟩).resultIdx? (ix1 r) idx = some (ix1 s)
      ↔ (idx (ix2 r (0 : Fin 1))).toInt = (s.val : Int) :=
  resultIdx_eq_some_ix1_iff _ _ idx _ (vec_start wf idx r) (vec_window wf r) s

/-- A vector scatter-add read at `s`: the operand there plus the updates summed over the rows whose index word, read
    signed, is `s`. -/
theorem hostScatterAdd_vec_apply {S R w : ℕ}
    (wf : ScatterDims.WF (⟨1, ![S]⟩ : Shape) ⟨2, ![R, 1]⟩ ⟨1, ![R]⟩ [] [0] [0] 1)
    (x : (⟨1, ![S]⟩ : Shape).Idx → EReal) (idx : IVec ⟨2, ![R, 1]⟩ w) (upd : (⟨1, ![R]⟩ : Shape).Idx → EReal)
    (s : Fin S) :
    Ideal.hostScatterAdd (⟨[], [0], [0], 1, wf⟩ : ScatterDims ⟨1, ![S]⟩ ⟨2, ![R, 1]⟩ ⟨1, ![R]⟩) x idx upd (ix1 s)
      = x (ix1 s)
        + ∑ r ∈ Finset.univ.filter (fun r : Fin R => (idx (ix2 r (0 : Fin 1))).toInt = (s.val : Int)), upd (ix1 r) := by
  unfold Ideal.hostScatterAdd
  congr 1
  rw [Finset.sum_filter, sum_idx1, Finset.sum_filter]
  refine Finset.sum_congr rfl fun r _ => ?_
  by_cases hr : (idx (ix2 r (0 : Fin 1))).toInt = (s.val : Int)
  · rw [if_pos hr, if_pos ((vec_resultIdx_eq_some_iff wf idx r s).2 hr)]
  · rw [if_neg hr, if_neg fun h => hr ((vec_resultIdx_eq_some_iff wf idx r s).1 h)]

end Cert.LibScatterVec

end
-- ==== Proof.RefAt.lean ====
/-
  The reference's result read at a segment as the shared specification.

  The reference gathers one feature row per incidence, adds the rows of each segment into a zero array (a row
  scatter-add), counts the rows of each segment by adding the word of 1.0 into a zero vector (a vector scatter-add),
  divides the sums by the counts raised to at least one, applies two affine layers with a cut-off at zero after the
  first, and the logistic function.  Read at segment e, every stage is the matching stage of Cert.Spec over the
  gathered rows (kept as one unopened array) and the segment words (row 1 of the incidence table).
-/
import proofs.«404063_j72000831750623_3_alg».proof.Proof.Gen.ReferenceIdeal.Run
import proofs.«404063_j72000831750623_3_alg».proof.Proof.Gen.ReferenceIdeal.Read
import proofs.«404063_j72000831750623_3_alg».proof.Proof.Spec
import proofs.«404063_j72000831750623_3_alg».proof.Proof.LibScatterRows
import proofs.«404063_j72000831750623_3_alg».proof.Proof.LibScatterVec

noncomputable section

namespace Cert.ReferenceIdeal.RefAt

open Cert.ReferenceIdeal Cert.ReferenceIdeal.Read Cert.ReferenceIdeal.Gen Idealize.ShloMosaic Idealize.ShloMosaic.ValueIdx
  Idealize.ShloMosaic.TcCoe Idealize.SL.Sem Idealize.ShloMosaic.StableHlo

/-- Through row 1's slice, the reshape to a vector and the broadcast to a column, the index word of incidence k is the
    table's entry (1, k): the slice adds 1 on axis 0, the reshape's coordinate is k mod 640000 = k. -/
theorem idx_col (k : Fin 640000) :
    idx_main_v2 (idx_main_v3 (idx_main_v12 (ix2 k (0 : Fin 1)))) = ix2 (1 : Fin 2) k :=
  funext fun a => Fin.ext (by
    match a with
    | ⟨0, _⟩ => rfl
    | ⟨1, _⟩ => exact Nat.mod_eq_of_lt k.isLt)

/-- The index column of the row scatter-add at incidence k. -/
theorem col12 (x1 : (⟨S2x640000, .i32⟩ : BufTy).Contents (Elt Ideal)) (k : Fin 640000) :
    val_main_v12 (F := Ideal) x1 (ix2 k (0 : Fin 1)) = x1 (ix2 (1 : Fin 2) k) := by
  rw [val_main_v12_apply, val_main_v3_apply, val_main_v2_apply]
  exact congrArg x1 (idx_col k)

/-- The index column of the vector scatter-add at incidence k: the same column. -/
theorem col16 (x1 : (⟨S2x640000, .i32⟩ : BufTy).Contents (Elt Ideal)) (k : Fin 640000) :
    val_main_v16 (F := Ideal) x1 (ix2 k (0 : Fin 1)) = x1 (ix2 (1 : Fin 2) k) := by
  rw [val_main_v16_apply, val_main_v3_apply, val_main_v2_apply]
  exact congrArg x1 (idx_col k)

/-- On the extended reals the host's accumulating scatter is the exact sum, at every shape. -/
theorem scatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The row scatter-add at (e, d): zero plus the gathered rows' coordinate d summed over the incidences whose segment
    word, read signed, is e. -/
theorem sum_at (x0 : (⟨S10000x128, .f32⟩ : BufTy).Contents (Elt Ideal)) (x1 : (⟨S2x640000, .i32⟩ : BufTy).Contents (Elt Ideal)) (e : Fin 10000) (d : Fin 128) :
    val_main_v13 (F := Ideal) x0 x1 (ix2 e d)
      = Cert.Spec.segSum (fun k d => val_main_v10 (F := Ideal) x0 x1 (ix2 k d)) (fun k => x1 (ix2 (1 : Fin 2) k)) e.val d := by
  unfold val_main_v13 Cert.Spec.segSum
  generalize val_main_v10 (F := Ideal) x0 x1 = g
  rw [scatterAdd_eq]
  unfold scatter_S10000x128_S640000x1_S640000x128_1_0_0_1
  rw [Cert.LibScatterRows.hostScatterAdd_rows_apply]
  rw [val_main_v11_apply, val_main_cst_apply, Ideal.ofBits_def, Ideal.ofBits_zero_f32, zero_add]
  simp only [col12]

/-- The vector scatter-add at e: zero plus the word of 1.0 summed over the incidences whose segment word, read signed,
    is e. -/
theorem cnt_at (x1 : (⟨S2x640000, .i32⟩ : BufTy).Contents (Elt Ideal)) (e : Fin 10000) :
    val_main_v17 (F := Ideal) x1 (ix1 e) = Cert.Spec.segCnt (fun k => x1 (ix2 (1 : Fin 2) k)) e.val := by
  unfold val_main_v17 Cert.Spec.segCnt Cert.Spec.one
  rw [scatterAdd_eq]
  unfold scatter_S10000_S640000x1_S640000_n_0_0_1
  rw [Cert.LibScatterVec.hostScatterAdd_vec_apply]
  rw [val_main_v15_apply, val_main_cst_2_apply, Ideal.ofBits_def, Ideal.ofBits_zero_f32, zero_add]
  simp only [col16, val_main_v14_apply, val_main_cst_1_apply, Ideal.ofBits_def]

/-- The mean at (e, d): the sum over the count raised to at least the word of 1.0; the count reaches (e, d) through a
    column broadcast and a row broadcast, both of which keep e. -/
theorem mean_at (x0 : (⟨S10000x128, .f32⟩ : BufTy).Contents (Elt Ideal)) (x1 : (⟨S2x640000, .i32⟩ : BufTy).Contents (Elt Ideal)) (e : Fin 10000) (d : Fin 128) :
    val_main_v22 (F := Ideal) x0 x1 (ix2 e d)
      = Cert.Spec.mean (fun k d => val_main_v10 (F := Ideal) x0 x1 (ix2 k d)) (fun k => x1 (ix2 (1 : Fin 2) k)) e.val d := by
  have hc : idx_main_v20 (idx_main_v21 (ix2 e d)) = ix1 e :=
    funext fun a => Fin.ext (by match a with | ⟨0, _⟩ => rfl)
  rw [val_main_v22_apply, Ideal.hostDivf_def, sum_at, val_main_v21_apply, val_main_v20_apply, hc, val_main_v19_apply,
    Ideal.maximumf_def, cnt_at, val_main_v18_apply, val_main_cst_3_apply, Ideal.ofBits_def]
  rfl

/-- The first layer at (e, h): the contraction of the mean row with column h of the weights, plus the bias at h, cut
    off below at zero (the zero word is 0). -/
theorem hid_at (x0 : (⟨S10000x128, .f32⟩ : BufTy).Contents (Elt Ideal)) (x1 : (⟨S2x640000, .i32⟩ : BufTy).Contents (Elt Ideal)) (x2 : (⟨S128x64, .f32⟩ : BufTy).Contents (Elt Ideal)) (x3 : (⟨S64, .f32⟩ : BufTy).Contents (Elt Ideal)) (e : Fin 10000) (h : Fin 64) :
    val_main_v27 (F := Ideal) x0 x1 x2 x3 (ix2 e h)
      = Cert.Spec.hid (fun k d => val_main_v10 (F := Ideal) x0 x1 (ix2 k d)) (fun k => x1 (ix2 (1 : Fin 2) k)) (fun d h => x2 (ix2 d h)) (fun h => x3 (ix1 h)) e.val h := by
  have hl : ∀ k : Fin 128, lidx_main_v23 (ix2 e h) k = ix2 e k := fun k =>
    funext fun a => Fin.ext (by match a with | ⟨0, _⟩ => rfl | ⟨1, _⟩ => rfl)
  have hr : ∀ k : Fin 128, ridx_main_v23 (ix2 e h) k = ix2 k h := fun k =>
    funext fun a => Fin.ext (by match a with | ⟨0, _⟩ => rfl | ⟨1, _⟩ => rfl)
  have hb : idx_main_v24 (idx_main_v25 (ix2 e h)) = ix1 h :=
    funext fun a => Fin.ext (by match a with | ⟨0, _⟩ => rfl)
  rw [val_main_v27_apply, val_main_v26_apply, val_main_v23_apply, val_main_v25_apply, val_main_v24_apply, hb,
    val_main_call0_v0_apply, val_main_call0_cst_apply, Ideal.maximumf_def, Ideal.addf_def, Ideal.ofBits_def,
    Ideal.ofBits_zero_f32]
  simp only [hl, hr, mean_at]
  rfl

/-- The second layer at (e, 0): the contraction of the hidden row with the weight column, plus the bias. -/
theorem logit_at (x0 : (⟨S10000x128, .f32⟩ : BufTy).Contents (Elt Ideal)) (x1 : (⟨S2x640000, .i32⟩ : BufTy).Contents (Elt Ideal)) (x2 : (⟨S128x64, .f32⟩ : BufTy).Contents (Elt Ideal)) (x3 : (⟨S64, .f32⟩ : BufTy).Contents (Elt Ideal)) (x4 : (⟨S64x1, .f32⟩ : BufTy).Contents (Elt Ideal)) (x5 : (⟨S1, .f32⟩ : BufTy).Contents (Elt Ideal)) (e : Fin 10000) :
    val_main_v31 (F := Ideal) x0 x1 x2 x3 x4 x5 (ix2 e (0 : Fin 1))
      = Cert.Spec.logit (fun k d => val_main_v10 (F := Ideal) x0 x1 (ix2 k d)) (fun k => x1 (ix2 (1 : Fin 2) k)) (fun d h => x2 (ix2 d h)) (fun h => x3 (ix1 h)) (fun h => x4 (ix2 h (0 : Fin 1))) (x5 (ix1 (0 : Fin 1))) e.val := by
  have hl : ∀ k : Fin 64, lidx_main_v28 (ix2 e (0 : Fin 1)) k = ix2 e k := fun k =>
    funext fun a => Fin.ext (by match a with | ⟨0, _⟩ => rfl | ⟨1, _⟩ => rfl)
  have hr : ∀ k : Fin 64, ridx_main_v28 (ix2 e (0 : Fin 1)) k = ix2 k (0 : Fin 1) := fun k =>
    funext fun a => Fin.ext (by match a with | ⟨0, _⟩ => rfl | ⟨1, _⟩ => rfl)
  have hb : idx_main_v29 (idx_main_v30 (ix2 e (0 : Fin 1))) = ix1 (0 : Fin 1) :=
    funext fun a => Fin.ext (by match a with | ⟨0, _⟩ => rfl)
  rw [val_main_v31_apply, val_main_v28_apply, val_main_v30_apply, val_main_v29_apply, hb, Ideal.addf_def]
  simp only [hl, hr, hid_at]
  rfl

/-- The reference's result at segment e is the specification's score: the reshape from a column keeps e, and the
    logistic function is the word of 1.0 over that word plus the exponential of the negated second layer. -/
theorem ref_apply (x0 : (⟨S10000x128, .f32⟩ : BufTy).Contents (Elt Ideal)) (x1 : (⟨S2x640000, .i32⟩ : BufTy).Contents (Elt Ideal)) (x2 : (⟨S128x64, .f32⟩ : BufTy).Contents (Elt Ideal)) (x3 : (⟨S64, .f32⟩ : BufTy).Contents (Elt Ideal)) (x4 : (⟨S64x1, .f32⟩ : BufTy).Contents (Elt Ideal)) (x5 : (⟨S1, .f32⟩ : BufTy).Contents (Elt Ideal)) (e : Fin 10000) :
    val_main_v38 x0 x1 x2 x3 x4 x5 (ix1 e)
      = Cert.Spec.score (fun k d => val_main_v10 (F := Ideal) x0 x1 (ix2 k d)) (fun k => x1 (ix2 (1 : Fin 2) k)) (fun d h => x2 (ix2 d h)) (fun h => x3 (ix1 h)) (fun h => x4 (ix2 h (0 : Fin 1))) (x5 (ix1 (0 : Fin 1))) e.val := by
  have h38 : idx_main_v38 (ix1 e) = ix2 e (0 : Fin 1) :=
    funext fun a => Fin.ext (by
      match a with
      | ⟨0, _⟩ => exact Nat.div_one e.val
      | ⟨1, _⟩ => rfl)
  rw [val_main_v38_apply, h38, val_main_v37_apply, val_main_v36_apply, val_main_cst_5_apply, val_main_v35_apply,
    val_main_v34_apply, val_main_cst_4_apply, val_main_v33_apply, val_main_v32_apply, logit_at, Ideal.hostDivf_def,
    Ideal.addf_def, Ideal.hostUnary_exp_def, Ideal.hostNegf_def, Ideal.negf_def, Ideal.ofBits_def]
  rfl

/-- Every execution of the reference ends with the result, at every segment, at the specification's score of the launch
    contents (the gathered rows those of the launch contents), and with the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ e : Fin 10000, r.2.mem ((c.tc : Thread nD τ).loc main_v38) (ix1 e)
        = Cert.Spec.score (fun k d => val_main_v10 (m ((c.tc : Thread nD τ).loc main_arg0)) (m ((c.tc : Thread nD τ).loc main_arg1)) (ix2 k d))
            (fun k => m ((c.tc : Thread nD τ).loc main_arg1) (ix2 (1 : Fin 2) k)) (fun d h => m ((c.tc : Thread nD τ).loc main_arg2) (ix2 d h))
            (fun h => m ((c.tc : Thread nD τ).loc main_arg3) (ix1 h)) (fun h => m ((c.tc : Thread nD τ).loc main_arg4) (ix2 h (0 : Fin 1)))
            (m ((c.tc : Thread nD τ).loc main_arg5) (ix1 (0 : Fin 1))) e.val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨fun e => (congrFun ((h c).1.trans (val_main_v38_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))) (ix1 e)).trans
          (ref_apply _ _ _ _ _ _ e), (h c).2⟩)
    (Cert.ReferenceIdeal.Value.run (F := Ideal) m ρ)

end Cert.ReferenceIdeal.RefAt

end
-- ==== Proof.lean ====
/-
  The five claims, each closed by one fact.  The three frame claims: each program runs to the end with its argument
  arrays as launched (the kernel's two runs over its two regions, at the word level and on the extended reals; the
  reference's run with the result dropped).  The idealization claim: narrowing to sixteen bits and widening back is the
  identity on the extended reals (the rule's own lemma).  The algebraic claim: on the extended reals, from memories
  that agree on the arguments, both results are, segment by segment, the one specification Cert.Spec.score of the
  same gathered rows, segment words, weights and biases.
-/
import proofs.«404063_j72000831750623_3_alg».proof.Defs
import proofs.«404063_j72000831750623_3_alg».proof.Proof.Gen.Kernel
import proofs.«404063_j72000831750623_3_alg».proof.Proof.Gen.Kernel.Skeleton
import proofs.«404063_j72000831750623_3_alg».proof.Proof.Gen.Kernel.Launch
import proofs.«404063_j72000831750623_3_alg».proof.Proof.Gen.Kernel.Regions
import proofs.«404063_j72000831750623_3_alg».proof.Proof.Gen.Kernel.Points
import proofs.«404063_j72000831750623_3_alg».proof.Proof.Gen.KernelIdeal
import proofs.«404063_j72000831750623_3_alg».proof.Proof.Gen.KernelIdeal.Skeleton
import proofs.«404063_j72000831750623_3_alg».proof.Proof.Gen.KernelIdeal.Launch
import proofs.«404063_j72000831750623_3_alg».proof.Proof.Gen.KernelIdeal.Regions
import proofs.«404063_j72000831750623_3_alg».proof.Proof.Gen.KernelIdeal.Points
import proofs.«404063_j72000831750623_3_alg».proof.Proof.Gen.ReferenceIdeal
import proofs.«404063_j72000831750623_3_alg».proof.Proof.Gen.Pre_finite_inputs
import Idealize.ShloMosaic.Adequacy
import Idealize.ShloMosaic.Init
import proofs.«404063_j72000831750623_3_alg».proof.Proof.Bits.Segs
import proofs.«404063_j72000831750623_3_alg».proof.Proof.Segs
import proofs.«404063_j72000831750623_3_alg».proof.Proof.Bridge
import proofs.«404063_j72000831750623_3_alg».proof.Proof.RefAt

noncomputable section

namespace Cert.Proof

open Idealize.ShloMosaic Idealize.ShloMosaic.TcCoe Idealize.SL.Sem

/-- The kernel at the word level runs and leaves its arguments as launched. -/
theorem frame_k : Cert.frame_Kernel := fun m ρ _ => Cert.Kernel.Hand.frame m ρ

/-- The kernel on the extended reals runs and leaves its arguments as launched. -/
theorem frame_ki : Cert.frame_KernelIdeal := fun m ρ _ => Cert.KernelIdeal.Hand.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization, at the site's shape and formats: the rule's lemma. -/
theorem preserves : Cert.preserves_Kernel_KernelIdeal := IdealRules.truncf_extf.statement _ .f32 .bf16

/-- On the extended reals the kernel's result is the last valuation's at the result array, which at every segment e is
    the specification's score of the kernel's arguments; the reference's result at e is the same score of ITS
    arguments, which are the kernel's; every index of a vector of 10000 is a segment. -/
theorem algebraic : Cert.algebraic_KernelIdeal_ReferenceIdeal := by
  intro m ρ m' ρ' hpre hagree
  refine ⟨fun c => Cert.KernelIdeal.Gen.V6 m (Cert.KernelIdeal.Hand.outsK m) c Cert.KernelIdeal.main_v15,
    Cert.KernelIdeal.Hand.run_all (F := Ideal) m ρ, ?_⟩
  refine (θ_run Cert.ReferenceIdeal.defs _ _).mono (fun _ h c => ⟨?_, (h c).2⟩)
    (Cert.ReferenceIdeal.RefAt.run_spec m' ρ')
  refine funext fun (i : (⟨1, ![10000]⟩ : Shape).Idx) => ?_
  obtain ⟨e, rfl⟩ : ∃ e : Fin 10000, i = ValueIdx.ix1 e := ⟨i 0, ValueIdx.eq_ix1 i⟩
  refine ((h c).1 e).trans ?_
  rw [(hagree c).1, (hagree c).2.1, (hagree c).2.2.1, (hagree c).2.2.2.1, (hagree c).2.2.2.2.1, (hagree c).2.2.2.2.2]
  exact (Cert.KernelIdeal.Bridge.kernel_value m hpre c e).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
